-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.named_const.Statement Cert.KernelIdeal.κ "inv_20000" .f32 0x3851B717#32 ((1 / 20000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x20000x128 : Shape := ⟨3, ![8, 20000, 128]⟩
abbrev S8x1 : Shape := ⟨2, ![8, 1]⟩
abbrev S2x320000 : Shape := ⟨2, ![2, 320000]⟩
abbrev S128x64 : Shape := ⟨2, ![128, 64]⟩
abbrev S64 : Shape := ⟨1, ![64]⟩
abbrev S64x64 : Shape := ⟨2, ![64, 64]⟩
abbrev S65x1 : Shape := ⟨2, ![65, 1]⟩
abbrev S1 : Shape := ⟨1, ![1]⟩
abbrev S_ : Shape := ⟨0, ![]⟩

class Facts : Prop where
  bcast_S_S8x20000x128 : S_.BroadcastsInDim S8x20000x128 (![] : Fin 0 → Fin S8x20000x128.rank)
  reducesTo_S8x20000x128_S_d0_1_2 : S8x20000x128.ReducesTo [0, 1, 2] S_
  h_S_ : 0 < S_.numel
  bcast_S_S8x1 : S_.BroadcastsInDim S8x1 (![] : Fin 0 → Fin S8x1.rank)
  reducesTo_S8x1_S_d0_1 : S8x1.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S65x1 : S_.BroadcastsInDim S65x1 (![] : Fin 0 → Fin S65x1.rank)
  reducesTo_S65x1_S_d0_1 : S65x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg5 : FVec F S64x64 .f32) (main_arg6 : FVec F S64 .f32) (main_arg7 : FVec F S65x1 .f32) (main_arg8 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S65x1 .f32 := Host.absf main_arg7
  let main_cst_10 : FVec F S_ .f32 := constant S_ .f32 0x7F800000#32
  let main_v30 : FVec F S65x1 .f32 := broadcastInDim S65x1 ![] bcast_S_S65x1 main_cst_10
  let main_v31 : IVec S65x1 1 := cmpf .olt main_v29 main_v30
  let main_c_11 : IVec S_ 1 := constantI S_ 1 1#1
  let main_v32 : IVec S_ 1 := (fun x v => Host.reduce IntOp.andi x v reducesTo_S65x1_S_d0_1 h_S_) main_v31 main_c_11
  let main_v33 : IVec S_ 1 := andi main_v28 main_v32
  fn_part2 (F := F) main_arg8 main_v33

def fn {F : FTy → Type} [FloatOps F] (main_arg0 : FVec F S8x20000x128 .f32) (main_arg1 : FVec F S8x1 .f32) (main_arg2 : IVec S2x320000 32) (main_arg3 : FVec F S128x64 .f32) (main_arg4 : FVec F S64 .f32) (main_arg5 : FVec F S64x64 .f32) (main_arg6 : FVec F S64 .f32) (main_arg7 : FVec F S65x1 .f32) (main_arg8 : FVec F S1 .f32) : IVec S_ 1 :=
  let main_v0 : FVec F S8x20000x128 .f32 := Host.absf main_arg0
  let main_cst : FVec F S_ .f32 := constant S_ .f32 0x7F800000#32
  let main_v1 : FVec F S8x20000x128 .f32 := broadcastInDim S8x20000x128 ![] bcast_S_S8x20000x128 main_cst
  let main_v2 : IVec S8x20000x128 1 := cmpf .olt main_v0 main_v1
  let main_c : IVec S_ 1 := constantI S_ 1 1#1
  let main_v3 : IVec S_ 1 := (fun x v => Host.reduce IntOp.andi x v reducesTo_S8x20000x128_S_d0_1_2 h_S_) main_v2 main_c
  let main_v4 : FVec F S8x1 .f32 := Host.absf main_arg1
  let main_cst_0 : FVec F S_ .f32 := constant S_ .f32 0x7F800000#32
  let main_v5 : FVec F S8x1 .f32 := broadcastInDim S8x1 ![] bcast_S_S8x1 main_cst_0
  let main_v6 : IVec S8x1 1 := cmpf .olt main_v4 main_v5
  let main_c_1 : IVec S_ 1 := constantI S_ 1 1#1
  let main_v7 : IVec S_ 1 := (fun x v => Host.reduce IntOp.andi x v reducesTo_S8x1_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Kernel.lean ====
abbrev S8x20000x128 : Shape := ⟨3, ![8, 20000, 128]⟩
abbrev S8x1 : Shape := ⟨2, ![8, 1]⟩
abbrev S2x320000 : Shape := ⟨2, ![2, 320000]⟩
abbrev S128x64 : Shape := ⟨2, ![128, 64]⟩
abbrev S64 : Shape := ⟨1, ![64]⟩
abbrev S64x64 : Shape := ⟨2, ![64, 64]⟩
abbrev S65x1 : Shape := ⟨2, ![65, 1]⟩
abbrev S1 : Shape := ⟨1, ![1]⟩
abbrev S1x320000 : Shape := ⟨2, ![1, 320000]⟩
abbrev S320000 : Shape := ⟨1, ![320000]⟩
abbrev S_ : Shape := ⟨0, ![]⟩
abbrev S20000 : Shape := ⟨1, ![20000]⟩
abbrev S320000x1 : Shape := ⟨2, ![320000, 1]⟩
abbrev S20000x1 : Shape := ⟨2, ![20000, 1]⟩
abbrev S160000x128 : Shape := ⟨2, ![160000, 128]⟩
abbrev S160000x64 : Shape := ⟨2, ![160000, 64]⟩
abbrev S20000x128 : Shape := ⟨2, ![20000, 128]⟩
abbrev S20000x64 : Shape := ⟨2, ![20000, 64]⟩
abbrev S8x20000x64 : Shape := ⟨3, ![8, 20000, 64]⟩
abbrev S8x320000x64 : Shape := ⟨3, ![8, 320000, 64]⟩
abbrev S1x320000x1 : Shape := ⟨3, ![1, 320000, 1]⟩
abbrev S1x64 : Shape := ⟨2, ![1, 64]⟩
abbrev S8x64 : Shape := ⟨2, ![8, 64]⟩
abbrev S8x2000x64 : Shape := ⟨3, ![8, 2000, 64]⟩
abbrev S8x65 : Shape := ⟨2, ![8, 65]⟩
abbrev S1x1 : Shape := ⟨2, ![1, 1]⟩

abbrev nBuf : Space → Nat
  | .hbm => 114
  | .vmem => 30
  | .smem => 0
  | _ => 0

abbrev bufTy : (tb : Table) → Fin (tcTables nBuf tb) → BufTy
  | .hbm, ⟨0, _⟩ => ⟨S8x20000x128, .f32⟩
  | .hbm, ⟨1, _⟩ => ⟨S8x1, .f32⟩
  | .hbm, ⟨2, _⟩ => ⟨S2x320000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S65x1, .f32⟩
  | .hbm, ⟨8, _⟩ => ⟨S1, .f32⟩
  | .hbm, ⟨9, _⟩ => ⟨S1x320000, .i32⟩
  | .hbm, ⟨10, _⟩ => ⟨S320000, .i32⟩
  | .hbm, ⟨11, _⟩ => ⟨S1x320000, .i32⟩
  | .hbm, ⟨12, _⟩ => ⟨S320000, .i32⟩
  | .hbm, ⟨13, _⟩ => ⟨S_, .f32⟩
  | .hbm, ⟨14, _⟩ => ⟨S20000, .f32⟩
  | .hbm, ⟨15, _⟩ => ⟨S_, .i32⟩
  | .hbm, ⟨16, _⟩ => ⟨S320000, .i32⟩
  | .hbm, ⟨17, _⟩ => ⟨S320000, .i1⟩
  | .hbm, ⟨18, _⟩ => ⟨S_, .i32⟩
  | .hbm, ⟨19, _⟩ => ⟨S320000, .i32⟩
  | .hbm, ⟨20, _⟩ => ⟨S320000, .i32⟩
  | .hbm, ⟨21, _⟩ => ⟨S320000, .i32⟩
  | .hbm, ⟨22, _⟩ => ⟨S320000x1, .i32⟩
  | .hbm, ⟨23, _⟩ => ⟨S_, .f32⟩
  | .hbm, ⟨24, _⟩ => ⟨S320000, .f32⟩
  | .hbm, ⟨25, _⟩ => ⟨S20000, .f32⟩
  | .hbm, ⟨26, _⟩ => ⟨S20000, .f32⟩
  | .hbm, ⟨27, _⟩ => ⟨S_, .i32⟩
  | .hbm, ⟨28, _⟩ => ⟨S320000, .i32⟩
  | .hbm, ⟨29, _⟩ => ⟨S320000, .i1⟩
  | .hbm, ⟨30, _⟩ => ⟨S_, .i32⟩
  | .hbm, ⟨31, _⟩ => ⟨S320000, .i32⟩
  | .hbm, ⟨32, _⟩ => ⟨S320000, .i32⟩
  | .hbm, ⟨33, _⟩ => ⟨S320000, .i32⟩
  | .hbm, ⟨34, _⟩ => ⟨S320000x1, .i32⟩
  | .hbm, ⟨35, _⟩ => ⟨S320000, .f32⟩
  | .hbm, ⟨36, _⟩ => ⟨S_, .i32⟩
  | .hbm, ⟨37, _⟩ => ⟨S320000, .i32⟩
  | .hbm, ⟨38, _⟩ => ⟨S320000, .i1⟩
  | .hbm, ⟨39, _⟩ => ⟨S_, .i32⟩
  | .hbm, ⟨40, _⟩ => ⟨S320000, .i32⟩
  | .hbm, ⟨41, _⟩ => ⟨S320000, .i32⟩
  | .hbm, ⟨42, _⟩ => ⟨S320000, .i32⟩
  | .hbm, ⟨43, _⟩ => ⟨S320000x1, .i32⟩
  | .hbm, ⟨44, _⟩ => ⟨S320000, .f32⟩
  | .hbm, ⟨45, _⟩ => ⟨S320000, .f32⟩
  | .hbm, ⟨46, _⟩ => ⟨S20000, .f32⟩
  | .hbm, ⟨47, _⟩ => ⟨S20000x1, .f32⟩
  | .hbm, ⟨48, _⟩ => ⟨S160000x128, .f32⟩
  | .hbm, ⟨49, _⟩ => ⟨S160000x64, .f32⟩
  | .hbm, ⟨50, _⟩ => ⟨S8x20000x64, .f32⟩
  | .hbm, ⟨51, _⟩ => ⟨S_, .i32⟩
  | .hbm, ⟨52, _⟩ => ⟨S320000, .i32⟩
  | .hbm, ⟨53, _⟩ => ⟨S320000, .i1⟩
  | .hbm, ⟨54, _⟩ => ⟨S_, .i32⟩
  | .hbm, ⟨55, _⟩ => ⟨S320000, .i32⟩
  | .hbm, ⟨56, _⟩ => ⟨S320000, .i32⟩
  | .hbm, ⟨57, _⟩ => ⟨S320000, .i32⟩
  | .hbm, ⟨58, _⟩ => ⟨S320000x1, .i32⟩
  | .hbm, ⟨59, _⟩ => ⟨S8x320000x64, .f32⟩
  | .hbm, ⟨60, _⟩ => ⟨S1x320000x1, .f32⟩
  | .hbm, ⟨61, _⟩ => ⟨S8x320000x64, .f32⟩
  | .hbm, ⟨62, _⟩ => ⟨S8x320000x64, .f32⟩
  | .hbm, ⟨63, _⟩ => ⟨S_, .f32⟩
  | .hbm, ⟨64, _⟩ => ⟨S8x20000x64, .f32⟩
  | .hbm, ⟨65, _⟩ => ⟨S_, .i32⟩
  | .hbm, ⟨66, _⟩ => ⟨S320000, .i32⟩
  | .hbm, ⟨67, _⟩ => ⟨S320000, .i1⟩
  | .hbm, ⟨68, _⟩ => ⟨S_, .i32⟩
  | .hbm, ⟨69, _⟩ => ⟨S320000, .i32⟩
  | .hbm, ⟨70, _⟩ => ⟨S320000, .i32⟩
  | .hbm, ⟨71, _⟩ => ⟨S320000, .i32⟩
  | .hbm, ⟨72, _⟩ => ⟨S320000x1, .i32⟩
  | .hbm, ⟨73, _⟩ => ⟨S8x20000x64, .f32⟩
  | .hbm, ⟨74, _⟩ => ⟨S160000x64, .f32⟩
  | .hbm, ⟨75, _⟩ => ⟨S1x64, .f32⟩
  | .hbm, ⟨76, _⟩ => ⟨S160000x64, .f32⟩
  | .hbm, ⟨77, _⟩ => ⟨S8x20000x64, .f32⟩
  | .hbm, ⟨78, _⟩ => ⟨S160000x64, .f32⟩
  | .hbm, ⟨79, _⟩ => ⟨S160000x64, .f32⟩
  | .hbm, ⟨80, _⟩ => ⟨S8x20000x64, .f32⟩
  | .hbm, ⟨81, _⟩ => ⟨S_, .i32⟩
  | .hbm, ⟨82, _⟩ => ⟨S320000, .i32⟩
  | .hbm, ⟨83, _⟩ => ⟨S320000, .i1⟩
  | .hbm, ⟨84, _⟩ => ⟨S_, .i32⟩
  | .hbm, ⟨85, _⟩ => ⟨S320000, .i32⟩
  | .hbm, ⟨86, _⟩ => ⟨S320000, .i32⟩
  | .hbm, ⟨87, _⟩ => ⟨S320000, .i32⟩
  | .hbm, ⟨88, _⟩ => ⟨S320000x1, .i32⟩
  | .hbm, ⟨89, _⟩ => ⟨S8x320000x64, .f32⟩
  | .hbm, ⟨90, _⟩ => ⟨S1x320000x1, .f32⟩
  | .hbm, ⟨91, _⟩ => ⟨S8x320000x64, .f32⟩
  | .hbm, ⟨92, _⟩ => ⟨S8x320000x64, .f32⟩
  | .hbm, ⟨93, _⟩ => ⟨S_, .f32⟩
  | .hbm, ⟨94, _⟩ => ⟨S8x20000x64, .f32⟩
  | .hbm, ⟨95, _⟩ => ⟨S_, .i32⟩
  | .hbm, ⟨96, _⟩ => ⟨S320000, .i32⟩
  | .hbm, ⟨97, _⟩ => ⟨S320000, .i1⟩
  | .hbm, ⟨98, _⟩ => ⟨S_, .i32⟩
  | .hbm, ⟨99, _⟩ => ⟨S320000, .i32⟩
  | .hbm, ⟨100, _⟩ => ⟨S320000, .i32⟩
  | .hbm, ⟨101, _⟩ => ⟨S320000, .i32⟩
  | .hbm, ⟨102, _⟩ => ⟨S320000x1, .i32⟩
  | .hbm, ⟨103, _⟩ => ⟨S8x20000x64, .f32⟩
  | .hbm, ⟨104, _⟩ => ⟨S160000x64, .f32⟩
  | .hbm, ⟨105, _⟩ => ⟨S1x64, .f32⟩
  | .hbm, ⟨106, _⟩ => ⟨S160000x64, .f32⟩
  | .hbm, ⟨107, _⟩ => ⟨S8x20000x64, .f32⟩
  | .hbm, ⟨108, _⟩ => ⟨S8x64, .f32⟩
  | .hbm, ⟨109, _⟩ => ⟨S8x65, .f32⟩
  | .hbm, ⟨110, _⟩ => ⟨S8x1, .f32⟩
  | .hbm, ⟨111, _⟩ => ⟨S1x1, .f32⟩
  | .hbm, ⟨112, _⟩ => ⟨S8x1, .f32⟩
  | .hbm, ⟨113, _⟩ => ⟨S8x1, .f32⟩
  | .local _ .vmem, ⟨0, _⟩ => ⟨S20000x128, .f32⟩
  | .local _ .vmem, ⟨1, _⟩ => ⟨S20000x128, .f32⟩
  | .local _ .vmem, ⟨2, _⟩ => ⟨S128x64, .f32⟩
  | .local _ .vmem, ⟨3, _⟩ => ⟨S20000x64, .f32⟩
  | .local _ .vmem, ⟨4, _⟩ => ⟨S20000x64, .f32⟩
  | .local _ .vmem, ⟨5, _⟩ => ⟨S20000x64, .f32⟩
  | .local _ .vmem, ⟨6, _⟩ => ⟨S20000x64, .f32⟩
  | .local _ .vmem, ⟨7, _⟩ => ⟨S20000x64, .f32⟩
  | .local _ .vmem, ⟨8, _⟩ => ⟨S20000x64, .f32⟩
  | .local _ .vmem, ⟨9, _⟩ => ⟨S20000x1, .f32⟩
  | .local _ .vmem, ⟨10, _⟩ => ⟨S1x64, .f32⟩
  | .local _ .vmem, ⟨11, _⟩ => ⟨S20000x64, .f32⟩
  | .local _ .vmem, ⟨12, _⟩ => ⟨S20000x64, .f32⟩
  | .local _ .vmem, ⟨13, _⟩ => ⟨S20000x64, .f32⟩
  | .local _ .vmem, ⟨14, _⟩ => ⟨S20000x64, .f32⟩
  | .local _ .vmem, ⟨15, _⟩ => ⟨S64x64, .f32⟩
  | .local _ .vmem, ⟨16, _⟩ => ⟨S20000x64, .f32⟩
  | .local _ .vmem, ⟨17, _⟩ => ⟨S20000x64, .f32⟩
  | .local _ .vmem, ⟨18, _⟩ => ⟨S20000x64, .f32⟩
  | .local _ .vmem, ⟨19, _⟩ => ⟨S20000x64, .f32⟩
  | .local _ .vmem, ⟨20, _⟩ => ⟨S20000x64, .f32⟩
  | .local _ .vmem, ⟨21, _⟩ => ⟨S20000x64, .f32⟩
  | .local _ .vmem, ⟨22, _⟩ => ⟨S20000x1, .f32⟩
  | .local _ .vmem, ⟨23, _⟩ => ⟨S1x64, .f32⟩
  | .local _ .vmem, ⟨24, _⟩ => ⟨S20000x64, .f32⟩
  | .local _ .vmem, ⟨25, _⟩ => ⟨S20000x64, .f32⟩
  | .local _ .vmem, ⟨26, _⟩ => ⟨S8x2000x64, .f32⟩
  | .local _ .vmem, ⟨27, _⟩ => ⟨S8x2000x64, .f32⟩
  | .local _ .vmem, ⟨28, _⟩ => ⟨S8x64, .f32⟩
  | .local _ .vmem, ⟨29, _⟩ => ⟨S8x64, .f32⟩
  | _, _ => ⟨S8x20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_c_9 : Ref sig .tc := ⟨.hbm, 65, rfl⟩
abbrev main_v45 : Ref sig .tc := ⟨.hbm, 66, rfl⟩
abbrev main_v46 : Ref sig .tc := ⟨.hbm, 67, rfl⟩
abbrev main_c_10 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_c_11 : Ref sig .tc := ⟨.hbm, 81, rfl⟩
abbrev main_v59 : Ref sig .tc := ⟨.hbm, 82, rfl⟩
abbrev main_v60 : Ref sig .tc := ⟨.hbm, 83, rfl⟩
abbrev main_c_12 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_13 : Ref sig .tc := ⟨.hbm, 93, rfl⟩
abbrev main_v69 : Ref sig .tc := ⟨.hbm, 94, rfl⟩
abbrev main_c_14 : Ref sig .tc := ⟨.hbm, 95, rfl⟩
abbrev main_v70 : Ref sig .tc := ⟨.hbm, 96, rfl⟩
abbrev main_v71 : Ref sig .tc := ⟨.hbm, 97, rfl⟩
abbrev main_c_15 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg4_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_scratch0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem3_0 : DmaSem sig := 23
abbrev cc3_sem4_0 : DmaSem sig := 24
abbrev cc3_sem4_1 : DmaSem sig := 25
abbrev cc4_sem0_0 : DmaSem sig := 26
abbrev cc4_sem0_1 : DmaSem sig := 27
abbrev cc4_sem1_0 : DmaSem sig := 28

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S20000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S20000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S20000x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S20000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S20000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S20000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S20000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S20000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S20000x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S20000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v11 : BitVec 1 := Scalar.cmpi .eq arg0 c9_i32
  let v12 : BitVec 32 := Scalar.extui v11
  let c0_i32_7 : BitVec 32 := 0#32
  let v13 : BitVec 1 := Scalar.cmpi .ne v12 c0_i32_7
  v13

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S8x2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S8x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S20000 : S_.BroadcastsInDim S20000 (![] : Fin 0 → Fin S20000.rank)
  bcast_S_S320000 : S_.BroadcastsInDim S320000 (![] : Fin 0 → Fin S320000.rank)
  bcast_S320000_S320000x1_0 : S320000.BroadcastsInDim S320000x1 (![0] : Fin 1 → Fin S320000x1.rank)
  shapeCasts_S20000_S20000x1 : S20000.ShapeCasts S20000x1
  shapeCasts_S8x20000x128_S160000x128 : S8x20000x128.ShapeCasts S160000x128
  inb_S20000x128_S20000x128_0_0 : ∀ a, (![0, 0] : Fin 2 → Nat) a + S20000x128.size a ≤ S20000x128.size a
  h_S20000x128 : 0 < S20000x128.numel
  shapeCasts_S20000x128_S20000x128 : S20000x128.ShapeCasts S20000x128
  inb_S128x64_S128x64_0_0 : ∀ a, (![0, 0] : Fin 2 → Nat) a + S128x64.size a ≤ S128x64.size a
  h_S128x64 : 0 < S128x64.numel
  inb_S20000x64_S20000x64_0_0 : ∀ a, (![0, 0] : Fin 2 → Nat) a + S20000x64.size a ≤ S20000x64.size a
  h_S20000x64 : 0 < S20000x64.numel
  shapeCasts_S160000x64_S8x20000x64 : S160000x64.ShapeCasts S8x20000x64
  bcast_S320000_S1x320000x1_1 : S320000.BroadcastsInDim S1x320000x1 (![1] : Fin 1 → Fin S1x320000x1.rank)
  bcast_S1x320000x1_S8x320000x64_0_1_2 : S1x320000x1.BroadcastsInDim S8x320000x64 (![0, 1, 2] : Fin 3 → Fin S8x320000x64.rank)
  bcast_S_S8x20000x64 : S_.BroadcastsInDim S8x20000x64 (![] : Fin 0 → Fin S8x20000x64.rank)
  shapeCasts_S8x20000x64_S160000x64 : S8x20000x64.ShapeCasts S160000x64
  shapeCasts_S64_S1x64 : S64.ShapeCasts S1x64
  shapeCasts_S20000x64_S20000x64 : S20000x64.ShapeCasts S20000x64
  inb_S20000x1_S20000x1_0_0 : ∀ a, (![0, 0] : Fin 2 → Nat) a + S20000x1.size a ≤ S20000x1.size a
  h_S20000x1 : 0 < S20000x1.numel
  shapeCasts_S20000x1_S20000x1 : S20000x1.ShapeCasts S20000x1
  broadcasts_S20000x1_S20000x64 : S20000x1.Broadcasts S20000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S20000x64 : S1x64.Broadcasts S20000x64
  inb_S64x64_S64x64_0_0 : ∀ a, (![0, 0] : Fin 2 → Nat) a + S64x64.size a ≤ S64x64.size a
  h_S64x64 : 0 < S64x64.numel
  inb_S8x64_S8x64_0_0 : ∀ a, (![0, 0] : Fin 2 → Nat) a + S8x64.size a ≤ S8x64.size a
  h_S8x64 : 0 < S8x64.numel
  shapeCasts_S8x64_S8x64 : S8x64.ShapeCasts S8x64
  inb_S8x2000x64_S8x2000x64_0_0_0 : ∀ a, (![0, 0, 0] : Fin 3 → Nat) a + S8x2000x64.size a ≤ S8x2000x64.size a
  h_S8x2000x64 : 0 < S8x2000x64.numel
  shapeCasts_S8x2000x64_S8x2000x64 : S8x2000x64.ShapeCasts S8x2000x64
  reduces_S8x2000x64_S8x64 : S8x2000x64.Reduces [1] S8x64
  concatenates_S8x64_S8x1_S8x65_d1 : Shape.Concatenates [S8x64, S8x1] S8x65 1
  bcast_S1_S1x1_1 : S1.BroadcastsInDim S1x1 (![1] : Fin 1 → Fin S1x1.rank)
  bcast_S1x1_S8x1_0_1 : S1x1.BroadcastsInDim S8x1 (![0, 1] : Fin 2 → Fin S8x1.rank)
  scatter_S20000_S320000x1_S320000_n_0_0_1_wf : ScatterDims.WF S20000 S320000x1 S320000 [] [0] [0] 1
  gather_S20000_S320000x1_S320000_n_0_n_n_0_1_1_wf : GatherDims.WF S20000 S320000x1 S320000 [] [0] [] [0] [] 1 ![1]
  dot_S20000x128_S128x64_S20000x64_1_0_0_1_n_n_wf : DotDims.WF S20000x128 S128x64 S20000x64 [1] [0] [0] [1] [] []
  gather_S8x20000x64_S320000x1_S8x320000x64_02_1_n_n_1_1_8164_wf : GatherDims.WF S8x20000x64 S320000x1 S8x320000x64 [0, 2] [1] [] [1] [] 1 ![8, 1, 64]
  scatter_S8x20000x64_S320000x1_S8x320000x64_02_1_1_1_wf : ScatterDims.WF S8x20000x64 S320000x1 S8x320000x64 [0, 2] [1] [1] 1
  dot_S20000x64_S64x64_S20000x64_1_0_0_1_n_n_wf : DotDims.WF S20000x64 S64x64 S20000x64 [1] [0] [0] [1] [] []
  dot_S8x65_S65x1_S8x1_1_0_0_1_n_n_wf : DotDims.WF S8x65 S65x1 S8x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x128.size a ≤ S160000x128.size a
  hwx0_0 : ∀ i : grid0.Coords, EltTy.bits .f32 = 32 ∨ (Rect.block (s := S160000x128) S20000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S20000x64.size a ≤ S160000x64.size a
  hwx0_2 : ∀ i : grid0.Coords, EltTy.bits .f32 = 32 ∨ (Rect.block (s := S160000x64) S20000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x64.size a ≤ S160000x64.size a
  hwx1_0 : ∀ i : grid1.Coords, EltTy.bits .f32 = 32 ∨ (Rect.block (s := S160000x64) S20000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S20000x64.size a ≤ S160000x64.size a
  hwx1_1 : ∀ i : grid1.Coords, EltTy.bits .f32 = 32 ∨ (Rect.block (s := S160000x64) S20000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S20000x1.size a ≤ S20000x1.size a
  hwx1_2 : ∀ i : grid1.Coords, EltTy.bits .f32 = 32 ∨ (Rect.block (s := S20000x1) S20000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S20000x64.size a ≤ S160000x64.size a
  hwx1_4 : ∀ i : grid1.Coords, EltTy.bits .f32 = 32 ∨ (Rect.block (s := S160000x64) S20000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20000x64.size a ≤ S160000x64.size a
  hwx2_0 : ∀ i : grid2.Coords, EltTy.bits .f32 = 32 ∨ (Rect.block (s := S160000x64) S20000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S20000x64.size a ≤ S160000x64.size a
  hwx2_2 : ∀ i : grid2.Coords, EltTy.bits .f32 = 32 ∨ (Rect.block (s := S160000x64) S20000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S20000x64.size a ≤ S160000x64.size a
  hwx3_0 : ∀ i : grid3.Coords, EltTy.bits .f32 = 32 ∨ (Rect.block (s := S160000x64) S20000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S20000x64.size a ≤ S160000x64.size a
  hwx3_1 : ∀ i : grid3.Coords, EltTy.bits .f32 = 32 ∨ (Rect.block (s := S160000x64) S20000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S20000x1.size a ≤ S20000x1.size a
  hwx3_2 : ∀ i : grid3.Coords, EltTy.bits .f32 = 32 ∨ (Rect.block (s := S20000x1) S20000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S20000x64.size a ≤ S160000x64.size a
  hwx3_4 : ∀ i : grid3.Coords, EltTy.bits .f32 = 32 ∨ (Rect.block (s := S160000x64) S20000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8x2000x64.size a ≤ S8x20000x64.size a
  hwx4_0 : ∀ i : grid4.Coords, EltTy.bits .f32 = 32 ∨ (Rect.block (s := S8x20000x64) S8x2000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S8x64.size a ≤ S8x64.size a
  hwx4_1 : ∀ i : grid4.Coords, EltTy.bits .f32 = 32 ∨ (Rect.block (s := S8x64) S8x64.size (cc4_transform_1 i) (hinb4_1 i)).WholeWords (EltTy.packing .f32)

variable [Facts₀]

def scatter_S20000_S320000x1_S320000_n_0_0_1 : ScatterDims S20000 S320000x1 S320000 where
  updateWindowDims := []
  insertedWindowDims := [0]
  scatterDimsToOperandDims := [0]
  indexVectorDim := 1
  wf := scatter_S20000_S320000x1_S320000_n_0_0_1_wf
def gather_S20000_S320000x1_S320000_n_0_n_n_0_1_1 : GatherDims S20000 S320000x1 S320000 where
  offsetDims := []
  collapsedSliceDims := [0]
  operandBatchingDims := []
  startIndicesBatchingDims := []
  startIndexMap := [0]
  indexVectorDim := 1
  sliceSizes := ![1]
  wf := gather_S20000_S320000x1_S320000_n_0_n_n_0_1_1_wf
def dot_S20000x128_S128x64_S20000x64_1_0_0_1_n_n : DotDims S20000x128 S128x64 S20000x64 where
  lhsContracting := [1]
  rhsContracting := [0]
  lhsNonContracting := [0]
  rhsNonContracting := [1]
  lhsBatch := []
  rhsBatch := []
  wf := dot_S20000x128_S128x64_S20000x64_1_0_0_1_n_n_wf
def gather_S8x20000x64_S320000x1_S8x320000x64_02_1_n_n_1_1_8164 : GatherDims S8x20000x64 S320000x1 S8x320000x64 where
  offsetDims := [0, 2]
  collapsedSliceDims := [1]
  operandBatchingDims := []
  startIndicesBatchingDims := []
  startIndexMap := [1]
  indexVectorDim := 1
  sliceSizes := ![8, 1, 64]
  wf := gather_S8x20000x64_S320000x1_S8x320000x64_02_1_n_n_1_1_8164_wf
def scatter_S8x20000x64_S320000x1_S8x320000x64_02_1_1_1 : ScatterDims S8x20000x64 S320000x1 S8x320000x64 where
  updateWindowDims := [0, 2]
  insertedWindowDims := [1]
  scatterDimsToOperandDims := [1]
  indexVectorDim := 1
  wf := scatter_S8x20000x64_S320000x1_S8x320000x64_02_1_1_1_wf
def dot_S20000x64_S64x64_S20000x64_1_0_0_1_n_n : DotDims S20000x64 S64x64 S20000x64 where
  lhsContracting := [1]
  rhsContracting := [0]
  lhsNonContracting := [0]
  rhsNonContracting := [1]
  lhsBatch := []
  rhsBatch := []
  wf := dot_S20000x64_S64x64_S20000x64_1_0_0_1_n_n_wf
def dot_S8x65_S65x1_S8x1_1_0_0_1_n_n : DotDims S8x65 S65x1 S8x1 where
  lhsContracting := [1]
  rhsContracting := [0]
  lhsNonContracting := [0]
  rhsNonContracting := [1]
  lhsBatch := []
  rhsBatch := []
  wf := dot_S8x65_S65x1_S8x1_1_0_0_1_n_n_wf

abbrev win0_0 : Pipeline.Window sig grid0 :=
  Pipeline.Window.ofSpec (Memref.whole main_v31) S20000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S20000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v52) S20000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S20000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S20000x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v53) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v54) S20000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v56) S20000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v57) S20000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v77) S20000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S20000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v30) S20000x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v78) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v79) S20000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v80) S8x2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v81) S8x64.size cc4_transform_1 reads4_1 true true 1 stage4_1 sem4_1
    hrank4 hreads4_1 hinb4_1 nbuf4_1 (Memref.isWhole_whole _) hwx4_1 hstage4_1

abbrev win4 : Fin 2 → Pipeline.Window sig grid4 := fun | 0 => win4_0 | 1 => win4_1 | ⟨_ + 2, h⟩ => absurd h (Nat.not_lt.2 (Nat.le_add_left _ _))
abbrev spec4 : Fin 2 → Pipeline.WinSpec sig grid4.rank := fun w => (win4 w).toWinSpec

abbrev idle4 : Fin 2 → grid4.Coords → Bool := fun | 0 => fun _ => false | 1 => fun i => !(k4_cond2 i == 1#1) | ⟨_ + 2, h⟩ => absurd h (Nat.not_lt.2 (Nat.le_add_left _ _))

class Facts : Prop extends Facts₀ where

variable [Facts]
-- ==== ReferenceIdeal.lean ====
abbrev S8x20000x128 : Shape := ⟨3, ![8, 20000, 128]⟩
abbrev S8x1 : Shape := ⟨2, ![8, 1]⟩
abbrev S2x320000 : Shape := ⟨2, ![2, 320000]⟩
abbrev S128x64 : Shape := ⟨2, ![128, 64]⟩
abbrev S64 : Shape := ⟨1, ![64]⟩
abbrev S64x64 : Shape := ⟨2, ![64, 64]⟩
abbrev S65x1 : Shape := ⟨2, ![65, 1]⟩
abbrev S1 : Shape := ⟨1, ![1]⟩
abbrev S1x320000 : Shape := ⟨2, ![1, 320000]⟩
abbrev S320000 : Shape := ⟨1, ![320000]⟩
abbrev S_ : Shape := ⟨0, ![]⟩
abbrev S20000 : Shape := ⟨1, ![20000]⟩
abbrev S320000x1 : Shape := ⟨2, ![320000, 1]⟩
abbrev S1x20000x1 : Shape := ⟨3, ![1, 20000, 1]⟩
abbrev S8x20000x64 : Shape := ⟨3, ![8, 20000, 64]⟩
abbrev S8x320000x64 : Shape := ⟨3, ![8, 320000, 64]⟩
abbrev S1x320000x1 : Shape := ⟨3, ![1, 320000, 1]⟩
abbrev S1x1x64 : Shape := ⟨3, ![1, 1, 64]⟩
abbrev S8x64 : Shape := ⟨2, ![8, 64]⟩
abbrev S8x65 : Shape := ⟨2, ![8, 65]⟩
abbrev S1x1 : Shape := ⟨2, ![1, 1]⟩

abbrev nBuf : Space → Nat
  | .hbm => 124
  | .vmem => 0
  | .smem => 0
  | _ => 0

abbrev bufTy : (tb : Table) → Fin (tcTables nBuf tb) → BufTy
  | .hbm, ⟨0, _⟩ => ⟨S8x20000x128, .f32⟩
  | .hbm, ⟨1, _⟩ => ⟨S8x1, .f32⟩
  | .hbm, ⟨2, _⟩ => ⟨S2x320000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S65x1, .f32⟩
  | .hbm, ⟨8, _⟩ => ⟨S1, .f32⟩
  | .hbm, ⟨9, _⟩ => ⟨S1x320000, .i32⟩
  | .hbm, ⟨10, _⟩ => ⟨S320000, .i32⟩
  | .hbm, ⟨11, _⟩ => ⟨S1x320000, .i32⟩
  | .hbm, ⟨12, _⟩ => ⟨S320000, .i32⟩
  | .hbm, ⟨13, _⟩ => ⟨S_, .f32⟩
  | .hbm, ⟨14, _⟩ => ⟨S20000, .f32⟩
  | .hbm, ⟨15, _⟩ => ⟨S_, .i32⟩
  | .hbm, ⟨16, _⟩ => ⟨S320000, .i32⟩
  | .hbm, ⟨17, _⟩ => ⟨S320000, .i1⟩
  | .hbm, ⟨18, _⟩ => ⟨S_, .i32⟩
  | .hbm, ⟨19, _⟩ => ⟨S320000, .i32⟩
  | .hbm, ⟨20, _⟩ => ⟨S320000, .i32⟩
  | .hbm, ⟨21, _⟩ => ⟨S320000, .i32⟩
  | .hbm, ⟨22, _⟩ => ⟨S320000x1, .i32⟩
  | .hbm, ⟨23, _⟩ => ⟨S_, .f32⟩
  | .hbm, ⟨24, _⟩ => ⟨S320000, .f32⟩
  | .hbm, ⟨25, _⟩ => ⟨S20000, .f32⟩
  | .hbm, ⟨26, _⟩ => ⟨S20000, .f32⟩
  | .hbm, ⟨27, _⟩ => ⟨S_, .i32⟩
  | .hbm, ⟨28, _⟩ => ⟨S320000, .i32⟩
  | .hbm, ⟨29, _⟩ => ⟨S320000, .i1⟩
  | .hbm, ⟨30, _⟩ => ⟨S_, .i32⟩
  | .hbm, ⟨31, _⟩ => ⟨S320000, .i32⟩
  | .hbm, ⟨32, _⟩ => ⟨S320000, .i32⟩
  | .hbm, ⟨33, _⟩ => ⟨S320000, .i32⟩
  | .hbm, ⟨34, _⟩ => ⟨S320000x1, .i32⟩
  | .hbm, ⟨35, _⟩ => ⟨S320000, .f32⟩
  | .hbm, ⟨36, _⟩ => ⟨S_, .i32⟩
  | .hbm, ⟨37, _⟩ => ⟨S320000, .i32⟩
  | .hbm, ⟨38, _⟩ => ⟨S320000, .i1⟩
  | .hbm, ⟨39, _⟩ => ⟨S_, .i32⟩
  | .hbm, ⟨40, _⟩ => ⟨S320000, .i32⟩
  | .hbm, ⟨41, _⟩ => ⟨S320000, .i32⟩
  | .hbm, ⟨42, _⟩ => ⟨S320000, .i32⟩
  | .hbm, ⟨43, _⟩ => ⟨S320000x1, .i32⟩
  | .hbm, ⟨44, _⟩ => ⟨S320000, .f32⟩
  | .hbm, ⟨45, _⟩ => ⟨S320000, .f32⟩
  | .hbm, ⟨46, _⟩ => ⟨S20000, .f32⟩
  | .hbm, ⟨47, _⟩ => ⟨S1x20000x1, .f32⟩
  | .hbm, ⟨48, _⟩ => ⟨S8x20000x64, .f32⟩
  | .hbm, ⟨49, _⟩ => ⟨S_, .i32⟩
  | .hbm, ⟨50, _⟩ => ⟨S320000, .i32⟩
  | .hbm, ⟨51, _⟩ => ⟨S320000, .i1⟩
  | .hbm, ⟨52, _⟩ => ⟨S_, .i32⟩
  | .hbm, ⟨53, _⟩ => ⟨S320000, .i32⟩
  | .hbm, ⟨54, _⟩ => ⟨S320000, .i32⟩
  | .hbm, ⟨55, _⟩ => ⟨S320000, .i32⟩
  | .hbm, ⟨56, _⟩ => ⟨S320000x1, .i32⟩
  | .hbm, ⟨57, _⟩ => ⟨S8x320000x64, .f32⟩
  | .hbm, ⟨58, _⟩ => ⟨S1x320000x1, .f32⟩
  | .hbm, ⟨59, _⟩ => ⟨S8x320000x64, .f32⟩
  | .hbm, ⟨60, _⟩ => ⟨S8x320000x64, .f32⟩
  | .hbm, ⟨61, _⟩ => ⟨S_, .f32⟩
  | .hbm, ⟨62, _⟩ => ⟨S8x20000x64, .f32⟩
  | .hbm, ⟨63, _⟩ => ⟨S_, .i32⟩
  | .hbm, ⟨64, _⟩ => ⟨S320000, .i32⟩
  | .hbm, ⟨65, _⟩ => ⟨S320000, .i1⟩
  | .hbm, ⟨66, _⟩ => ⟨S_, .i32⟩
  | .hbm, ⟨67, _⟩ => ⟨S320000, .i32⟩
  | .hbm, ⟨68, _⟩ => ⟨S320000, .i32⟩
  | .hbm, ⟨69, _⟩ => ⟨S320000, .i32⟩
  | .hbm, ⟨70, _⟩ => ⟨S320000x1, .i32⟩
  | .hbm, ⟨71, _⟩ => ⟨S8x20000x64, .f32⟩
  | .hbm, ⟨72, _⟩ => ⟨S8x20000x64, .f32⟩
  | .hbm, ⟨73, _⟩ => ⟨S8x20000x64, .f32⟩
  | .hbm, ⟨74, _⟩ => ⟨S8x20000x64, .f32⟩
  | .hbm, ⟨75, _⟩ => ⟨S1x1x64, .f32⟩
  | .hbm, ⟨76, _⟩ => ⟨S8x20000x64, .f32⟩
  | .hbm, ⟨77, _⟩ => ⟨S8x20000x64, .f32⟩
  | .hbm, ⟨78, _⟩ => ⟨S_, .f32⟩
  | .hbm, ⟨79, _⟩ => ⟨S8x20000x64, .f32⟩
  | .hbm, ⟨80, _⟩ => ⟨S8x20000x64, .f32⟩
  | .hbm, ⟨81, _⟩ => ⟨S8x20000x64, .f32⟩
  | .hbm, ⟨82, _⟩ => ⟨S_, .i32⟩
  | .hbm, ⟨83, _⟩ => ⟨S320000, .i32⟩
  | .hbm, ⟨84, _⟩ => ⟨S320000, .i1⟩
  | .hbm, ⟨85, _⟩ => ⟨S_, .i32⟩
  | .hbm, ⟨86, _⟩ => ⟨S320000, .i32⟩
  | .hbm, ⟨87, _⟩ => ⟨S320000, .i32⟩
  | .hbm, ⟨88, _⟩ => ⟨S320000, .i32⟩
  | .hbm, ⟨89, _⟩ => ⟨S320000x1, .i32⟩
  | .hbm, ⟨90, _⟩ => ⟨S8x320000x64, .f32⟩
  | .hbm, ⟨91, _⟩ => ⟨S1x320000x1, .f32⟩
  | .hbm, ⟨92, _⟩ => ⟨S8x320000x64, .f32⟩
  | .hbm, ⟨93, _⟩ => ⟨S8x320000x64, .f32⟩
  | .hbm, ⟨94, _⟩ => ⟨S_, .f32⟩
  | .hbm, ⟨95, _⟩ => ⟨S8x20000x64, .f32⟩
  | .hbm, ⟨96, _⟩ => ⟨S_, .i32⟩
  | .hbm, ⟨97, _⟩ => ⟨S320000, .i32⟩
  | .hbm, ⟨98, _⟩ => ⟨S320000, .i1⟩
  | .hbm, ⟨99, _⟩ => ⟨S_, .i32⟩
  | .hbm, ⟨100, _⟩ => ⟨S320000, .i32⟩
  | .hbm, ⟨101, _⟩ => ⟨S320000, .i32⟩
  | .hbm, ⟨102, _⟩ => ⟨S320000, .i32⟩
  | .hbm, ⟨103, _⟩ => ⟨S320000x1, .i32⟩
  | .hbm, ⟨104, _⟩ => ⟨S8x20000x64, .f32⟩
  | .hbm, ⟨105, _⟩ => ⟨S8x20000x64, .f32⟩
  | .hbm, ⟨106, _⟩ => ⟨S8x20000x64, .f32⟩
  | .hbm, ⟨107, _⟩ => ⟨S8x20000x64, .f32⟩
  | .hbm, ⟨108, _⟩ => ⟨S1x1x64, .f32⟩
  | .hbm, ⟨109, _⟩ => ⟨S8x20000x64, .f32⟩
  | .hbm, ⟨110, _⟩ => ⟨S8x20000x64, .f32⟩
  | .hbm, ⟨111, _⟩ => ⟨S_, .f32⟩
  | .hbm, ⟨112, _⟩ => ⟨S8x20000x64, .f32⟩
  | .hbm, ⟨113, _⟩ => ⟨S8x20000x64, .f32⟩
  | .hbm, ⟨114, _⟩ => ⟨S_, .f32⟩
  | .hbm, ⟨115, _⟩ => ⟨S8x64, .f32⟩
  | .hbm, ⟨116, _⟩ => ⟨S_, .f32⟩
  | .hbm, ⟨117, _⟩ => ⟨S8x64, .f32⟩
  | .hbm, ⟨118, _⟩ => ⟨S8x64, .f32⟩
  | .hbm, ⟨119, _⟩ => ⟨S8x65, .f32⟩
  | .hbm, ⟨120, _⟩ => ⟨S8x1, .f32⟩
  | .hbm, ⟨121, _⟩ => ⟨S1x1, .f32⟩
  | .hbm, ⟨122, _⟩ => ⟨S8x1, .f32⟩
  | .hbm, ⟨123, _⟩ => ⟨S8x1, .f32⟩
  | _, _ => ⟨S8x20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_c_9 : Ref sig .tc := ⟨.hbm, 63, rfl⟩
abbrev main_v43 : Ref sig .tc := ⟨.hbm, 64, rfl⟩
abbrev main_v44 : Ref sig .tc := ⟨.hbm, 65, rfl⟩
abbrev main_c_10 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_call0_cst : Ref sig .tc := ⟨.hbm, 78, rfl⟩
abbrev main_call0_v0 : Ref sig .tc := ⟨.hbm, 79, rfl⟩
abbrev main_v56 : Ref sig .tc := ⟨.hbm, 80, rfl⟩
abbrev main_v57 : Ref sig .tc := ⟨.hbm, 81, rfl⟩
abbrev main_c_11 : Ref sig .tc := ⟨.hbm, 82, rfl⟩
abbrev main_v58 : Ref sig .tc := ⟨.hbm, 83, rfl⟩
abbrev main_v59 : Ref sig .tc := ⟨.hbm, 84, rfl⟩
abbrev main_c_12 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_13 : Ref sig .tc := ⟨.hbm, 94, rfl⟩
abbrev main_v68 : Ref sig .tc := ⟨.hbm, 95, rfl⟩
abbrev main_c_14 : Ref sig .tc := ⟨.hbm, 96, rfl⟩
abbrev main_v69 : Ref sig .tc := ⟨.hbm, 97, rfl⟩
abbrev main_v70 : Ref sig .tc := ⟨.hbm, 98, rfl⟩
abbrev main_c_15 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_call1_cst : Ref sig .tc := ⟨.hbm, 111, rfl⟩
abbrev main_call1_v0 : Ref sig .tc := ⟨.hbm, 112, rfl⟩
abbrev main_v82 : Ref sig .tc := ⟨.hbm, 113, rfl⟩
abbrev main_cst_16 : Ref sig .tc := ⟨.hbm, 114, rfl⟩
abbrev main_v83 : Ref sig .tc := ⟨.hbm, 115, rfl⟩
abbrev main_cst_17 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S20000 : S_.BroadcastsInDim S20000 (![] : Fin 0 → Fin S20000.rank)
  bcast_S_S320000 : S_.BroadcastsInDim S320000 (![] : Fin 0 → Fin S320000.rank)
  bcast_S320000_S320000x1_0 : S320000.BroadcastsInDim S320000x1 (![0] : Fin 1 → Fin S320000x1.rank)
  bcast_S20000_S1x20000x1_1 : S20000.BroadcastsInDim S1x20000x1 (![1] : Fin 1 → Fin S1x20000x1.rank)
  bcast_S320000_S1x320000x1_1 : S320000.BroadcastsInDim S1x320000x1 (![1] : Fin 1 → Fin S1x320000x1.rank)
  bcast_S1x320000x1_S8x320000x64_0_1_2 : S1x320000x1.BroadcastsInDim S8x320000x64 (![0, 1, 2] : Fin 3 → Fin S8x320000x64.rank)
  bcast_S_S8x20000x64 : S_.BroadcastsInDim S8x20000x64 (![] : Fin 0 → Fin S8x20000x64.rank)
  bcast_S1x20000x1_S8x20000x64_0_1_2 : S1x20000x1.BroadcastsInDim S8x20000x64 (![0, 1, 2] : Fin 3 → Fin S8x20000x64.rank)
  bcast_S64_S1x1x64_2 : S64.BroadcastsInDim S1x1x64 (![2] : Fin 1 → Fin S1x1x64.rank)
  bcast_S1x1x64_S8x20000x64_0_1_2 : S1x1x64.BroadcastsInDim S8x20000x64 (![0, 1, 2] : Fin 3 → Fin S8x20000x64.rank)
  reducesTo_S8x20000x64_S8x64_d1 : S8x20000x64.ReducesTo [1] S8x64
  h_S_ : 0 < S_.numel
  bcast_S_S8x64 : S_.BroadcastsInDim S8x64 (![] : Fin 0 → Fin S8x64.rank)
  concatenates_S8x64_S8x1_S8x65_d1 : Shape.Concatenates [S8x64, S8x1] S8x65 1
  bcast_S1_S1x1_1 : S1.BroadcastsInDim S1x1 (![1] : Fin 1 → Fin S1x1.rank)
  bcast_S1x1_S8x1_0_1 : S1x1.BroadcastsInDim S8x1 (![0, 1] : Fin 2 → Fin S8x1.rank)
  scatter_S20000_S320000x1_S320000_n_0_0_1_wf : ScatterDims.WF S20000 S320000x1 S320000 [] [0] [0] 1
  gather_S20000_S320000x1_S320000_n_0_n_n_0_1_1_wf : GatherDims.WF S20000 S320000x1 S320000 [] [0] [] [0] [] 1 ![1]
  dot_S8x20000x128_S128x64_S8x20000x64_2_0_01_1_n_n_wf : DotDims.WF S8x20000x128 S128x64 S8x20000x64 [2] [0] [0, 1] [1] [] []
  gather_S8x20000x64_S320000x1_S8x320000x64_02_1_n_n_1_1_8164_wf : GatherDims.WF S8x20000x64 S320000x1 S8x320000x64 [0, 2] [1] [] [1] [] 1 ![8, 1, 64]
  scatter_S8x20000x64_S320000x1_S8x320000x64_02_1_1_1_wf : ScatterDims.WF S8x20000x64 S320000x1 S8x320000x64 [0, 2] [1] [1] 1
  dot_S8x20000x64_S64x64_S8x20000x64_2_0_01_1_n_n_wf : DotDims.WF S8x20000x64 S64x64 S8x20000x64 [2] [0] [0, 1] [1] [] []
  dot_S8x65_S65x1_S8x1_1_0_0_1_n_n_wf : DotDims.WF S8x65 S65x1 S8x1 [1] [0] [0] [1] [] []

variable [Facts₀]

def scatter_S20000_S320000x1_S320000_n_0_0_1 : ScatterDims S20000 S320000x1 S320000 where
  updateWindowDims := []
  insertedWindowDims := [0]
  scatterDimsToOperandDims := [0]
  indexVectorDim := 1
  wf := scatter_S20000_S320000x1_S320000_n_0_0_1_wf
def gather_S20000_S320000x1_S320000_n_0_n_n_0_1_1 : GatherDims S20000 S320000x1 S320000 where
  offsetDims := []
  collapsedSliceDims := [0]
  operandBatchingDims := []
  startIndicesBatchingDims := []
  startIndexMap := [0]
  indexVectorDim := 1
  sliceSizes := ![1]
  wf := gather_S20000_S320000x1_S320000_n_0_n_n_0_1_1_wf
def dot_S8x20000x128_S128x64_S8x20000x64_2_0_01_1_n_n : DotDims S8x20000x128 S128x64 S8x20000x64 where
  lhsContracting := [2]
  rhsContracting := [0]
  lhsNonContracting := [0, 1]
  rhsNonContracting := [1]
  lhsBatch := []
  rhsBatch := []
  wf := dot_S8x20000x128_S128x64_S8x20000x64_2_0_01_1_n_n_wf
def gather_S8x20000x64_S320000x1_S8x320000x64_02_1_n_n_1_1_8164 : GatherDims S8x20000x64 S320000x1 S8x320000x64 where
  offsetDims := [0, 2]
  collapsedSliceDims := [1]
  operandBatchingDims := []
  startIndicesBatchingDims := []
  startIndexMap := [1]
  indexVectorDim := 1
  sliceSizes := ![8, 1, 64]
  wf := gather_S8x20000x64_S320000x1_S8x320000x64_02_1_n_n_1_1_8164_wf
def scatter_S8x20000x64_S320000x1_S8x320000x64_02_1_1_1 : ScatterDims S8x20000x64 S320000x1 S8x320000x64 where
  updateWindowDims := [0, 2]
  insertedWindowDims := [1]
  scatterDimsToOperandDims := [1]
  indexVectorDim := 1
  wf := scatter_S8x20000x64_S320000x1_S8x320000x64_02_1_1_1_wf
def dot_S8x20000x64_S64x64_S8x20000x64_2_0_01_1_n_n : DotDims S8x20000x64 S64x64 S8x20000x64 where
  lhsContracting := [2]
  rhsContracting := [0]
  lhsNonContracting := [0, 1]
  rhsNonContracting := [1]
  lhsBatch := []
  rhsBatch := []
  wf := dot_S8x20000x64_S64x64_S8x20000x64_2_0_01_1_n_n_wf
def dot_S8x65_S65x1_S8x1_1_0_0_1_n_n : DotDims S8x65 S65x1 S8x1 where
  lhsContracting := [1]
  rhsContracting := [0]
  lhsNonContracting := [0]
  rhsNonContracting := [1]
  lhsBatch := []
  rhsBatch := []
  wf := dot_S8x65_S65x1_S8x1_1_0_0_1_n_n_wf

class Facts : Prop extends Facts₀ where

variable [Facts]
-- ==== Proof.KProj0.lean ====
/- Region 0 of the program: the projection of one batch element's node features by the layer's weight matrix,
   `out = h · W` on a block of 20000 rows. What the body leaves in the output block is the matrix product of
   the two input blocks; the input blocks are left as found. Stated at the contents `V` the region is entered
   with, for any float instance. -/
import proofs.«403166_j89026082111548_2_alg».proof.Proof.Gen.Kernel.Launch
import proofs.«403166_j89026082111548_2_alg».proof.Proof.Gen.Kernel.Skeleton
import proofs.«403166_j89026082111548_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature block is in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix is in its staging buffer at every point, though it is fetched only once: its block never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole feature block, the whole weight matrix, the whole output block. -/
abbrev r0_x : Rect S20000x128 := Rect.unit (s := S20000x128) ![0, 0] S20000x128.size inb_S20000x128_S20000x128_0_0
abbrev r0_w : Rect S128x64 := Rect.unit (s := S128x64) ![0, 0] S128x64.size inb_S128x64_S128x64_0_0
abbrev r0_o : Rect S20000x64 := Rect.unit (s := S20000x64) ![0, 0] S20000x64.size inb_S20000x64_S20000x64_0_0

/-- The output block after the body: its one store, of the product of the two loaded blocks. -/
def out0_2 (x0 : Vec F S20000x128 .f32) (x1 : Vec F S128x64 .f32) : Vec F S20000x64 .f32 :=
  View.canon [⟨r0_o, k0_pay1 (View.ld x0 r0_x) (View.ld x1 r0_w)⟩]

/-- That one store covers the block. -/
theorem cover0_2 (p0 : Vec F S20000x64 .f32) (y : S20000x64.Idx) :
    ∃ pc ∈ ([⟨r0_o, p0⟩] : List (View.Piece (Elt F) S20000x64 .f32)), y ∈ pc.1.set :=
  View.cover_of_tiled [⟨r0_o, p0⟩] S20000x64.size (by rfl) y

set_option maxHeartbeats 1000000 in
/-- The body on whole staging buffers: the inputs are kept, the output ends at the product. -/
theorem sound_kernel0 (c : Dev nD) (E : Set ℕ) (i : grid0.Coords) (arg1 : Memref sig .tc .vmem S20000x128 .f32) (harg1 : arg1.IsWhole) (arg2 : Memref sig .tc .vmem S128x64 .f32) (harg2 : arg2.IsWhole)
    (arg3 : Memref sig .tc .vmem S20000x64 .f32) (harg3 : arg3.IsWhole)
    (x0 : Vec F S20000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The region's proof data on core `c`: the arrays as the region finds them; after the body at point `t` each input buffer
    at its block and the output buffer at the product of the two; the invariant holds only what the body never touches. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: both input buffers hold their blocks, so the body's triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Gen

end
-- ==== Proof.KComb1.lean ====
/- Region 1 of the program: the layer's combine step on one batch element's block of 20000 rows,
   `out = max (agg + hw * selfnorm + bias) 0`, the self-loop weight a column broadcast along the features and the bias a
   row broadcast along the nodes. The four input blocks are left as found. Stated at the contents `V` the region is
   entered with, for any float instance. -/
import proofs.«403166_j89026082111548_2_alg».proof.Proof.Gen.Kernel.Launch
import proofs.«403166_j89026082111548_2_alg».proof.Proof.Gen.Kernel.Skeleton
import proofs.«403166_j89026082111548_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's block is in its staging buffer at every point, fetched there or not: its block index has not moved since the fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's block is in its staging buffer at every point, fetched there or not: its block index has not moved since the fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's block is in its staging buffer at every point, fetched there or not: its block index has not moved since the fetch. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's block is in its staging buffer at every point, fetched there or not: its block index has not moved since the fetch. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The whole blocks: rows by features, the self-loop column, the bias row. -/
abbrev r1_m : Rect S20000x64 := Rect.unit (s := S20000x64) ![0, 0] S20000x64.size inb_S20000x64_S20000x64_0_0
abbrev r1_s : Rect S20000x1 := Rect.unit (s := S20000x1) ![0, 0] S20000x1.size inb_S20000x1_S20000x1_0_0
abbrev r1_b : Rect S1x64 := Rect.unit (s := S1x64) ![0, 0] S1x64.size inb_S1x64_S1x64_0_0

/-- The output block after the body: its one store, of the combined value of the four loaded blocks. -/
def out1_4 (x0 x1 : Vec F S20000x64 .f32) (x2 : Vec F S20000x1 .f32) (x3 : Vec F S1x64 .f32) : Vec F S20000x64 .f32 :=
  View.canon [⟨r1_m, k1_pay1 (View.ld x0 r1_m) (View.ld x1 r1_m) (View.ld x2 r1_s) (View.ld x3 r1_b)⟩]

/-- That one store covers the block. -/
theorem cover1_4 (p0 : Vec F S20000x64 .f32) (y : S20000x64.Idx) :
    ∃ pc ∈ ([⟨r1_m, p0⟩] : List (View.Piece (Elt F) S20000x64 .f32)), y ∈ pc.1.set :=
  View.cover_of_tiled [⟨r1_m, p0⟩] S20000x64.size (by rfl) y

set_option maxHeartbeats 1000000 in
/-- The body on whole staging buffers: the inputs are kept, the output ends at the combined value. -/
theorem sound_kernel1 (c : Dev nD) (E : Set ℕ) (i : grid1.Coords) (arg1 : Memref sig .tc .vmem S20000x64 .f32) (harg1 : arg1.IsWhole) (arg2 : Memref sig .tc .vmem S20000x64 .f32) (harg2 : arg2.IsWhole)
    (arg3 : Memref sig .tc .vmem S20000x1 .f32) (harg3 : arg3.IsWhole) (arg4 : Memref sig .tc .vmem S1x64 .f32) (harg4 : arg4.IsWhole)
    (arg5 : Memref sig .tc .vmem S20000x64 .f32) (harg5 : arg5.IsWhole)
    (x0 x1 : Vec F S20000x64 .f32) (x2 : Vec F S20000x1 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E (cc1__combine_kernel i arg1 harg1 arg2 harg2 arg3 harg3 arg4 harg4 arg5 harg5) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The region's proof data on core `c`: the arrays as the region finds them; after the body at point `t` each input buffer
    at its block and the output buffer at the combined value; the invariant holds only what the body never touches. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the four input buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Gen

end
-- ==== Proof.KProj2.lean ====
/- Region 2 of the program: the projection of one batch element's node features by the layer's weight matrix,
   `out = h · W` on a block of 20000 rows. What the body leaves in the output block is the matrix product of
   the two input blocks; the input blocks are left as found. Stated at the contents `V` the region is entered
   with, for any float instance. -/
import proofs.«403166_j89026082111548_2_alg».proof.Proof.Gen.Kernel.Launch
import proofs.«403166_j89026082111548_2_alg».proof.Proof.Gen.Kernel.Skeleton
import proofs.«403166_j89026082111548_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The feature block is in its staging buffer at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight matrix is in its staging buffer at every point, though it is fetched only once: its block never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole feature block, the whole weight matrix, the whole output block. -/
abbrev r2_x : Rect S20000x64 := Rect.unit (s := S20000x64) ![0, 0] S20000x64.size inb_S20000x64_S20000x64_0_0
abbrev r2_w : Rect S64x64 := Rect.unit (s := S64x64) ![0, 0] S64x64.size inb_S64x64_S64x64_0_0
abbrev r2_o : Rect S20000x64 := Rect.unit (s := S20000x64) ![0, 0] S20000x64.size inb_S20000x64_S20000x64_0_0

/-- The output block after the body: its one store, of the product of the two loaded blocks. -/
def out2_2 (x0 : Vec F S20000x64 .f32) (x1 : Vec F S64x64 .f32) : Vec F S20000x64 .f32 :=
  View.canon [⟨r2_o, k2_pay1 (View.ld x0 r2_x) (View.ld x1 r2_w)⟩]

/-- That one store covers the block. -/
theorem cover2_2 (p0 : Vec F S20000x64 .f32) (y : S20000x64.Idx) :
    ∃ pc ∈ ([⟨r2_o, p0⟩] : List (View.Piece (Elt F) S20000x64 .f32)), y ∈ pc.1.set :=
  View.cover_of_tiled [⟨r2_o, p0⟩] S20000x64.size (by rfl) y

set_option maxHeartbeats 1000000 in
/-- The body on whole staging buffers: the inputs are kept, the output ends at the product. -/
theorem sound_kernel2 (c : Dev nD) (E : Set ℕ) (i : grid2.Coords) (arg1 : Memref sig .tc .vmem S20000x64 .f32) (harg1 : arg1.IsWhole) (arg2 : Memref sig .tc .vmem S64x64 .f32) (harg2 : arg2.IsWhole)
    (arg3 : Memref sig .tc .vmem S20000x64 .f32) (harg3 : arg3.IsWhole)
    (x0 : Vec F S20000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__proj_kernel i arg1 harg1 arg2 harg2 arg3 harg3) K := by
  simp only [cc2__proj_kernel_eq_skeleton]; unfold cc2__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The region's proof data on core `c`: the arrays as the region finds them; after the body at point `t` each input buffer
    at its block and the output buffer at the product of the two; the invariant holds only what the body never touches. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: both input buffers hold their blocks, so the body's triple applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Gen

end
-- ==== Proof.KComb3.lean ====
/- Region 3 of the program: the layer's combine step on one batch element's block of 20000 rows,
   `out = max (agg + hw * selfnorm + bias) 0`, the self-loop weight a column broadcast along the features and the bias a
   row broadcast along the nodes. The four input blocks are left as found. Stated at the contents `V` the region is
   entered with, for any float instance. -/
import proofs.«403166_j89026082111548_2_alg».proof.Proof.Gen.Kernel.Launch
import proofs.«403166_j89026082111548_2_alg».proof.Proof.Gen.Kernel.Skeleton
import proofs.«403166_j89026082111548_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's block is in its staging buffer at every point, fetched there or not: its block index has not moved since the fetch. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's block is in its staging buffer at every point, fetched there or not: its block index has not moved since the fetch. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's block is in its staging buffer at every point, fetched there or not: its block index has not moved since the fetch. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's block is in its staging buffer at every point, fetched there or not: its block index has not moved since the fetch. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- The whole blocks: rows by features, the self-loop column, the bias row. -/
abbrev r3_m : Rect S20000x64 := Rect.unit (s := S20000x64) ![0, 0] S20000x64.size inb_S20000x64_S20000x64_0_0
abbrev r3_s : Rect S20000x1 := Rect.unit (s := S20000x1) ![0, 0] S20000x1.size inb_S20000x1_S20000x1_0_0
abbrev r3_b : Rect S1x64 := Rect.unit (s := S1x64) ![0, 0] S1x64.size inb_S1x64_S1x64_0_0

/-- The output block after the body: its one store, of the combined value of the four loaded blocks. -/
def out3_4 (x0 x1 : Vec F S20000x64 .f32) (x2 : Vec F S20000x1 .f32) (x3 : Vec F S1x64 .f32) : Vec F S20000x64 .f32 :=
  View.canon [⟨r3_m, k3_pay1 (View.ld x0 r3_m) (View.ld x1 r3_m) (View.ld x2 r3_s) (View.ld x3 r3_b)⟩]

/-- That one store covers the block. -/
theorem cover3_4 (p0 : Vec F S20000x64 .f32) (y : S20000x64.Idx) :
    ∃ pc ∈ ([⟨r3_m, p0⟩] : List (View.Piece (Elt F) S20000x64 .f32)), y ∈ pc.1.set :=
  View.cover_of_tiled [⟨r3_m, p0⟩] S20000x64.size (by rfl) y

set_option maxHeartbeats 1000000 in
/-- The body on whole staging buffers: the inputs are kept, the output ends at the combined value. -/
theorem sound_kernel3 (c : Dev nD) (E : Set ℕ) (i : grid3.Coords) (arg1 : Memref sig .tc .vmem S20000x64 .f32) (harg1 : arg1.IsWhole) (arg2 : Memref sig .tc .vmem S20000x64 .f32) (harg2 : arg2.IsWhole)
    (arg3 : Memref sig .tc .vmem S20000x1 .f32) (harg3 : arg3.IsWhole) (arg4 : Memref sig .tc .vmem S1x64 .f32) (harg4 : arg4.IsWhole)
    (arg5 : Memref sig .tc .vmem S20000x64 .f32) (harg5 : arg5.IsWhole)
    (x0 x1 : Vec F S20000x64 .f32) (x2 : Vec F S20000x1 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out3_4 x0 x1 x2 x3)) -∗ K ⟨⟩))
      ⊢ wp frame (wpE (defs₀ (F := F)) Variants.none c none) E (cc3__combine_kernel i arg1 harg1 arg2 harg2 arg3 harg3 arg4 harg4 arg5 harg5) K := by
  simp only [cc3__combine_kernel_eq_skeleton]; unfold cc3__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-- The region's proof data on core `c`: the arrays as the region finds them; after the body at point `t` each input buffer
    at its block and the output buffer at the combined value; the invariant holds only what the body never touches. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the four input buffers hold their blocks, so the body's triple applies; the invariant and what
    the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Gen

end
-- ==== Proof.KPool4.lean ====
/- Region 4 of the program: the mean over the node axis, accumulated over ten grid points in a scratch buffer the
   kernel carries from point to point. The scratch is zeroed at the first point, every point adds its node block's
   sum over the 2000 rows, and the last point stores the scratch times the reciprocal of the node count into the
   output block, which is written back once, after that point. -/
import proofs.«403166_j89026082111548_2_alg».proof.Proof.Gen.Kernel.Launch
import proofs.«403166_j89026082111548_2_alg».proof.Proof.Gen.Kernel.Skeleton
import proofs.«403166_j89026082111548_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The node block of grid point `n` as a plain 8 x 2000 x 64 array (points past the grid read the last block). -/
def nodeBlk4 (c : Dev nD) (n : ℕ) : Vec F S8x2000x64 .f32 :=
  iblk4 V c 0 ⟨min n 9, Nat.lt_of_le_of_lt (Nat.min_le_right n 9) (by decide : 9 < cfg4.N)⟩

/-- The scratch accumulator after grid point `n`: reset to zero at the first point, then the running sum of the node
    blocks' sums over their 2000 rows. -/
def acc4 (c : Dev nD) : ℕ → Vec F S8x64 .f32
  | 0 => k4_pay2 (k4_pay1 (F := F)) (nodeBlk4 V c 0)
  | n + 1 => k4_pay2 (acc4 c n) (nodeBlk4 V c (n + 1))

/-- The node block of a point of the grid is that point's block. -/
theorem nodeBlk4_eq (c : Dev nD) (t : Fin cfg4.N) : nodeBlk4 V c t.val = (iblk4 V c 0 t : Vec F S8x2000x64 .f32) := by
  unfold nodeBlk4
  have hN : t.val < 10 := lt_of_lt_of_eq t.isLt (show cfg4.N = 10 from N_4)
  have e : (⟨min t.val 9, Nat.lt_of_le_of_lt (Nat.min_le_right t.val 9) (by decide : 9 < cfg4.N)⟩ : Fin cfg4.N) = t :=
    Fin.ext (by show min t.val 9 = t.val; omega)
  have h : ∀ x : Fin cfg4.N, x = t → (iblk4 V c 0 x : Vec F S8x2000x64 .f32) = iblk4 V c 0 t := fun x hx => by subst hx; rfl
  exact h _ e

theorem acc4_zero (c : Dev nD) : acc4 V c 0 = k4_pay2 (k4_pay1 (F := F)) (nodeBlk4 V c 0) := rfl

/-- After a point that is not the first the accumulator is the one before plus this point's block sum. -/
theorem acc4_pos (c : Dev nD) (n : ℕ) (hz : n ≠ 0) : acc4 V c n = k4_pay2 (acc4 V c (n - 1)) (nodeBlk4 V c n) := by
  cases n with
  | zero => exact absurd rfl hz
  | succ n => rfl

/-! ## The body's conditions, and where the output window is idle -/

/-- The first conditional of the body (the reset of the scratch): taken at the first point only. -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val = 0 :=
  (by decide +kernel : ∀ t : Fin grid4.N, cond4_0 (grid4.coords t) ↔ t.val = 0)
/-- The second (the store of the output block): taken at the last point only. -/
abbrev cond4_1 (i : grid4.Coords) : Prop := k4_cond2 i = 1#1
theorem hcond4_1 : ∀ t : Fin cfg4.N, cond4_1 (grid4.coords t) ↔ t.val = 9 :=
  (by decide +kernel : ∀ t : Fin grid4.N, cond4_1 (grid4.coords t) ↔ t.val = 9)

/-- The input window is live at every point; the output window is idle, and not written back, at every point but the last. -/
theorem liveAt4_0 : ∀ t : Fin cfg4.N, cfg4.idle 0 (grid4.coords t) = false := fun _ => rfl
theorem idleAt4_1 : ∀ t : Fin cfg4.N, t.val ≠ 9 → cfg4.idle 1 (grid4.coords t) = true :=
  (by decide +kernel : ∀ t : Fin grid4.N, t.val ≠ 9 → idle4 1 (grid4.coords t) = true)
theorem liveAt4_1 : ∀ t : Fin cfg4.N, t.val = 9 → cfg4.idle 1 (grid4.coords t) = false :=
  (by decide +kernel : ∀ t : Fin grid4.N, t.val = 9 → idle4 1 (grid4.coords t) = false)
theorem noFlush4_1 : ∀ t : Fin cfg4.N, t.val ≠ 9 → (cfg4.win 1).flush t = false :=
  (by decide +kernel : ∀ t : Fin grid4.N, t.val ≠ 9 → win4_1.flush t = false)

/-! ## The body on whole memrefs, at the first, a middle and the last point -/

theorem hz4_2 : (![0, 0] : Fin 2 → Nat) = fun _ => 0 := funext fun a => by fin_cases a <;> rfl
theorem hz4_3 : (![0, 0, 0] : Fin 3 → Nat) = fun _ => 0 := funext fun a => by fin_cases a <;> rfl

/-- The whole node block, the whole 8 x 64 block (the scratch's and the output's). -/
abbrev r4_x : Rect S8x2000x64 := Rect.unit (s := S8x2000x64) ![0, 0, 0] S8x2000x64.size inb_S8x2000x64_S8x2000x64_0_0_0
abbrev r4_o : Rect S8x64 := Rect.unit (s := S8x64) ![0, 0] S8x64.size inb_S8x64_S8x64_0_0

/-- A whole-block load of a buffer reads its contents. -/
theorem readAt4_x {κ : Kind} {sp : Space} (v : View sig κ sp S8x2000x64 .f32) (f : v.ty.Contents (Elt F)) :
    View.readAt (Elt F) v r4_x.toLoadRect f = View.read (Elt F) v f :=
  (View.readAt_eq_ld _ _ _).trans (View.ld_unit_zero hz4_3 _ _)
theorem readAt4_o {κ : Kind} {sp : Space} (v : View sig κ sp S8x64 .f32) (f : v.ty.Contents (Elt F)) :
    View.readAt (Elt F) v r4_o.toLoadRect f = View.read (Elt F) v f :=
  (View.readAt_eq_ld _ _ _).trans (View.ld_unit_zero hz4_2 _ _)

/-- A whole-block store, last, leaves its payload. -/
theorem read_writes4_o {κ : Kind} {sp : Space} (v : View sig κ sp S8x64 .f32) (f : v.ty.Contents (Elt F)) (w : Vec F S8x64 .f32)
    (L : List (View.Piece (Elt F) S8x64 .f32)) :
    View.read (Elt F) v (v.writes (Elt F) f ((⟨r4_o, w⟩ : View.Piece (Elt F) S8x64 .f32) :: L)) = w :=
  (View.read_writes_eq_canon _ _ _ (fun y => ⟨_, List.mem_cons_self, View.mem_set_unit_zero hz4_2 inb_S8x64_S8x64_0_0 y⟩)).trans
    (View.canon_cons_unit_zero hz4_2 _ _ _)

set_option maxHeartbeats 1000000 in
/-- The first point: the scratch, found at anything, is zeroed and then holds the first block's sum; the output buffer
    is not touched. -/
theorem sound_kernel4_first (c : Dev nD) (E : Set ℕ) (i : grid4.Coords) (arg1 : Memref sig .tc .vmem S8x2000x64 .f32) (harg1 : arg1.IsWhole) (arg2 : Memref sig .tc .vmem S8x64 .f32) (harg2 : arg2.IsWhole)
    (arg3 : Memref sig .tc .vmem S8x64 .f32) (harg3 : arg3.IsWhole) (hc0 : cond4_0 i) (hc1 : ¬cond4_1 i)
    (x0 : Vec F S8x2000x64 .f32) (K : PUnit → sProp 𝕄) :
    iprop(owns (c : Thread nD τ) arg1 fullShare x0 ∗ (∃ d, owns (c : Thread nD τ) arg3 fullShare d)
        ∗ (iprop(owns (c : Thread nD τ) arg1 fullShare x0 ∗ owns (c : Thread nD τ) arg3 fullShare (k4_pay2 (k4_pay1 (F := F)) x0)) -∗ K ⟨⟩))
      ⊢ wp frame (wpE (defs₀ (F := F)) Variants.none c none) E (cc4__pool_kernel i arg1 harg1 arg2 harg2 arg3 harg3) K := by
  simp only [cc4__pool_kernel_eq_skeleton]; unfold cc4__pool_kernel_skel
  unfold owns
  iintro ⟨⟨%f0, %hf0, H0⟩, ⟨%d2, %f2, -, H2⟩, Hk⟩
  subst hf0
  sl_exec (disch := first | exact hc0 | exact hc1)
  sl_step
  iapply Hk
  isplitl [H0]
  · iexists f0; isplitr; · ipureintro; rfl
    iexact H0
  iexists _; isplitr
  swap; · iexact H2
  ipureintro
  refine (read_writes4_o _ _ _ _).trans ?_
  exact congrArg₂ k4_pay2 (View.readCov_unit_zero arg3.view hz4_2 _ _) (readAt4_x _ _)

set_option maxHeartbeats 1000000 in
/-- A middle point: the scratch gains the block's sum; the output buffer is not touched. -/
theorem sound_kernel4_mid (c : Dev nD) (E : Set ℕ) (i : grid4.Coords) (arg1 : Memref sig .tc .vmem S8x2000x64 .f32) (harg1 : arg1.IsWhole) (arg2 : Memref sig .tc .vmem S8x64 .f32) (harg2 : arg2.IsWhole)
    (arg3 : Memref sig .tc .vmem S8x64 .f32) (harg3 : arg3.IsWhole) (hc0 : ¬cond4_0 i) (hc1 : ¬cond4_1 i)
    (x0 : Vec F S8x2000x64 .f32) (s0 : Vec F S8x64 .f32) (K : PUnit → sProp 𝕄) :
    iprop(owns (c : Thread nD τ) arg1 fullShare x0 ∗ owns (c : Thread nD τ) arg3 fullShare s0
        ∗ (iprop(owns (c : Thread nD τ) arg1 fullShare x0 ∗ owns (c : Thread nD τ) arg3 fullShare (k4_pay2 s0 x0)) -∗ K ⟨⟩))
      ⊢ wp frame (wpE (defs₀ (F := F)) Variants.none c none) E (cc4__pool_kernel i arg1 harg1 arg2 harg2 arg3 harg3) K := by
  simp only [cc4__pool_kernel_eq_skeleton]; unfold cc4__pool_kernel_skel
  unfold owns
  iintro ⟨⟨%f0, %hf0, H0⟩, ⟨%f2, %hf2, H2⟩, Hk⟩
  subst hf0; subst hf2
  sl_exec (disch := first | exact hc0 | exact hc1)
  sl_step
  iapply Hk
  isplitl [H0]
  · iexists f0; isplitr; · ipureintro; rfl
    iexact H0
  iexists _; isplitr
  swap; · iexact H2
  ipureintro
  refine (read_writes4_o _ _ _ _).trans ?_
  exact congrArg₂ k4_pay2 (readAt4_o _ _) (readAt4_x _ _)

set_option maxHeartbeats 1000000 in
/-- The last point: the scratch gains the block's sum, and the output buffer, found at anything, ends at the scratch
    times the named constant. -/
theorem sound_kernel4_last (c : Dev nD) (E : Set ℕ) (i : grid4.Coords) (arg1 : Memref sig .tc .vmem S8x2000x64 .f32) (harg1 : arg1.IsWhole) (arg2 : Memref sig .tc .vmem S8x64 .f32) (harg2 : arg2.IsWhole)
    (arg3 : Memref sig .tc .vmem S8x64 .f32) (harg3 : arg3.IsWhole) (hc0 : ¬cond4_0 i) (hc1 : cond4_1 i)
    (x0 : Vec F S8x2000x64 .f32) (s0 : Vec F S8x64 .f32) (K : PUnit → sProp 𝕄) :
    iprop(owns (c : Thread nD τ) arg1 fullShare x0 ∗ (∃ d, owns (c : Thread nD τ) arg2 fullShare d) ∗ owns (c : Thread nD τ) arg3 fullShare s0
        ∗ (iprop(owns (c : Thread nD τ) arg1 fullShare x0 ∗ owns (c : Thread nD τ) arg2 fullShare (k4_pay3 (k4_pay2 s0 x0))
            ∗ owns (c : Thread nD τ) arg3 fullShare (k4_pay2 s0 x0)) -∗ K ⟨⟩))
      ⊢ wp frame (wpE (defs₀ (F := F)) Variants.none c none) E (cc4__pool_kernel i arg1 harg1 arg2 harg2 arg3 harg3) K := by
  simp only [cc4__pool_kernel_eq_skeleton]; unfold cc4__pool_kernel_skel
  unfold owns
  iintro ⟨⟨%f0, %hf0, H0⟩, ⟨%d1, %f1, -, H1⟩, ⟨%f2, %hf2, H2⟩, Hk⟩
  subst hf0; subst hf2
  sl_exec (disch := first | exact hc0 | exact hc1)
  sl_step
  iapply Hk
  isplitl [H0]
  · iexists f0; isplitr; · ipureintro; rfl
    iexact H0
  have e2 : ∀ L : List (View.Piece (Elt F) S8x64 .f32), View.readCov arg3.view
      ((⟨r4_o, k4_pay2 (View.readAt (Elt F) arg3.view r4_o.toLoadRect f2) (View.readAt (Elt F) arg1.view r4_x.toLoadRect f0)⟩ : View.Piece (Elt F) S8x64 .f32) :: L) r4_o.toLoadRect
        = k4_pay2 (View.read (Elt F) arg3.view f2) (View.read (Elt F) arg1.view f0) := fun L => by
    rw [View.readCov_eq_canon_ld _ _ _ (fun y => ⟨_, List.mem_cons_self, View.mem_set_unit_zero hz4_2 inb_S8x64_S8x64_0_0 y⟩),
      View.canon_cons_unit_zero hz4_2, View.ld_unit_zero hz4_2, readAt4_o, readAt4_x]
  isplitl [H1]
  · iexists _; isplitr
    swap; · iexact H1
    ipureintro
    refine (read_writes4_o _ _ _ _).trans ?_
    exact congrArg k4_pay3 (e2 _)
  iexists _; isplitr
  swap; · iexact H2
  ipureintro
  refine (read_writes4_o _ _ _ _).trans ?_
  exact congrArg₂ k4_pay2 (readAt4_o _ _) (readAt4_x _ _)

/-! ## The region's invariant and proof data -/

/-- The scratch the kernel carries from point to point. -/
abbrev scM4 : Memref sig .tc .vmem S8x64 .f32 := Memref.whole cc4_scratch0

/-- The invariant before point `n`: before the first point every scoped buffer no window stages at anything (the
    scratch among them); afterwards the scratch at the accumulator the point before left, the other such buffers at
    anything; the generator register at some state throughout. -/
def Phi4 (c : Dev nD) : ℕ → sProp 𝕄
  | 0 => Pipeline.ΦA spec4 c
  | n + 1 => iprop(owns (c : Thread nD τ) scM4 fullShare (acc4 V c n)
      ∗ Pipeline.scopedRestBut (Ix := Unit) (Name := ℕ) (U := UR sig nD τ) (Lvl := ℕ) (Val := Elt F) spec4 c [cc4_scratch0] ∗ ∃ r, prngReg c r)

theorem Phi4_zero (c : Dev nD) (n : ℕ) (hz : n = 0) : Phi4 V c n = Pipeline.ΦA spec4 c := by
  subst hz; rfl

theorem Phi4_succ (c : Dev nD) (n : ℕ) :
    Phi4 V c (n + 1) = iprop(owns (c : Thread nD τ) scM4 fullShare (acc4 V c n)
      ∗ Pipeline.scopedRestBut (Ix := Unit) (Name := ℕ) (U := UR sig nD τ) (Lvl := ℕ) (Val := Elt F) spec4 c [cc4_scratch0] ∗ ∃ r, prngReg c r) := rfl

theorem Phi4_pos (c : Dev nD) (n : ℕ) (hz : n ≠ 0) :
    Phi4 V c n = iprop(owns (c : Thread nD τ) scM4 fullShare (acc4 V c (n - 1))
      ∗ Pipeline.scopedRestBut (Ix := Unit) (Name := ℕ) (U := UR sig nD τ) (Lvl := ℕ) (Val := Elt F) spec4 c [cc4_scratch0] ∗ ∃ r, prngReg c r) := by
  cases n with
  | zero => exact absurd rfl hz
  | succ n => rfl

/-- The class invariant with the scratch as a memref owned at some contents, the other buffers unopened. -/
theorem PhiA4_eq (c : Dev nD) :
    (Pipeline.ΦA spec4 c : sProp 𝕄)
      = iprop(iprop(iprop((∃ d, owns (c : Thread nD τ) scM4 fullShare d))
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; try rfl

/-- The region's proof data on core `c`: the arrays as the region finds them; after the body at point `t` the input
    buffer at its block and the output buffer at the scaled accumulator (which the body stores at the last point only:
    at the others the window is idle and this is not consulted); the invariant carries the scratch. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => k4_pay3 (acc4 V c t.val)
  Φ t := Phi4 V c t.val
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = k4_pay3 (acc4 V c t.val) := by dsimp only [dat4]

theorem Phi4_castSucc (c : Dev nD) (t : Fin cfg4.N) : (dat4 V c).Φ t.castSucc = Phi4 V c t.val := by
  dsimp only [dat4]; simp only [Fin.coe_castSucc]

/-- The node block is in its staging buffer at every point. -/
theorem before4_0 (c : Dev nD) (t : Fin cfg4.N) (d) : (dat4 V c).before 0 t d = iblk4 V c 0 t :=
  ((dat4 V c).before_in_eq_fetched 0 rfl (fun _ => rfl) (fun _ _ _ => rfl)
    (fun t => by rw [after4_0]; unfold Dat.blockOf iblk4; rw [A_eq4]; try rfl) t d).trans
    (by unfold Dat.fetched Dat.blockOf iblk4; rw [A_eq4]; try rfl)

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t)

set_option maxHeartbeats 4000000 in
/-- The body at any point, by the point's place in the grid: at the first the invariant hands the scratch at anything,
    later at the accumulator so far; the output buffer is handed back as found except at the last point, where it is
    stored; the invariant takes the scratch back at this point's accumulator. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).owesAt () t.succ = (dat4 V c).owesAt () t.castSucc from rfl]
  rw [show (dat4 V c).Φ t.succ = Phi4 V c (t.val + 1) from rfl, Phi4_succ, Phi4_castSucc]
  rw [show (dat4 V c).leavesExact 0 t = owns (c : Thread nD τ) (st4_0 t) fullShare ((dat4 V c).after 0 t) from by
    unfold Dat.leavesExact; rw [liveAt4_0 t], after4_0]
  have hN : t.val < 10 := lt_of_lt_of_eq t.isLt (show cfg4.N = 10 from N_4)
  by_cases h0 : t.val = 0
  · have h9 : t.val ≠ 9 := by omega
    rw [Dat.leavesExact_idle (dat4 V c) 1 t (idleAt4_1 t h9) (noFlush4_1 t h9)]
    rw [Phi4_zero V c _ h0, PhiA4_eq]
    rw [show acc4 V c t.val = k4_pay2 (k4_pay1 (F := F)) (iblk4 V c 0 t) from by
      rw [← nodeBlk4_eq V c t, h0]; rfl]
    iintro ⟨⟨⟨HS, HR⟩, Hg⟩, Ho, ⟨%d0, H0⟩, ⟨%d1, H1⟩⟩
    iapply (sound_kernel4_first c Set.univ _ _ _ _ _ _ _ ((hcond4_0 t).mpr h0) (fun h => h9 ((hcond4_1 t).mp h)) (iblk4 V c 0 t) _)
    isplitl [H0]; · iexact H0
    isplitl [HS]; · iexact HS
    iintro ⟨H0, HS⟩
    isplitl [HS HR Hg]
    · isplitl [HS]; · iexact HS
      isplitl [HR]; · iexact HR
      iexact Hg
    isplitl [Ho]; · iexact Ho
    isplitl [H0]; · iexact H0
    iexists _; iexact H1
  · rw [Phi4_pos V c _ h0]
    rw [show acc4 V c t.val = k4_pay2 (acc4 V c (t.val - 1)) (iblk4 V c 0 t) from by
      rw [← nodeBlk4_eq V c t]; exact acc4_pos V c _ h0]
    by_cases h9 : t.val = 9
    · rw [show (dat4 V c).leavesExact 1 t = owns (c : Thread nD τ) (st4_1 t) fullShare ((dat4 V c).after 1 t) from by
        unfold Dat.leavesExact; rw [liveAt4_1 t h9], after4_1]
      rw [show acc4 V c t.val = k4_pay2 (acc4 V c (t.val - 1)) (iblk4 V c 0 t) from by
        rw [← nodeBlk4_eq V c t]; exact acc4_pos V c _ h0]
      iintro ⟨⟨HS, HR, Hg⟩, Ho, ⟨%d0, H0⟩, ⟨%d1, H1⟩⟩
      iapply (sound_kernel4_last c Set.univ _ _ _ _ _ _ _ (fun h => h0 ((hcond4_0 t).mp h)) ((hcond4_1 t).mpr h9) (iblk4 V c 0 t) (acc4 V c (t.val - 1)) _)
      isplitl [H0]; · iexact H0
      isplitl [H1]; · iexists _; iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      iexact H1
    · rw [Dat.leavesExact_idle (dat4 V c) 1 t (idleAt4_1 t h9) (noFlush4_1 t h9)]
      iintro ⟨⟨HS, HR, Hg⟩, Ho, ⟨%d0, H0⟩, ⟨%d1, H1⟩⟩
      iapply (sound_kernel4_mid c Set.univ _ _ _ _ _ _ _ (fun h => h0 ((hcond4_0 t).mp h)) (fun h => h9 ((hcond4_1 t).mp h)) (iblk4 V c 0 t) (acc4 V c (t.val - 1)) _)
      isplitl [H0]; · iexact H0
      isplitl [HS]; · iexact HS
      iintro ⟨H0, HS⟩
      isplitl [HS HR Hg]
      · isplitl [HS]; · iexact HS
        isplitl [HR]; · iexact HR
        iexact Hg
      isplitl [Ho]; · iexact Ho
      isplitl [H0]; · iexact H0
      iexists _; iexact H1

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- Entering the region: the generator register and the scoped buffers no window stages (the scratch among them, at
    anything) make the invariant before the first point. -/
theorem hin4 (c : Dev nD) :
    (iprop((∃ r, prngReg c r) ∗ Pipeline.scopedRest (Ix := Unit) (Name := ℕ) (U := UR sig nD τ) (Lvl := ℕ) spec4 c) : sProp 𝕄) ⊢ (dat4 V c).Φ 0 := by
  rw [show (dat4 V c).Φ 0 = Pipeline.ΦA spec4 c from rfl]; unfold Pipeline.ΦA
  iintro ⟨Hg, HR⟩
  isplitl [HR]; · iexact HR
  iexact Hg

/-- Leaving it: the invariant after the last point gives them back, the scratch's contents forgotten. -/
theorem hout4 (c : Dev nD) :
    (dat4 V c).Φ (Fin.last cfg4.N) ⊢ (iprop((∃ r, prngReg c r) ∗ Pipeline.scopedRest (Ix := Unit) (Name := ℕ) (U := UR sig nD τ) (Lvl := ℕ) spec4 c) : sProp 𝕄) := by
  rw [show (dat4 V c).Φ (Fin.last cfg4.N) = Phi4 V c (Fin.last cfg4.N).val from rfl,
    Phi4_pos V c _ (by rw [Fin.val_last]; have : cfg4.N = 10 := N_4; omega), scopedRest4_split]
  simp only [scM4, owns_whole]
  iintro ⟨HS, HR, Hg⟩
  isplitl [Hg]; · iexact Hg
  isplitl [HS]; · iexists _; iexact HS
  iexact HR

/-! ## The output array after the run -/

/-- The output window's block index is (0, 0) at every point: its one block is the whole array. -/
theorem idx4_1 : ∀ t : Fin cfg4.N, win4_1.index t (0 : Fin 2) = 0 ∧ win4_1.index t (1 : Fin 2) = 0 :=
  (by decide +kernel : ∀ t : Fin grid4.N, win4_1.index t (0 : Fin 2) = 0 ∧ win4_1.index t (1 : Fin 2) = 0)

/-- The output block is written back at the last point only. -/
theorem flush4_1_last (t : Fin cfg4.N) (hf : (cfg4.win 1).flush t = true) : t.val = 9 := by
  have h := (flush4_1 t).mp hf
  have hN : t.val < 10 := lt_of_lt_of_eq t.isLt (show cfg4.N = 10 from N_4)
  omega

/-- What a point that writes the output block back writes is the block, the whole array, of the scaled accumulator
    after the last point. -/
theorem flushed4_1_eq (c : Dev nD) (t : Fin cfg4.N) (hf : (cfg4.win 1).flush t = true) :
    (dat4 V c).flushed 1 t = ((cfg4.win 1).blk t).view.read (Elt F) (k4_pay3 (acc4 V c 9)) := by
  show (cfg4.win 1).cut (grid4.coords t) ((dat4 V c).after 1 t) = _
  rw [after4_1, flush4_1_last t hf]
  obtain ⟨e0, e1⟩ := idx4_1 t
  funext j
  show k4_pay3 (acc4 V c 9) ((cfg4.win 1).xinj (grid4.coords t) j) = k4_pay3 (acc4 V c 9) (((cfg4.win 1).blk t).view.emb j)
  congr 1
  funext a; apply Fin.ext
  match a with
  | ⟨0, _⟩ => show (j 0).val = win4_1.index t (0 : Fin 2) * 8 + 1 * (j 0).val; omega
  | ⟨1, _⟩ => show (j 1).val = win4_1.index t (1 : Fin 2) * 64 + 1 * (j 1).val; omega

/-- An index of the output array is in point `t`'s block iff each coordinate is in the block's range on its axis. -/
theorem mem_blk4_1 (t : Fin cfg4.N) (i : S8x64.Idx) :
    i ∈ ((cfg4.win 1).blk t).view.set ↔ ∀ a : Fin 2, win4_1.index t a * S8x64.size a ≤ (i a).val ∧ (i a).val < win4_1.index t a * S8x64.size a + S8x64.size a := by
  show i ∈ ((View.whole main_v81).slice (win4_1.rect t)).set ↔ _
  rw [View.set_slice_whole, Rect.mem_set_unit]
  exact Iff.rfl

/-- Every index of the output array is in the block the last point writes back. -/
theorem cover4_1 (i : S8x64.Idx) : ∃ t : Fin cfg4.N, (cfg4.win 1).flush t = true ∧ i ∈ ((cfg4.win 1).blk t).view.set := by
  refine ⟨t4_9, (flush4_1 t4_9).mpr rfl, ?_⟩
  rw [mem_blk4_1]
  obtain ⟨e0, e1⟩ := idx4_1 t4_9
  intro a
  match a with
  | ⟨0, _⟩ =>
    show win4_1.index t4_9 (0 : Fin 2) * 8 ≤ (i 0).val ∧ (i 0).val < win4_1.index t4_9 (0 : Fin 2) * 8 + 8
    have hi : (i 0).val < 8 := (i 0).isLt
    omega
  | ⟨1, _⟩ =>
    show win4_1.index t4_9 (1 : Fin 2) * 64 ≤ (i 1).val ∧ (i 1).val < win4_1.index t4_9 (1 : Fin 2) * 64 + 64
    have hi : (i 1).val < 64 := (i 1).isLt
    omega

/-- What the region leaves in its output array: the accumulator after the last point, scaled by the reciprocal of the
    node count. (The output window is one block, the whole array, written back once, after the last point.) -/
theorem arrAt4_out (c : Dev nD) :
    ((dat4 V c).arrAt 1 cfg4.N : S8x64.Idx → Elt F .f32) = k4_pay3 (acc4 V c 9) :=
  (dat4 V c).arrAt_eq_of_cover 1 (k4_pay3 (acc4 V c 9)) (fun t hf => flushed4_1_eq V c t hf) cover4_1

end Cert.Kernel.Gen

end
-- ==== Proof.KBounds.lean ====
/- The contents of every buffer at each boundary between the program's eleven items (six stretches of host operations
   and five kernel regions between them), as a fold from the launch memory: a stretch applies its operations; a region
   leaves its arrays at what its write-backs leave and every other buffer as entered. Then: each region's proof data at
   its entry contents, and the fact that no item writes an argument. -/
import proofs.«403166_j89026082111548_2_alg».proof.Proof.Gen.Kernel.Launch
import proofs.«403166_j89026082111548_2_alg».proof.Proof.Gen.Kernel.Skeleton
import proofs.«403166_j89026082111548_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«403166_j89026082111548_2_alg».proof.Proof.KProj0
import proofs.«403166_j89026082111548_2_alg».proof.Proof.KComb1
import proofs.«403166_j89026082111548_2_alg».proof.Proof.KProj2
import proofs.«403166_j89026082111548_2_alg».proof.Proof.KComb3
import proofs.«403166_j89026082111548_2_alg».proof.Proof.KPool4
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)

/-- After the host stretch before region 0 (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- An input window's array leaves region 0 as it entered. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))

/-- After the host stretch before region 1 (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- An input window's array leaves region 1 as it entered. -/
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))

/-- After the host stretch before region 2 (region 2's entry). -/
abbrev W5 : Dev nD → Valuation τ sig (Elt F) := fun c => StableHlo.after hostOps2 (W4 m ρ c)
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- An input window's array leaves region 2 as it entered. -/
theorem W6_in (c : Dev nD) (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hin _).trans (A_eq2 (V5 m ρ) c w))

/-- After the host stretch before region 3 (region 3's entry). -/
abbrev W7 : Dev nD → Valuation τ sig (Elt F) := fun c => StableHlo.after hostOps3 (W6 m ρ c)
/-- The same read at the TensorCore's references (what region 3's proof data take). -/
abbrev V7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references (region 3's exit contents). -/
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- An input window's array leaves region 3 as it entered. -/
theorem W8_in (c : Dev nD) (w : Fin cfg3.W) (hin : (cfg3.win w).isOut = false) :
    W8 m ρ c (Proc.devRef .tc (Pipeline.arrRef spec3 w)) = W7 m ρ c (Proc.devRef .tc (Pipeline.arrRef spec3 w)) :=
  (W8_arr m ρ c w).trans (((dat3 (V7 m ρ) c).arrAt_in w hin _).trans (A_eq3 (V7 m ρ) c w))

/-- After the host stretch before region 4 (region 4's entry). -/
abbrev W9 : Dev nD → Valuation τ sig (Elt F) := fun c => StableHlo.after hostOps4 (W8 m ρ c)
/-- The same read at the TensorCore's references (what region 4's proof data take). -/
abbrev V9 : (c : Dev nD) → (b : Ref sig .tc) → Buf (Elt F) ((c : Thread nD τ).loc b) := fun c b => W9 m ρ c b
/-- At region 4's exit: its arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same read at the TensorCore's references (region 4's exit contents). -/
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- An input window's array leaves region 4 as it entered. -/
theorem W10_in (c : Dev nD) (w : Fin cfg4.W) (hin : (cfg4.win w).isOut = false) :
    W10 m ρ c (Proc.devRef .tc (Pipeline.arrRef spec4 w)) = W9 m ρ c (Proc.devRef .tc (Pipeline.arrRef spec4 w)) :=
  (W10_arr m ρ c w).trans (((dat4 (V9 m ρ) c).arrAt_in w hin _).trans (A_eq4 (V9 m ρ) c w))

/-- After the last host stretch (the program's end). -/
abbrev W11 : Dev nD → Valuation τ sig (Elt F) := fun c => StableHlo.after hostOps5 (W10 m ρ c)

/-- The prefetched tables' admissible contents: no region has a table. -/
abbrev adm : (p : Fin 5) → (pcfgs (F := F) p).Adm := fun p => (cfgs p).toPCfg_adm
/-- Every region's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the generator register at some state. -/
abbrev Tₙ (c : Dev nD) : sProp 𝕄 := iprop(StableHlo.held (c : Thread nD τ) (Pipeline.ucRefs τ sig) (W11 m ρ c) ∗ ∃ r, prngReg c r)

end Cert.Kernel.Gen

end
-- ==== Proof.KArgs.lean ====
/- No item of the program writes an argument. Per host stretch: the list of the references its operations write, and
   that a reference outside the list holds after the stretch what it held before. Then, boundary by boundary, each
   argument's buffer still holds the launch contents: a host stretch does not list it among what it writes; a kernel
   region either does not have it among its windows' arrays, or has it as the array of an input window, which the
   region leaves as entered. -/
import proofs.«403166_j89026082111548_2_alg».proof.Proof.KBounds
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## What each host stretch writes -/

/-- The references the first host stretch's operations write. -/
abbrev wrote0 : List (Ref sig .tc) := [main_v0, main_v1, main_v2, main_v3, main_cst, main_v4, main_c, main_v5, main_v6, main_c_0, main_v7, main_v8, main_v9, main_v10, main_cst_1, main_v11, main_v12, main_v13, main_c_2, main_v14, main_v15, main_c_3, main_v16, main_v17, main_v18, main_v19, main_v20, main_c_4, main_v21, main_v22, main_c_5, main_v23, main_v24, main_v25, main_v26, main_v27, main_v28, main_v29, main_v30, main_v31]
theorem hostOps0_wrote : (hostOps0 : List (HloOp τ sig (Elt F))).Forall fun op => op.writes ⊆ (wrote0.map (Proc.devRef (τ := τ) .tc)).toFinset := by
  simp only [List.Forall]
  repeat' apply And.intro
  -- each builder writes exactly its result, the image of a listed reference
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
/-- A reference the first host stretch does not write holds after it what it held before. -/
theorem keptBy_hostOps0 (W : Valuation τ sig (Elt F)) (r : Ref sig .tc) (h : r ∉ wrote0) :
    StableHlo.after hostOps0 W (Proc.devRef .tc r) = W (Proc.devRef .tc r) :=
  StableHlo.after_of_writes_sub hostOps0 W hostOps0_wrote h

/-- The references the second host stretch's operations write. -/
abbrev wrote1 : List (Ref sig .tc) := [main_v33, main_c_6, main_v34, main_v35, main_c_7, main_v36, main_v37, main_v38, main_v39, main_v40, main_v41, main_v42, main_v43, main_cst_8, main_v44, main_c_9, main_v45, main_v46, main_c_10, main_v47, main_v48, main_v49, main_v50, main_v51, main_v52, main_v53]
theorem hostOps1_wrote : (hostOps1 : List (HloOp τ sig (Elt F))).Forall fun op => op.writes ⊆ (wrote1.map (Proc.devRef (τ := τ) .tc)).toFinset := by
  simp only [List.Forall]
  repeat' apply And.intro
  -- each builder writes exactly its result, the image of a listed reference
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
/-- A reference the second host stretch does not write holds after it what it held before. -/
theorem keptBy_hostOps1 (W : Valuation τ sig (Elt F)) (r : Ref sig .tc) (h : r ∉ wrote1) :
    StableHlo.after hostOps1 W (Proc.devRef .tc r) = W (Proc.devRef .tc r) :=
  StableHlo.after_of_writes_sub hostOps1 W hostOps1_wrote h

/-- The references the third host stretch's operations write. -/
abbrev wrote2 : List (Ref sig .tc) := [main_v55, main_v56]
theorem hostOps2_wrote : (hostOps2 : List (HloOp τ sig (Elt F))).Forall fun op => op.writes ⊆ (wrote2.map (Proc.devRef (τ := τ) .tc)).toFinset := by
  simp only [List.Forall]
  repeat' apply And.intro
  -- each builder writes exactly its result, the image of a listed reference
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
/-- A reference the third host stretch does not write holds after it what it held before. -/
theorem keptBy_hostOps2 (W : Valuation τ sig (Elt F)) (r : Ref sig .tc) (h : r ∉ wrote2) :
    StableHlo.after hostOps2 W (Proc.devRef .tc r) = W (Proc.devRef .tc r) :=
  StableHlo.after_of_writes_sub hostOps2 W hostOps2_wrote h

/-- The references the fourth host stretch's operations write. -/
abbrev wrote3 : List (Ref sig .tc) := [main_v58, main_c_11, main_v59, main_v60, main_c_12, main_v61, main_v62, main_v63, main_v64, main_v65, main_v66, main_v67, main_v68, main_cst_13, main_v69, main_c_14, main_v70, main_v71, main_c_15, main_v72, main_v73, main_v74, main_v75, main_v76, main_v77, main_v78]
theorem hostOps3_wrote : (hostOps3 : List (HloOp τ sig (Elt F))).Forall fun op => op.writes ⊆ (wrote3.map (Proc.devRef (τ := τ) .tc)).toFinset := by
  simp only [List.Forall]
  repeat' apply And.intro
  -- each builder writes exactly its result, the image of a listed reference
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
/-- A reference the fourth host stretch does not write holds after it what it held before. -/
theorem keptBy_hostOps3 (W : Valuation τ sig (Elt F)) (r : Ref sig .tc) (h : r ∉ wrote3) :
    StableHlo.after hostOps3 W (Proc.devRef .tc r) = W (Proc.devRef .tc r) :=
  StableHlo.after_of_writes_sub hostOps3 W hostOps3_wrote h

/-- The references the fifth host stretch's operations write. -/
abbrev wrote4 : List (Ref sig .tc) := [main_v80]
theorem hostOps4_wrote : (hostOps4 : List (HloOp τ sig (Elt F))).Forall fun op => op.writes ⊆ (wrote4.map (Proc.devRef (τ := τ) .tc)).toFinset := by
  simp only [List.Forall]
  repeat' apply And.intro
  -- each builder writes exactly its result, the image of a listed reference
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
/-- A reference the fifth host stretch does not write holds after it what it held before. -/
theorem keptBy_hostOps4 (W : Valuation τ sig (Elt F)) (r : Ref sig .tc) (h : r ∉ wrote4) :
    StableHlo.after hostOps4 W (Proc.devRef .tc r) = W (Proc.devRef .tc r) :=
  StableHlo.after_of_writes_sub hostOps4 W hostOps4_wrote h

/-- The references the sixth host stretch's operations write. -/
abbrev wrote5 : List (Ref sig .tc) := [main_v82, main_v83, main_v84, main_v85, main_v86]
theorem hostOps5_wrote : (hostOps5 : List (HloOp τ sig (Elt F))).Forall fun op => op.writes ⊆ (wrote5.map (Proc.devRef (τ := τ) .tc)).toFinset := by
  simp only [List.Forall]
  repeat' apply And.intro
  -- each builder writes exactly its result, the image of a listed reference
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
/-- A reference the sixth host stretch does not write holds after it what it held before. -/
theorem keptBy_hostOps5 (W : Valuation τ sig (Elt F)) (r : Ref sig .tc) (h : r ∉ wrote5) :
    StableHlo.after hostOps5 W (Proc.devRef .tc r) = W (Proc.devRef .tc r) :=
  StableHlo.after_of_writes_sub hostOps5 W hostOps5_wrote h

variable (m : (ℓ : Loc nD τ sig) → Buf (Elt F) ℓ) (ρ : Dev nD → PrngReg)

/-! ## Each argument at each boundary -/

/-! After the first host stretch. -/
theorem W1_arg0 (c : Dev nD) : W1 m ρ c (Proc.devRef .tc main_arg0) = m ((c.tc : Thread nD τ).loc main_arg0) :=
  (keptBy_hostOps0 (W0 m ρ c) main_arg0 (by decide)).trans rfl
theorem W1_arg1 (c : Dev nD) : W1 m ρ c (Proc.devRef .tc main_arg1) = m ((c.tc : Thread nD τ).loc main_arg1) :=
  (keptBy_hostOps0 (W0 m ρ c) main_arg1 (by decide)).trans rfl
theorem W1_arg2 (c : Dev nD) : W1 m ρ c (Proc.devRef .tc main_arg2) = m ((c.tc : Thread nD τ).loc main_arg2) :=
  (keptBy_hostOps0 (W0 m ρ c) main_arg2 (by decide)).trans rfl
theorem W1_arg3 (c : Dev nD) : W1 m ρ c (Proc.devRef .tc main_arg3) = m ((c.tc : Thread nD τ).loc main_arg3) :=
  (keptBy_hostOps0 (W0 m ρ c) main_arg3 (by decide)).trans rfl
theorem W1_arg4 (c : Dev nD) : W1 m ρ c (Proc.devRef .tc main_arg4) = m ((c.tc : Thread nD τ).loc main_arg4) :=
  (keptBy_hostOps0 (W0 m ρ c) main_arg4 (by decide)).trans rfl
theorem W1_arg5 (c : Dev nD) : W1 m ρ c (Proc.devRef .tc main_arg5) = m ((c.tc : Thread nD τ).loc main_arg5) :=
  (keptBy_hostOps0 (W0 m ρ c) main_arg5 (by decide)).trans rfl
theorem W1_arg6 (c : Dev nD) : W1 m ρ c (Proc.devRef .tc main_arg6) = m ((c.tc : Thread nD τ).loc main_arg6) :=
  (keptBy_hostOps0 (W0 m ρ c) main_arg6 (by decide)).trans rfl
theorem W1_arg7 (c : Dev nD) : W1 m ρ c (Proc.devRef .tc main_arg7) = m ((c.tc : Thread nD τ).loc main_arg7) :=
  (keptBy_hostOps0 (W0 m ρ c) main_arg7 (by decide)).trans rfl
theorem W1_arg8 (c : Dev nD) : W1 m ρ c (Proc.devRef .tc main_arg8) = m ((c.tc : Thread nD τ).loc main_arg8) :=
  (keptBy_hostOps0 (W0 m ρ c) main_arg8 (by decide)).trans rfl

/-! At region 0's exit. -/
theorem W2_arg0 (c : Dev nD) : W2 m ρ c (Proc.devRef .tc main_arg0) = m ((c.tc : Thread nD τ).loc main_arg0) :=
  (W2_of_ne m ρ c main_arg0 (by decide)).trans (W1_arg0 m ρ c)
theorem W2_arg1 (c : Dev nD) : W2 m ρ c (Proc.devRef .tc main_arg1) = m ((c.tc : Thread nD τ).loc main_arg1) :=
  (W2_of_ne m ρ c main_arg1 (by decide)).trans (W1_arg1 m ρ c)
theorem W2_arg2 (c : Dev nD) : W2 m ρ c (Proc.devRef .tc main_arg2) = m ((c.tc : Thread nD τ).loc main_arg2) :=
  (W2_of_ne m ρ c main_arg2 (by decide)).trans (W1_arg2 m ρ c)
theorem W2_arg3 (c : Dev nD) : W2 m ρ c (Proc.devRef .tc main_arg3) = m ((c.tc : Thread nD τ).loc main_arg3) :=
  (W2_in m ρ c 1 rfl).trans (W1_arg3 m ρ c)
theorem W2_arg4 (c : Dev nD) : W2 m ρ c (Proc.devRef .tc main_arg4) = m ((c.tc : Thread nD τ).loc main_arg4) :=
  (W2_of_ne m ρ c main_arg4 (by decide)).trans (W1_arg4 m ρ c)
theorem W2_arg5 (c : Dev nD) : W2 m ρ c (Proc.devRef .tc main_arg5) = m ((c.tc : Thread nD τ).loc main_arg5) :=
  (W2_of_ne m ρ c main_arg5 (by decide)).trans (W1_arg5 m ρ c)
theorem W2_arg6 (c : Dev nD) : W2 m ρ c (Proc.devRef .tc main_arg6) = m ((c.tc : Thread nD τ).loc main_arg6) :=
  (W2_of_ne m ρ c main_arg6 (by decide)).trans (W1_arg6 m ρ c)
theorem W2_arg7 (c : Dev nD) : W2 m ρ c (Proc.devRef .tc main_arg7) = m ((c.tc : Thread nD τ).loc main_arg7) :=
  (W2_of_ne m ρ c main_arg7 (by decide)).trans (W1_arg7 m ρ c)
theorem W2_arg8 (c : Dev nD) : W2 m ρ c (Proc.devRef .tc main_arg8) = m ((c.tc : Thread nD τ).loc main_arg8) :=
  (W2_of_ne m ρ c main_arg8 (by decide)).trans (W1_arg8 m ρ c)

/-! After the second host stretch. -/
theorem W3_arg0 (c : Dev nD) : W3 m ρ c (Proc.devRef .tc main_arg0) = m ((c.tc : Thread nD τ).loc main_arg0) :=
  (keptBy_hostOps1 (W2 m ρ c) main_arg0 (by decide)).trans (W2_arg0 m ρ c)
theorem W3_arg1 (c : Dev nD) : W3 m ρ c (Proc.devRef .tc main_arg1) = m ((c.tc : Thread nD τ).loc main_arg1) :=
  (keptBy_hostOps1 (W2 m ρ c) main_arg1 (by decide)).trans (W2_arg1 m ρ c)
theorem W3_arg2 (c : Dev nD) : W3 m ρ c (Proc.devRef .tc main_arg2) = m ((c.tc : Thread nD τ).loc main_arg2) :=
  (keptBy_hostOps1 (W2 m ρ c) main_arg2 (by decide)).trans (W2_arg2 m ρ c)
theorem W3_arg3 (c : Dev nD) : W3 m ρ c (Proc.devRef .tc main_arg3) = m ((c.tc : Thread nD τ).loc main_arg3) :=
  (keptBy_hostOps1 (W2 m ρ c) main_arg3 (by decide)).trans (W2_arg3 m ρ c)
theorem W3_arg4 (c : Dev nD) : W3 m ρ c (Proc.devRef .tc main_arg4) = m ((c.tc : Thread nD τ).loc main_arg4) :=
  (keptBy_hostOps1 (W2 m ρ c) main_arg4 (by decide)).trans (W2_arg4 m ρ c)
theorem W3_arg5 (c : Dev nD) : W3 m ρ c (Proc.devRef .tc main_arg5) = m ((c.tc : Thread nD τ).loc main_arg5) :=
  (keptBy_hostOps1 (W2 m ρ c) main_arg5 (by decide)).trans (W2_arg5 m ρ c)
theorem W3_arg6 (c : Dev nD) : W3 m ρ c (Proc.devRef .tc main_arg6) = m ((c.tc : Thread nD τ).loc main_arg6) :=
  (keptBy_hostOps1 (W2 m ρ c) main_arg6 (by decide)).trans (W2_arg6 m ρ c)
theorem W3_arg7 (c : Dev nD) : W3 m ρ c (Proc.devRef .tc main_arg7) = m ((c.tc : Thread nD τ).loc main_arg7) :=
  (keptBy_hostOps1 (W2 m ρ c) main_arg7 (by decide)).trans (W2_arg7 m ρ c)
theorem W3_arg8 (c : Dev nD) : W3 m ρ c (Proc.devRef .tc main_arg8) = m ((c.tc : Thread nD τ).loc main_arg8) :=
  (keptBy_hostOps1 (W2 m ρ c) main_arg8 (by decide)).trans (W2_arg8 m ρ c)

/-! At region 1's exit. -/
theorem W4_arg0 (c : Dev nD) : W4 m ρ c (Proc.devRef .tc main_arg0) = m ((c.tc : Thread nD τ).loc main_arg0) :=
  (W4_of_ne m ρ c main_arg0 (by decide)).trans (W3_arg0 m ρ c)
theorem W4_arg1 (c : Dev nD) : W4 m ρ c (Proc.devRef .tc main_arg1) = m ((c.tc : Thread nD τ).loc main_arg1) :=
  (W4_of_ne m ρ c main_arg1 (by decide)).trans (W3_arg1 m ρ c)
theorem W4_arg2 (c : Dev nD) : W4 m ρ c (Proc.devRef .tc main_arg2) = m ((c.tc : Thread nD τ).loc main_arg2) :=
  (W4_of_ne m ρ c main_arg2 (by decide)).trans (W3_arg2 m ρ c)
theorem W4_arg3 (c : Dev nD) : W4 m ρ c (Proc.devRef .tc main_arg3) = m ((c.tc : Thread nD τ).loc main_arg3) :=
  (W4_of_ne m ρ c main_arg3 (by decide)).trans (W3_arg3 m ρ c)
theorem W4_arg4 (c : Dev nD) : W4 m ρ c (Proc.devRef .tc main_arg4) = m ((c.tc : Thread nD τ).loc main_arg4) :=
  (W4_of_ne m ρ c main_arg4 (by decide)).trans (W3_arg4 m ρ c)
theorem W4_arg5 (c : Dev nD) : W4 m ρ c (Proc.devRef .tc main_arg5) = m ((c.tc : Thread nD τ).loc main_arg5) :=
  (W4_of_ne m ρ c main_arg5 (by decide)).trans (W3_arg5 m ρ c)
theorem W4_arg6 (c : Dev nD) : W4 m ρ c (Proc.devRef .tc main_arg6) = m ((c.tc : Thread nD τ).loc main_arg6) :=
  (W4_of_ne m ρ c main_arg6 (by decide)).trans (W3_arg6 m ρ c)
theorem W4_arg7 (c : Dev nD) : W4 m ρ c (Proc.devRef .tc main_arg7) = m ((c.tc : Thread nD τ).loc main_arg7) :=
  (W4_of_ne m ρ c main_arg7 (by decide)).trans (W3_arg7 m ρ c)
theorem W4_arg8 (c : Dev nD) : W4 m ρ c (Proc.devRef .tc main_arg8) = m ((c.tc : Thread nD τ).loc main_arg8) :=
  (W4_of_ne m ρ c main_arg8 (by decide)).trans (W3_arg8 m ρ c)

/-! After the third host stretch. -/
theorem W5_arg0 (c : Dev nD) : W5 m ρ c (Proc.devRef .tc main_arg0) = m ((c.tc : Thread nD τ).loc main_arg0) :=
  (keptBy_hostOps2 (W4 m ρ c) main_arg0 (by decide)).trans (W4_arg0 m ρ c)
theorem W5_arg1 (c : Dev nD) : W5 m ρ c (Proc.devRef .tc main_arg1) = m ((c.tc : Thread nD τ).loc main_arg1) :=
  (keptBy_hostOps2 (W4 m ρ c) main_arg1 (by decide)).trans (W4_arg1 m ρ c)
theorem W5_arg2 (c : Dev nD) : W5 m ρ c (Proc.devRef .tc main_arg2) = m ((c.tc : Thread nD τ).loc main_arg2) :=
  (keptBy_hostOps2 (W4 m ρ c) main_arg2 (by decide)).trans (W4_arg2 m ρ c)
theorem W5_arg3 (c : Dev nD) : W5 m ρ c (Proc.devRef .tc main_arg3) = m ((c.tc : Thread nD τ).loc main_arg3) :=
  (keptBy_hostOps2 (W4 m ρ c) main_arg3 (by decide)).trans (W4_arg3 m ρ c)
theorem W5_arg4 (c : Dev nD) : W5 m ρ c (Proc.devRef .tc main_arg4) = m ((c.tc : Thread nD τ).loc main_arg4) :=
  (keptBy_hostOps2 (W4 m ρ c) main_arg4 (by decide)).trans (W4_arg4 m ρ c)
theorem W5_arg5 (c : Dev nD) : W5 m ρ c (Proc.devRef .tc main_arg5) = m ((c.tc : Thread nD τ).loc main_arg5) :=
  (keptBy_hostOps2 (W4 m ρ c) main_arg5 (by decide)).trans (W4_arg5 m ρ c)
theorem W5_arg6 (c : Dev nD) : W5 m ρ c (Proc.devRef .tc main_arg6) = m ((c.tc : Thread nD τ).loc main_arg6) :=
  (keptBy_hostOps2 (W4 m ρ c) main_arg6 (by decide)).trans (W4_arg6 m ρ c)
theorem W5_arg7 (c : Dev nD) : W5 m ρ c (Proc.devRef .tc main_arg7) = m ((c.tc : Thread nD τ).loc main_arg7) :=
  (keptBy_hostOps2 (W4 m ρ c) main_arg7 (by decide)).trans (W4_arg7 m ρ c)
theorem W5_arg8 (c : Dev nD) : W5 m ρ c (Proc.devRef .tc main_arg8) = m ((c.tc : Thread nD τ).loc main_arg8) :=
  (keptBy_hostOps2 (W4 m ρ c) main_arg8 (by decide)).trans (W4_arg8 m ρ c)

/-! At region 2's exit. -/
theorem W6_arg0 (c : Dev nD) : W6 m ρ c (Proc.devRef .tc main_arg0) = m ((c.tc : Thread nD τ).loc main_arg0) :=
  (W6_of_ne m ρ c main_arg0 (by decide)).trans (W5_arg0 m ρ c)
theorem W6_arg1 (c : Dev nD) : W6 m ρ c (Proc.devRef .tc main_arg1) = m ((c.tc : Thread nD τ).loc main_arg1) :=
  (W6_of_ne m ρ c main_arg1 (by decide)).trans (W5_arg1 m ρ c)
theorem W6_arg2 (c : Dev nD) : W6 m ρ c (Proc.devRef .tc main_arg2) = m ((c.tc : Thread nD τ).loc main_arg2) :=
  (W6_of_ne m ρ c main_arg2 (by decide)).trans (W5_arg2 m ρ c)
theorem W6_arg3 (c : Dev nD) : W6 m ρ c (Proc.devRef .tc main_arg3) = m ((c.tc : Thread nD τ).loc main_arg3) :=
  (W6_of_ne m ρ c main_arg3 (by decide)).trans (W5_arg3 m ρ c)
theorem W6_arg4 (c : Dev nD) : W6 m ρ c (Proc.devRef .tc main_arg4) = m ((c.tc : Thread nD τ).loc main_arg4) :=
  (W6_of_ne m ρ c main_arg4 (by decide)).trans (W5_arg4 m ρ c)
theorem W6_arg5 (c : Dev nD) : W6 m ρ c (Proc.devRef .tc main_arg5) = m ((c.tc : Thread nD τ).loc main_arg5) :=
  (W6_in m ρ c 1 rfl).trans (W5_arg5 m ρ c)
theorem W6_arg6 (c : Dev nD) : W6 m ρ c (Proc.devRef .tc main_arg6) = m ((c.tc : Thread nD τ).loc main_arg6) :=
  (W6_of_ne m ρ c main_arg6 (by decide)).trans (W5_arg6 m ρ c)
theorem W6_arg7 (c : Dev nD) : W6 m ρ c (Proc.devRef .tc main_arg7) = m ((c.tc : Thread nD τ).loc main_arg7) :=
  (W6_of_ne m ρ c main_arg7 (by decide)).trans (W5_arg7 m ρ c)
theorem W6_arg8 (c : Dev nD) : W6 m ρ c (Proc.devRef .tc main_arg8) = m ((c.tc : Thread nD τ).loc main_arg8) :=
  (W6_of_ne m ρ c main_arg8 (by decide)).trans (W5_arg8 m ρ c)

/-! After the fourth host stretch. -/
theorem W7_arg0 (c : Dev nD) : W7 m ρ c (Proc.devRef .tc main_arg0) = m ((c.tc : Thread nD τ).loc main_arg0) :=
  (keptBy_hostOps3 (W6 m ρ c) main_arg0 (by decide)).trans (W6_arg0 m ρ c)
theorem W7_arg1 (c : Dev nD) : W7 m ρ c (Proc.devRef .tc main_arg1) = m ((c.tc : Thread nD τ).loc main_arg1) :=
  (keptBy_hostOps3 (W6 m ρ c) main_arg1 (by decide)).trans (W6_arg1 m ρ c)
theorem W7_arg2 (c : Dev nD) : W7 m ρ c (Proc.devRef .tc main_arg2) = m ((c.tc : Thread nD τ).loc main_arg2) :=
  (keptBy_hostOps3 (W6 m ρ c) main_arg2 (by decide)).trans (W6_arg2 m ρ c)
theorem W7_arg3 (c : Dev nD) : W7 m ρ c (Proc.devRef .tc main_arg3) = m ((c.tc : Thread nD τ).loc main_arg3) :=
  (keptBy_hostOps3 (W6 m ρ c) main_arg3 (by decide)).trans (W6_arg3 m ρ c)
theorem W7_arg4 (c : Dev nD) : W7 m ρ c (Proc.devRef .tc main_arg4) = m ((c.tc : Thread nD τ).loc main_arg4) :=
  (keptBy_hostOps3 (W6 m ρ c) main_arg4 (by decide)).trans (W6_arg4 m ρ c)
theorem W7_arg5 (c : Dev nD) : W7 m ρ c (Proc.devRef .tc main_arg5) = m ((c.tc : Thread nD τ).loc main_arg5) :=
  (keptBy_hostOps3 (W6 m ρ c) main_arg5 (by decide)).trans (W6_arg5 m ρ c)
theorem W7_arg6 (c : Dev nD) : W7 m ρ c (Proc.devRef .tc main_arg6) = m ((c.tc : Thread nD τ).loc main_arg6) :=
  (keptBy_hostOps3 (W6 m ρ c) main_arg6 (by decide)).trans (W6_arg6 m ρ c)
theorem W7_arg7 (c : Dev nD) : W7 m ρ c (Proc.devRef .tc main_arg7) = m ((c.tc : Thread nD τ).loc main_arg7) :=
  (keptBy_hostOps3 (W6 m ρ c) main_arg7 (by decide)).trans (W6_arg7 m ρ c)
theorem W7_arg8 (c : Dev nD) : W7 m ρ c (Proc.devRef .tc main_arg8) = m ((c.tc : Thread nD τ).loc main_arg8) :=
  (keptBy_hostOps3 (W6 m ρ c) main_arg8 (by decide)).trans (W6_arg8 m ρ c)

/-! At region 3's exit. -/
theorem W8_arg0 (c : Dev nD) : W8 m ρ c (Proc.devRef .tc main_arg0) = m ((c.tc : Thread nD τ).loc main_arg0) :=
  (W8_of_ne m ρ c main_arg0 (by decide)).trans (W7_arg0 m ρ c)
theorem W8_arg1 (c : Dev nD) : W8 m ρ c (Proc.devRef .tc main_arg1) = m ((c.tc : Thread nD τ).loc main_arg1) :=
  (W8_of_ne m ρ c main_arg1 (by decide)).trans (W7_arg1 m ρ c)
theorem W8_arg2 (c : Dev nD) : W8 m ρ c (Proc.devRef .tc main_arg2) = m ((c.tc : Thread nD τ).loc main_arg2) :=
  (W8_of_ne m ρ c main_arg2 (by decide)).trans (W7_arg2 m ρ c)
theorem W8_arg3 (c : Dev nD) : W8 m ρ c (Proc.devRef .tc main_arg3) = m ((c.tc : Thread nD τ).loc main_arg3) :=
  (W8_of_ne m ρ c main_arg3 (by decide)).trans (W7_arg3 m ρ c)
theorem W8_arg4 (c : Dev nD) : W8 m ρ c (Proc.devRef .tc main_arg4) = m ((c.tc : Thread nD τ).loc main_arg4) :=
  (W8_of_ne m ρ c main_arg4 (by decide)).trans (W7_arg4 m ρ c)
theorem W8_arg5 (c : Dev nD) : W8 m ρ c (Proc.devRef .tc main_arg5) = m ((c.tc : Thread nD τ).loc main_arg5) :=
  (W8_of_ne m ρ c main_arg5 (by decide)).trans (W7_arg5 m ρ c)
theorem W8_arg6 (c : Dev nD) : W8 m ρ c (Proc.devRef .tc main_arg6) = m ((c.tc : Thread nD τ).loc main_arg6) :=
  (W8_of_ne m ρ c main_arg6 (by decide)).trans (W7_arg6 m ρ c)
theorem W8_arg7 (c : Dev nD) : W8 m ρ c (Proc.devRef .tc main_arg7) = m ((c.tc : Thread nD τ).loc main_arg7) :=
  (W8_of_ne m ρ c main_arg7 (by decide)).trans (W7_arg7 m ρ c)
theorem W8_arg8 (c : Dev nD) : W8 m ρ c (Proc.devRef .tc main_arg8) = m ((c.tc : Thread nD τ).loc main_arg8) :=
  (W8_of_ne m ρ c main_arg8 (by decide)).trans (W7_arg8 m ρ c)

/-! After the fifth host stretch. -/
theorem W9_arg0 (c : Dev nD) : W9 m ρ c (Proc.devRef .tc main_arg0) = m ((c.tc : Thread nD τ).loc main_arg0) :=
  (keptBy_hostOps4 (W8 m ρ c) main_arg0 (by decide)).trans (W8_arg0 m ρ c)
theorem W9_arg1 (c : Dev nD) : W9 m ρ c (Proc.devRef .tc main_arg1) = m ((c.tc : Thread nD τ).loc main_arg1) :=
  (keptBy_hostOps4 (W8 m ρ c) main_arg1 (by decide)).trans (W8_arg1 m ρ c)
theorem W9_arg2 (c : Dev nD) : W9 m ρ c (Proc.devRef .tc main_arg2) = m ((c.tc : Thread nD τ).loc main_arg2) :=
  (keptBy_hostOps4 (W8 m ρ c) main_arg2 (by decide)).trans (W8_arg2 m ρ c)
theorem W9_arg3 (c : Dev nD) : W9 m ρ c (Proc.devRef .tc main_arg3) = m ((c.tc : Thread nD τ).loc main_arg3) :=
  (keptBy_hostOps4 (W8 m ρ c) main_arg3 (by decide)).trans (W8_arg3 m ρ c)
theorem W9_arg4 (c : Dev nD) : W9 m ρ c (Proc.devRef .tc main_arg4) = m ((c.tc : Thread nD τ).loc main_arg4) :=
  (keptBy_hostOps4 (W8 m ρ c) main_arg4 (by decide)).trans (W8_arg4 m ρ c)
theorem W9_arg5 (c : Dev nD) : W9 m ρ c (Proc.devRef .tc main_arg5) = m ((c.tc : Thread nD τ).loc main_arg5) :=
  (keptBy_hostOps4 (W8 m ρ c) main_arg5 (by decide)).trans (W8_arg5 m ρ c)
theorem W9_arg6 (c : Dev nD) : W9 m ρ c (Proc.devRef .tc main_arg6) = m ((c.tc : Thread nD τ).loc main_arg6) :=
  (keptBy_hostOps4 (W8 m ρ c) main_arg6 (by decide)).trans (W8_arg6 m ρ c)
theorem W9_arg7 (c : Dev nD) : W9 m ρ c (Proc.devRef .tc main_arg7) = m ((c.tc : Thread nD τ).loc main_arg7) :=
  (keptBy_hostOps4 (W8 m ρ c) main_arg7 (by decide)).trans (W8_arg7 m ρ c)
theorem W9_arg8 (c : Dev nD) : W9 m ρ c (Proc.devRef .tc main_arg8) = m ((c.tc : Thread nD τ).loc main_arg8) :=
  (keptBy_hostOps4 (W8 m ρ c) main_arg8 (by decide)).trans (W8_arg8 m ρ c)

/-! At region 4's exit. -/
theorem W10_arg0 (c : Dev nD) : W10 m ρ c (Proc.devRef .tc main_arg0) = m ((c.tc : Thread nD τ).loc main_arg0) :=
  (W10_of_ne m ρ c main_arg0 (by decide)).trans (W9_arg0 m ρ c)
theorem W10_arg1 (c : Dev nD) : W10 m ρ c (Proc.devRef .tc main_arg1) = m ((c.tc : Thread nD τ).loc main_arg1) :=
  (W10_of_ne m ρ c main_arg1 (by decide)).trans (W9_arg1 m ρ c)
theorem W10_arg2 (c : Dev nD) : W10 m ρ c (Proc.devRef .tc main_arg2) = m ((c.tc : Thread nD τ).loc main_arg2) :=
  (W10_of_ne m ρ c main_arg2 (by decide)).trans (W9_arg2 m ρ c)
theorem W10_arg3 (c : Dev nD) : W10 m ρ c (Proc.devRef .tc main_arg3) = m ((c.tc : Thread nD τ).loc main_arg3) :=
  (W10_of_ne m ρ c main_arg3 (by decide)).trans (W9_arg3 m ρ c)
theorem W10_arg4 (c : Dev nD) : W10 m ρ c (Proc.devRef .tc main_arg4) = m ((c.tc : Thread nD τ).loc main_arg4) :=
  (W10_of_ne m ρ c main_arg4 (by decide)).trans (W9_arg4 m ρ c)
theorem W10_arg5 (c : Dev nD) : W10 m ρ c (Proc.devRef .tc main_arg5) = m ((c.tc : Thread nD τ).loc main_arg5) :=
  (W10_of_ne m ρ c main_arg5 (by decide)).trans (W9_arg5 m ρ c)
theorem W10_arg6 (c : Dev nD) : W10 m ρ c (Proc.devRef .tc main_arg6) = m ((c.tc : Thread nD τ).loc main_arg6) :=
  (W10_of_ne m ρ c main_arg6 (by decide)).trans (W9_arg6 m ρ c)
theorem W10_arg7 (c : Dev nD) : W10 m ρ c (Proc.devRef .tc main_arg7) = m ((c.tc : Thread nD τ).loc main_arg7) :=
  (W10_of_ne m ρ c main_arg7 (by decide)).trans (W9_arg7 m ρ c)
theorem W10_arg8 (c : Dev nD) : W10 m ρ c (Proc.devRef .tc main_arg8) = m ((c.tc : Thread nD τ).loc main_arg8) :=
  (W10_of_ne m ρ c main_arg8 (by decide)).trans (W9_arg8 m ρ c)

/-! After the sixth host stretch. -/
theorem W11_arg0 (c : Dev nD) : W11 m ρ c (Proc.devRef .tc main_arg0) = m ((c.tc : Thread nD τ).loc main_arg0) :=
  (keptBy_hostOps5 (W10 m ρ c) main_arg0 (by decide)).trans (W10_arg0 m ρ c)
theorem W11_arg1 (c : Dev nD) : W11 m ρ c (Proc.devRef .tc main_arg1) = m ((c.tc : Thread nD τ).loc main_arg1) :=
  (keptBy_hostOps5 (W10 m ρ c) main_arg1 (by decide)).trans (W10_arg1 m ρ c)
theorem W11_arg2 (c : Dev nD) : W11 m ρ c (Proc.devRef .tc main_arg2) = m ((c.tc : Thread nD τ).loc main_arg2) :=
  (keptBy_hostOps5 (W10 m ρ c) main_arg2 (by decide)).trans (W10_arg2 m ρ c)
theorem W11_arg3 (c : Dev nD) : W11 m ρ c (Proc.devRef .tc main_arg3) = m ((c.tc : Thread nD τ).loc main_arg3) :=
  (keptBy_hostOps5 (W10 m ρ c) main_arg3 (by decide)).trans (W10_arg3 m ρ c)
theorem W11_arg4 (c : Dev nD) : W11 m ρ c (Proc.devRef .tc main_arg4) = m ((c.tc : Thread nD τ).loc main_arg4) :=
  (keptBy_hostOps5 (W10 m ρ c) main_arg4 (by decide)).trans (W10_arg4 m ρ c)
theorem W11_arg5 (c : Dev nD) : W11 m ρ c (Proc.devRef .tc main_arg5) = m ((c.tc : Thread nD τ).loc main_arg5) :=
  (keptBy_hostOps5 (W10 m ρ c) main_arg5 (by decide)).trans (W10_arg5 m ρ c)
theorem W11_arg6 (c : Dev nD) : W11 m ρ c (Proc.devRef .tc main_arg6) = m ((c.tc : Thread nD τ).loc main_arg6) :=
  (keptBy_hostOps5 (W10 m ρ c) main_arg6 (by decide)).trans (W10_arg6 m ρ c)
theorem W11_arg7 (c : Dev nD) : W11 m ρ c (Proc.devRef .tc main_arg7) = m ((c.tc : Thread nD τ).loc main_arg7) :=
  (keptBy_hostOps5 (W10 m ρ c) main_arg7 (by decide)).trans (W10_arg7 m ρ c)
theorem W11_arg8 (c : Dev nD) : W11 m ρ c (Proc.devRef .tc main_arg8) = m ((c.tc : Thread nD τ).loc main_arg8) :=
  (keptBy_hostOps5 (W10 m ρ c) main_arg8 (by decide)).trans (W10_arg8 m ρ c)

end Cert.Kernel.Gen

end
-- ==== Proof.KSeg.lean ====
/- The five kernel regions as segments over the thread state: each is entered from every unscoped buffer at its entry
   boundary's contents and left at its exit boundary's contents, the generator register at some state and the core
   owing nothing riding beside. A region's arrays are split out of the unscoped buffers on entry and put back at what
   the write-backs leave on exit. -/
import proofs.«403166_j89026082111548_2_alg».proof.Proof.KBounds
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with it only when unification may unfold plain
-- definitions in a metavariable's type
set_option backward.isDefEq.respectTransparency.types false in
/-- Region 0 over the thread state: entered from every unscoped buffer at `W1`, left at `W2`. Its arrays split
    out of the unscoped buffers and put back at the exit contents; the generator register into the invariant and out;
    nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with it only when unification may unfold plain
-- definitions in a metavariable's type
set_option backward.isDefEq.respectTransparency.types false in
/-- Region 1 over the thread state: entered from every unscoped buffer at `W3`, left at `W4`. Its arrays split
    out of the unscoped buffers and put back at the exit contents; the generator register into the invariant and out;
    nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with it only when unification may unfold plain
-- definitions in a metavariable's type
set_option backward.isDefEq.respectTransparency.types false in
/-- Region 2 over the thread state: entered from every unscoped buffer at `W5`, left at `W6`. Its arrays split
    out of the unscoped buffers and put back at the exit contents; the generator register into the invariant and out;
    nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with it only when unification may unfold plain
-- definitions in a metavariable's type
set_option backward.isDefEq.respectTransparency.types false in
/-- Region 3 over the thread state: entered from every unscoped buffer at `W7`, left at `W8`. Its arrays split
    out of the unscoped buffers and put back at the exit contents; the generator register into the invariant and out;
    nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with it only when unification may unfold plain
-- definitions in a metavariable's type
set_option backward.isDefEq.respectTransparency.types false in
/-- Region 4 over the thread state: entered from every unscoped buffer at `W9`, left at `W10`. Its arrays split
    out of the unscoped buffers and put back at the exit contents; the generator register and the scoped buffers no
    window stages (the scratch accumulator among them) into the invariant before the first point and out of the one
    after the last; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = (dat4 (V9 m ρ) c).Φ 0 from rfl]
    iintro ⟨Hp, -, Hr⟩
    iapply hin4 (V9 m ρ) c
    isplitl [Hp]; · iexact Hp
    iexact Hr
  hout c := by
    rw [Pipeline.ownSems0_none, show (pdats m ρ 4 c).Φ (Fin.last _) = (dat4 (V9 m ρ) c).Φ (Fin.last cfg4.N) from rfl]
    iintro H
    ihave H2 := hout4 (V9 m ρ) c $$ H
    icases H2 with ⟨Hp, Hr⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KRun.lean ====
/- The program's run on the TensorCores, item by item: its six stretches of host operations and five kernel regions as
   a list of segments whose thread states chain (each item is entered from what the one before left: every unscoped
   buffer at the boundary's contents, the generator register at some state, nothing owed), and the launch over that
   list: every weakly fair execution terminates and every final memory holds each unscoped buffer at the last
   boundary's contents. -/
import proofs.«403166_j89026082111548_2_alg».proof.Proof.KSeg
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## No host operation allocates -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor
theorem hostOps5_fresh : (hostOps5 : List (HloOp τ sig (Elt F))).Forall fun op => op.fresh = ∅ := by
  simp only [List.Forall]; repeat' constructor

variable (m : (ℓ : Loc nD τ sig) → Buf (Elt F) ℓ) (ρ : Dev nD → PrngReg)

/-! ## The program as segments, and the launch -/

/-- The program's eleven items in order: a host segment per stretch from its boundary's contents, a region per
    kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)) ]

/-- The last stretch's exit is the last thread state beside the core owing nothing: the separating conjunction
    re-associated. -/
theorem last_chain (c : Dev nD) :
    (iprop(StableHlo.held (c : Thread nD τ) (Pipeline.ucRefs τ sig) (W11 m ρ c) ∗ R c) : sProp 𝕄)
      ⊢ iprop(Tₙ m ρ c ∗ ∃ W, owes (c : Thread nD τ) (0 : CellTallies nD τ sig Unit) W) := by
  iintro ⟨Hh, Hp, HO⟩
  isplitl [Hh Hp]
  · isplitl [Hh] <;> iassumption
  iexact HO

/-- The program IS the run of the segments: it is the chain of its items, and the segments' run is the chain of
    their fragments, the same items. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: at the compiled mesh, from any memory with zero counters, every weakly fair execution of the program on
    the TensorCores terminates, nothing faulting, and every final memory holds every unscoped buffer at the last
    boundary's contents `W11`: the launch over the segments, whose thread states chain by construction (the last
    by associating the separating conjunction), the last thread state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl,
      fun _ => .rfl, fun _ => .rfl, fun _ => .rfl, fun _ => .rfl, fun _ => .rfl,
      fun c => last_chain m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c b hb => h c b hb)

end Cert.Kernel.Gen

end
-- ==== Proof.KIProj0.lean ====
/- Region 0 of the program: the projection of one batch element's node features by the layer's weight matrix,
   `out = h · W` on a block of 20000 rows. What the body leaves in the output block is the matrix product of
   the two input blocks; the input blocks are left as found. Stated at the contents `V` the region is entered
   with, for any float instance. -/
import proofs.«403166_j89026082111548_2_alg».proof.Proof.Gen.KernelIdeal.Launch
import proofs.«403166_j89026082111548_2_alg».proof.Proof.Gen.KernelIdeal.Skeleton
import proofs.«403166_j89026082111548_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature block is in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix is in its staging buffer at every point, though it is fetched only once: its block never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole feature block, the whole weight matrix, the whole output block. -/
abbrev r0_x : Rect S20000x128 := Rect.unit (s := S20000x128) ![0, 0] S20000x128.size inb_S20000x128_S20000x128_0_0
abbrev r0_w : Rect S128x64 := Rect.unit (s := S128x64) ![0, 0] S128x64.size inb_S128x64_S128x64_0_0
abbrev r0_o : Rect S20000x64 := Rect.unit (s := S20000x64) ![0, 0] S20000x64.size inb_S20000x64_S20000x64_0_0

/-- The output block after the body: its one store, of the product of the two loaded blocks. -/
def out0_2 (x0 : Vec F S20000x128 .f32) (x1 : Vec F S128x64 .f32) : Vec F S20000x64 .f32 :=
  View.canon [⟨r0_o, k0_pay1 (View.ld x0 r0_x) (View.ld x1 r0_w)⟩]

/-- That one store covers the block. -/
theorem cover0_2 (p0 : Vec F S20000x64 .f32) (y : S20000x64.Idx) :
    ∃ pc ∈ ([⟨r0_o, p0⟩] : List (View.Piece (Elt F) S20000x64 .f32)), y ∈ pc.1.set :=
  View.cover_of_tiled [⟨r0_o, p0⟩] S20000x64.size (by rfl) y

set_option maxHeartbeats 1000000 in
/-- The body on whole staging buffers: the inputs are kept, the output ends at the product. -/
theorem sound_kernel0 (c : Dev nD) (E : Set ℕ) (i : grid0.Coords) (arg1 : Memref sig .tc .vmem S20000x128 .f32) (harg1 : arg1.IsWhole) (arg2 : Memref sig .tc .vmem S128x64 .f32) (harg2 : arg2.IsWhole)
    (arg3 : Memref sig .tc .vmem S20000x64 .f32) (harg3 : arg3.IsWhole)
    (x0 : Vec F S20000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The region's proof data on core `c`: the arrays as the region finds them; after the body at point `t` each input buffer
    at its block and the output buffer at the product of the two; the invariant holds only what the body never touches. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: both input buffers hold their blocks, so the body's triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Gen

end
-- ==== Proof.KIComb1.lean ====
/- Region 1 of the program: the layer's combine step on one batch element's block of 20000 rows,
   `out = max (agg + hw * selfnorm + bias) 0`, the self-loop weight a column broadcast along the features and the bias a
   row broadcast along the nodes. The four input blocks are left as found. Stated at the contents `V` the region is
   entered with, for any float instance. -/
import proofs.«403166_j89026082111548_2_alg».proof.Proof.Gen.KernelIdeal.Launch
import proofs.«403166_j89026082111548_2_alg».proof.Proof.Gen.KernelIdeal.Skeleton
import proofs.«403166_j89026082111548_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's block is in its staging buffer at every point, fetched there or not: its block index has not moved since the fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's block is in its staging buffer at every point, fetched there or not: its block index has not moved since the fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's block is in its staging buffer at every point, fetched there or not: its block index has not moved since the fetch. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's block is in its staging buffer at every point, fetched there or not: its block index has not moved since the fetch. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The whole blocks: rows by features, the self-loop column, the bias row. -/
abbrev r1_m : Rect S20000x64 := Rect.unit (s := S20000x64) ![0, 0] S20000x64.size inb_S20000x64_S20000x64_0_0
abbrev r1_s : Rect S20000x1 := Rect.unit (s := S20000x1) ![0, 0] S20000x1.size inb_S20000x1_S20000x1_0_0
abbrev r1_b : Rect S1x64 := Rect.unit (s := S1x64) ![0, 0] S1x64.size inb_S1x64_S1x64_0_0

/-- The output block after the body: its one store, of the combined value of the four loaded blocks. -/
def out1_4 (x0 x1 : Vec F S20000x64 .f32) (x2 : Vec F S20000x1 .f32) (x3 : Vec F S1x64 .f32) : Vec F S20000x64 .f32 :=
  View.canon [⟨r1_m, k1_pay1 (View.ld x0 r1_m) (View.ld x1 r1_m) (View.ld x2 r1_s) (View.ld x3 r1_b)⟩]

/-- That one store covers the block. -/
theorem cover1_4 (p0 : Vec F S20000x64 .f32) (y : S20000x64.Idx) :
    ∃ pc ∈ ([⟨r1_m, p0⟩] : List (View.Piece (Elt F) S20000x64 .f32)), y ∈ pc.1.set :=
  View.cover_of_tiled [⟨r1_m, p0⟩] S20000x64.size (by rfl) y

set_option maxHeartbeats 1000000 in
/-- The body on whole staging buffers: the inputs are kept, the output ends at the combined value. -/
theorem sound_kernel1 (c : Dev nD) (E : Set ℕ) (i : grid1.Coords) (arg1 : Memref sig .tc .vmem S20000x64 .f32) (harg1 : arg1.IsWhole) (arg2 : Memref sig .tc .vmem S20000x64 .f32) (harg2 : arg2.IsWhole)
    (arg3 : Memref sig .tc .vmem S20000x1 .f32) (harg3 : arg3.IsWhole) (arg4 : Memref sig .tc .vmem S1x64 .f32) (harg4 : arg4.IsWhole)
    (arg5 : Memref sig .tc .vmem S20000x64 .f32) (harg5 : arg5.IsWhole)
    (x0 x1 : Vec F S20000x64 .f32) (x2 : Vec F S20000x1 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E (cc1__combine_kernel i arg1 harg1 arg2 harg2 arg3 harg3 arg4 harg4 arg5 harg5) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The region's proof data on core `c`: the arrays as the region finds them; after the body at point `t` each input buffer
    at its block and the output buffer at the combined value; the invariant holds only what the body never touches. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the four input buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Gen

end
-- ==== Proof.KIProj2.lean ====
/- Region 2 of the program: the projection of one batch element's node features by the layer's weight matrix,
   `out = h · W` on a block of 20000 rows. What the body leaves in the output block is the matrix product of
   the two input blocks; the input blocks are left as found. Stated at the contents `V` the region is entered
   with, for any float instance. -/
import proofs.«403166_j89026082111548_2_alg».proof.Proof.Gen.KernelIdeal.Launch
import proofs.«403166_j89026082111548_2_alg».proof.Proof.Gen.KernelIdeal.Skeleton
import proofs.«403166_j89026082111548_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The feature block is in its staging buffer at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight matrix is in its staging buffer at every point, though it is fetched only once: its block never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole feature block, the whole weight matrix, the whole output block. -/
abbrev r2_x : Rect S20000x64 := Rect.unit (s := S20000x64) ![0, 0] S20000x64.size inb_S20000x64_S20000x64_0_0
abbrev r2_w : Rect S64x64 := Rect.unit (s := S64x64) ![0, 0] S64x64.size inb_S64x64_S64x64_0_0
abbrev r2_o : Rect S20000x64 := Rect.unit (s := S20000x64) ![0, 0] S20000x64.size inb_S20000x64_S20000x64_0_0

/-- The output block after the body: its one store, of the product of the two loaded blocks. -/
def out2_2 (x0 : Vec F S20000x64 .f32) (x1 : Vec F S64x64 .f32) : Vec F S20000x64 .f32 :=
  View.canon [⟨r2_o, k2_pay1 (View.ld x0 r2_x) (View.ld x1 r2_w)⟩]

/-- That one store covers the block. -/
theorem cover2_2 (p0 : Vec F S20000x64 .f32) (y : S20000x64.Idx) :
    ∃ pc ∈ ([⟨r2_o, p0⟩] : List (View.Piece (Elt F) S20000x64 .f32)), y ∈ pc.1.set :=
  View.cover_of_tiled [⟨r2_o, p0⟩] S20000x64.size (by rfl) y

set_option maxHeartbeats 1000000 in
/-- The body on whole staging buffers: the inputs are kept, the output ends at the product. -/
theorem sound_kernel2 (c : Dev nD) (E : Set ℕ) (i : grid2.Coords) (arg1 : Memref sig .tc .vmem S20000x64 .f32) (harg1 : arg1.IsWhole) (arg2 : Memref sig .tc .vmem S64x64 .f32) (harg2 : arg2.IsWhole)
    (arg3 : Memref sig .tc .vmem S20000x64 .f32) (harg3 : arg3.IsWhole)
    (x0 : Vec F S20000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__proj_kernel i arg1 harg1 arg2 harg2 arg3 harg3) K := by
  simp only [cc2__proj_kernel_eq_skeleton]; unfold cc2__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The region's proof data on core `c`: the arrays as the region finds them; after the body at point `t` each input buffer
    at its block and the output buffer at the product of the two; the invariant holds only what the body never touches. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: both input buffers hold their blocks, so the body's triple applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Gen

end
-- ==== Proof.KIComb3.lean ====
/- Region 3 of the program: the layer's combine step on one batch element's block of 20000 rows,
   `out = max (agg + hw * selfnorm + bias) 0`, the self-loop weight a column broadcast along the features and the bias a
   row broadcast along the nodes. The four input blocks are left as found. Stated at the contents `V` the region is
   entered with, for any float instance. -/
import proofs.«403166_j89026082111548_2_alg».proof.Proof.Gen.KernelIdeal.Launch
import proofs.«403166_j89026082111548_2_alg».proof.Proof.Gen.KernelIdeal.Skeleton
import proofs.«403166_j89026082111548_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's block is in its staging buffer at every point, fetched there or not: its block index has not moved since the fetch. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's block is in its staging buffer at every point, fetched there or not: its block index has not moved since the fetch. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's block is in its staging buffer at every point, fetched there or not: its block index has not moved since the fetch. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's block is in its staging buffer at every point, fetched there or not: its block index has not moved since the fetch. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- The whole blocks: rows by features, the self-loop column, the bias row. -/
abbrev r3_m : Rect S20000x64 := Rect.unit (s := S20000x64) ![0, 0] S20000x64.size inb_S20000x64_S20000x64_0_0
abbrev r3_s : Rect S20000x1 := Rect.unit (s := S20000x1) ![0, 0] S20000x1.size inb_S20000x1_S20000x1_0_0
abbrev r3_b : Rect S1x64 := Rect.unit (s := S1x64) ![0, 0] S1x64.size inb_S1x64_S1x64_0_0

/-- The output block after the body: its one store, of the combined value of the four loaded blocks. -/
def out3_4 (x0 x1 : Vec F S20000x64 .f32) (x2 : Vec F S20000x1 .f32) (x3 : Vec F S1x64 .f32) : Vec F S20000x64 .f32 :=
  View.canon [⟨r3_m, k3_pay1 (View.ld x0 r3_m) (View.ld x1 r3_m) (View.ld x2 r3_s) (View.ld x3 r3_b)⟩]

/-- That one store covers the block. -/
theorem cover3_4 (p0 : Vec F S20000x64 .f32) (y : S20000x64.Idx) :
    ∃ pc ∈ ([⟨r3_m, p0⟩] : List (View.Piece (Elt F) S20000x64 .f32)), y ∈ pc.1.set :=
  View.cover_of_tiled [⟨r3_m, p0⟩] S20000x64.size (by rfl) y

set_option maxHeartbeats 1000000 in
/-- The body on whole staging buffers: the inputs are kept, the output ends at the combined value. -/
theorem sound_kernel3 (c : Dev nD) (E : Set ℕ) (i : grid3.Coords) (arg1 : Memref sig .tc .vmem S20000x64 .f32) (harg1 : arg1.IsWhole) (arg2 : Memref sig .tc .vmem S20000x64 .f32) (harg2 : arg2.IsWhole)
    (arg3 : Memref sig .tc .vmem S20000x1 .f32) (harg3 : arg3.IsWhole) (arg4 : Memref sig .tc .vmem S1x64 .f32) (harg4 : arg4.IsWhole)
    (arg5 : Memref sig .tc .vmem S20000x64 .f32) (harg5 : arg5.IsWhole)
    (x0 x1 : Vec F S20000x64 .f32) (x2 : Vec F S20000x1 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out3_4 x0 x1 x2 x3)) -∗ K ⟨⟩))
      ⊢ wp frame (wpE (defs₀ (F := F)) Variants.none c none) E (cc3__combine_kernel i arg1 harg1 arg2 harg2 arg3 harg3 arg4 harg4 arg5 harg5) K := by
  simp only [cc3__combine_kernel_eq_skeleton]; unfold cc3__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-- The region's proof data on core `c`: the arrays as the region finds them; after the body at point `t` each input buffer
    at its block and the output buffer at the combined value; the invariant holds only what the body never touches. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the four input buffers hold their blocks, so the body's triple applies; the invariant and what
    the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Gen

end
-- ==== Proof.KIPool4.lean ====
/- Region 4 of the program: the mean over the node axis, accumulated over ten grid points in a scratch buffer the
   kernel carries from point to point. The scratch is zeroed at the first point, every point adds its node block's
   sum over the 2000 rows, and the last point stores the scratch times the reciprocal of the node count into the
   output block, which is written back once, after that point. -/
import proofs.«403166_j89026082111548_2_alg».proof.Proof.Gen.KernelIdeal.Launch
import proofs.«403166_j89026082111548_2_alg».proof.Proof.Gen.KernelIdeal.Skeleton
import proofs.«403166_j89026082111548_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The node block of grid point `n` as a plain 8 x 2000 x 64 array (points past the grid read the last block). -/
def nodeBlk4 (c : Dev nD) (n : ℕ) : Vec F S8x2000x64 .f32 :=
  iblk4 V c 0 ⟨min n 9, Nat.lt_of_le_of_lt (Nat.min_le_right n 9) (by decide : 9 < cfg4.N)⟩

/-- The scratch accumulator after grid point `n`: reset to zero at the first point, then the running sum of the node
    blocks' sums over their 2000 rows. -/
def acc4 (c : Dev nD) : ℕ → Vec F S8x64 .f32
  | 0 => k4_pay2 (k4_pay1 (F := F)) (nodeBlk4 V c 0)
  | n + 1 => k4_pay2 (acc4 c n) (nodeBlk4 V c (n + 1))

/-- The node block of a point of the grid is that point's block. -/
theorem nodeBlk4_eq (c : Dev nD) (t : Fin cfg4.N) : nodeBlk4 V c t.val = (iblk4 V c 0 t : Vec F S8x2000x64 .f32) := by
  unfold nodeBlk4
  have hN : t.val < 10 := lt_of_lt_of_eq t.isLt (show cfg4.N = 10 from N_4)
  have e : (⟨min t.val 9, Nat.lt_of_le_of_lt (Nat.min_le_right t.val 9) (by decide : 9 < cfg4.N)⟩ : Fin cfg4.N) = t :=
    Fin.ext (by show min t.val 9 = t.val; omega)
  have h : ∀ x : Fin cfg4.N, x = t → (iblk4 V c 0 x : Vec F S8x2000x64 .f32) = iblk4 V c 0 t := fun x hx => by subst hx; rfl
  exact h _ e

theorem acc4_zero (c : Dev nD) : acc4 V c 0 = k4_pay2 (k4_pay1 (F := F)) (nodeBlk4 V c 0) := rfl

/-- After a point that is not the first the accumulator is the one before plus this point's block sum. -/
theorem acc4_pos (c : Dev nD) (n : ℕ) (hz : n ≠ 0) : acc4 V c n = k4_pay2 (acc4 V c (n - 1)) (nodeBlk4 V c n) := by
  cases n with
  | zero => exact absurd rfl hz
  | succ n => rfl

/-! ## The body's conditions, and where the output window is idle -/

/-- The first conditional of the body (the reset of the scratch): taken at the first point only. -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val = 0 :=
  (by decide +kernel : ∀ t : Fin grid4.N, cond4_0 (grid4.coords t) ↔ t.val = 0)
/-- The second (the store of the output block): taken at the last point only. -/
abbrev cond4_1 (i : grid4.Coords) : Prop := k4_cond2 i = 1#1
theorem hcond4_1 : ∀ t : Fin cfg4.N, cond4_1 (grid4.coords t) ↔ t.val = 9 :=
  (by decide +kernel : ∀ t : Fin grid4.N, cond4_1 (grid4.coords t) ↔ t.val = 9)

/-- The input window is live at every point; the output window is idle, and not written back, at every point but the last. -/
theorem liveAt4_0 : ∀ t : Fin cfg4.N, cfg4.idle 0 (grid4.coords t) = false := fun _ => rfl
theorem idleAt4_1 : ∀ t : Fin cfg4.N, t.val ≠ 9 → cfg4.idle 1 (grid4.coords t) = true :=
  (by decide +kernel : ∀ t : Fin grid4.N, t.val ≠ 9 → idle4 1 (grid4.coords t) = true)
theorem liveAt4_1 : ∀ t : Fin cfg4.N, t.val = 9 → cfg4.idle 1 (grid4.coords t) = false :=
  (by decide +kernel : ∀ t : Fin grid4.N, t.val = 9 → idle4 1 (grid4.coords t) = false)
theorem noFlush4_1 : ∀ t : Fin cfg4.N, t.val ≠ 9 → (cfg4.win 1).flush t = false :=
  (by decide +kernel : ∀ t : Fin grid4.N, t.val ≠ 9 → win4_1.flush t = false)

/-! ## The body on whole memrefs, at the first, a middle and the last point -/

theorem hz4_2 : (![0, 0] : Fin 2 → Nat) = fun _ => 0 := funext fun a => by fin_cases a <;> rfl
theorem hz4_3 : (![0, 0, 0] : Fin 3 → Nat) = fun _ => 0 := funext fun a => by fin_cases a <;> rfl

/-- The whole node block, the whole 8 x 64 block (the scratch's and the output's). -/
abbrev r4_x : Rect S8x2000x64 := Rect.unit (s := S8x2000x64) ![0, 0, 0] S8x2000x64.size inb_S8x2000x64_S8x2000x64_0_0_0
abbrev r4_o : Rect S8x64 := Rect.unit (s := S8x64) ![0, 0] S8x64.size inb_S8x64_S8x64_0_0

/-- A whole-block load of a buffer reads its contents. -/
theorem readAt4_x {κ : Kind} {sp : Space} (v : View sig κ sp S8x2000x64 .f32) (f : v.ty.Contents (Elt F)) :
    View.readAt (Elt F) v r4_x.toLoadRect f = View.read (Elt F) v f :=
  (View.readAt_eq_ld _ _ _).trans (View.ld_unit_zero hz4_3 _ _)
theorem readAt4_o {κ : Kind} {sp : Space} (v : View sig κ sp S8x64 .f32) (f : v.ty.Contents (Elt F)) :
    View.readAt (Elt F) v r4_o.toLoadRect f = View.read (Elt F) v f :=
  (View.readAt_eq_ld _ _ _).trans (View.ld_unit_zero hz4_2 _ _)

/-- A whole-block store, last, leaves its payload. -/
theorem read_writes4_o {κ : Kind} {sp : Space} (v : View sig κ sp S8x64 .f32) (f : v.ty.Contents (Elt F)) (w : Vec F S8x64 .f32)
    (L : List (View.Piece (Elt F) S8x64 .f32)) :
    View.read (Elt F) v (v.writes (Elt F) f ((⟨r4_o, w⟩ : View.Piece (Elt F) S8x64 .f32) :: L)) = w :=
  (View.read_writes_eq_canon _ _ _ (fun y => ⟨_, List.mem_cons_self, View.mem_set_unit_zero hz4_2 inb_S8x64_S8x64_0_0 y⟩)).trans
    (View.canon_cons_unit_zero hz4_2 _ _ _)

set_option maxHeartbeats 1000000 in
/-- The first point: the scratch, found at anything, is zeroed and then holds the first block's sum; the output buffer
    is not touched. -/
theorem sound_kernel4_first (c : Dev nD) (E : Set ℕ) (i : grid4.Coords) (arg1 : Memref sig .tc .vmem S8x2000x64 .f32) (harg1 : arg1.IsWhole) (arg2 : Memref sig .tc .vmem S8x64 .f32) (harg2 : arg2.IsWhole)
    (arg3 : Memref sig .tc .vmem S8x64 .f32) (harg3 : arg3.IsWhole) (hc0 : cond4_0 i) (hc1 : ¬cond4_1 i)
    (x0 : Vec F S8x2000x64 .f32) (K : PUnit → sProp 𝕄) :
    iprop(owns (c : Thread nD τ) arg1 fullShare x0 ∗ (∃ d, owns (c : Thread nD τ) arg3 fullShare d)
        ∗ (iprop(owns (c : Thread nD τ) arg1 fullShare x0 ∗ owns (c : Thread nD τ) arg3 fullShare (k4_pay2 (k4_pay1 (F := F)) x0)) -∗ K ⟨⟩))
      ⊢ wp frame (wpE (defs₀ (F := F)) Variants.none c none) E (cc4__pool_kernel i arg1 harg1 arg2 harg2 arg3 harg3) K := by
  simp only [cc4__pool_kernel_eq_skeleton]; unfold cc4__pool_kernel_skel
  unfold owns
  iintro ⟨⟨%f0, %hf0, H0⟩, ⟨%d2, %f2, -, H2⟩, Hk⟩
  subst hf0
  sl_exec (disch := first | exact hc0 | exact hc1)
  sl_step
  iapply Hk
  isplitl [H0]
  · iexists f0; isplitr; · ipureintro; rfl
    iexact H0
  iexists _; isplitr
  swap; · iexact H2
  ipureintro
  refine (read_writes4_o _ _ _ _).trans ?_
  exact congrArg₂ k4_pay2 (View.readCov_unit_zero arg3.view hz4_2 _ _) (readAt4_x _ _)

set_option maxHeartbeats 1000000 in
/-- A middle point: the scratch gains the block's sum; the output buffer is not touched. -/
theorem sound_kernel4_mid (c : Dev nD) (E : Set ℕ) (i : grid4.Coords) (arg1 : Memref sig .tc .vmem S8x2000x64 .f32) (harg1 : arg1.IsWhole) (arg2 : Memref sig .tc .vmem S8x64 .f32) (harg2 : arg2.IsWhole)
    (arg3 : Memref sig .tc .vmem S8x64 .f32) (harg3 : arg3.IsWhole) (hc0 : ¬cond4_0 i) (hc1 : ¬cond4_1 i)
    (x0 : Vec F S8x2000x64 .f32) (s0 : Vec F S8x64 .f32) (K : PUnit → sProp 𝕄) :
    iprop(owns (c : Thread nD τ) arg1 fullShare x0 ∗ owns (c : Thread nD τ) arg3 fullShare s0
        ∗ (iprop(owns (c : Thread nD τ) arg1 fullShare x0 ∗ owns (c : Thread nD τ) arg3 fullShare (k4_pay2 s0 x0)) -∗ K ⟨⟩))
      ⊢ wp frame (wpE (defs₀ (F := F)) Variants.none c none) E (cc4__pool_kernel i arg1 harg1 arg2 harg2 arg3 harg3) K := by
  simp only [cc4__pool_kernel_eq_skeleton]; unfold cc4__pool_kernel_skel
  unfold owns
  iintro ⟨⟨%f0, %hf0, H0⟩, ⟨%f2, %hf2, H2⟩, Hk⟩
  subst hf0; subst hf2
  sl_exec (disch := first | exact hc0 | exact hc1)
  sl_step
  iapply Hk
  isplitl [H0]
  · iexists f0; isplitr; · ipureintro; rfl
    iexact H0
  iexists _; isplitr
  swap; · iexact H2
  ipureintro
  refine (read_writes4_o _ _ _ _).trans ?_
  exact congrArg₂ k4_pay2 (readAt4_o _ _) (readAt4_x _ _)

set_option maxHeartbeats 1000000 in
/-- The last point: the scratch gains the block's sum, and the output buffer, found at anything, ends at the scratch
    times the named constant. -/
theorem sound_kernel4_last (c : Dev nD) (E : Set ℕ) (i : grid4.Coords) (arg1 : Memref sig .tc .vmem S8x2000x64 .f32) (harg1 : arg1.IsWhole) (arg2 : Memref sig .tc .vmem S8x64 .f32) (harg2 : arg2.IsWhole)
    (arg3 : Memref sig .tc .vmem S8x64 .f32) (harg3 : arg3.IsWhole) (hc0 : ¬cond4_0 i) (hc1 : cond4_1 i)
    (x0 : Vec F S8x2000x64 .f32) (s0 : Vec F S8x64 .f32) (K : PUnit → sProp 𝕄) :
    iprop(owns (c : Thread nD τ) arg1 fullShare x0 ∗ (∃ d, owns (c : Thread nD τ) arg2 fullShare d) ∗ owns (c : Thread nD τ) arg3 fullShare s0
        ∗ (iprop(owns (c : Thread nD τ) arg1 fullShare x0 ∗ owns (c : Thread nD τ) arg2 fullShare (k4_pay3 (k4_pay2 s0 x0))
            ∗ owns (c : Thread nD τ) arg3 fullShare (k4_pay2 s0 x0)) -∗ K ⟨⟩))
      ⊢ wp frame (wpE (defs₀ (F := F)) Variants.none c none) E (cc4__pool_kernel i arg1 harg1 arg2 harg2 arg3 harg3) K := by
  simp only [cc4__pool_kernel_eq_skeleton]; unfold cc4__pool_kernel_skel
  unfold owns
  iintro ⟨⟨%f0, %hf0, H0⟩, ⟨%d1, %f1, -, H1⟩, ⟨%f2, %hf2, H2⟩, Hk⟩
  subst hf0; subst hf2
  sl_exec (disch := first | exact hc0 | exact hc1)
  sl_step
  iapply Hk
  isplitl [H0]
  · iexists f0; isplitr; · ipureintro; rfl
    iexact H0
  have e2 : ∀ L : List (View.Piece (Elt F) S8x64 .f32), View.readCov arg3.view
      ((⟨r4_o, k4_pay2 (View.readAt (Elt F) arg3.view r4_o.toLoadRect f2) (View.readAt (Elt F) arg1.view r4_x.toLoadRect f0)⟩ : View.Piece (Elt F) S8x64 .f32) :: L) r4_o.toLoadRect
        = k4_pay2 (View.read (Elt F) arg3.view f2) (View.read (Elt F) arg1.view f0) := fun L => by
    rw [View.readCov_eq_canon_ld _ _ _ (fun y => ⟨_, List.mem_cons_self, View.mem_set_unit_zero hz4_2 inb_S8x64_S8x64_0_0 y⟩),
      View.canon_cons_unit_zero hz4_2, View.ld_unit_zero hz4_2, readAt4_o, readAt4_x]
  isplitl [H1]
  · iexists _; isplitr
    swap; · iexact H1
    ipureintro
    refine (read_writes4_o _ _ _ _).trans ?_
    exact congrArg k4_pay3 (e2 _)
  iexists _; isplitr
  swap; · iexact H2
  ipureintro
  refine (read_writes4_o _ _ _ _).trans ?_
  exact congrArg₂ k4_pay2 (readAt4_o _ _) (readAt4_x _ _)

/-! ## The region's invariant and proof data -/

/-- The scratch the kernel carries from point to point. -/
abbrev scM4 : Memref sig .tc .vmem S8x64 .f32 := Memref.whole cc4_scratch0

/-- The invariant before point `n`: before the first point every scoped buffer no window stages at anything (the
    scratch among them); afterwards the scratch at the accumulator the point before left, the other such buffers at
    anything; the generator register at some state throughout. -/
def Phi4 (c : Dev nD) : ℕ → sProp 𝕄
  | 0 => Pipeline.ΦA spec4 c
  | n + 1 => iprop(owns (c : Thread nD τ) scM4 fullShare (acc4 V c n)
      ∗ Pipeline.scopedRestBut (Ix := Unit) (Name := ℕ) (U := UR sig nD τ) (Lvl := ℕ) (Val := Elt F) spec4 c [cc4_scratch0] ∗ ∃ r, prngReg c r)

theorem Phi4_zero (c : Dev nD) (n : ℕ) (hz : n = 0) : Phi4 V c n = Pipeline.ΦA spec4 c := by
  subst hz; rfl

theorem Phi4_succ (c : Dev nD) (n : ℕ) :
    Phi4 V c (n + 1) = iprop(owns (c : Thread nD τ) scM4 fullShare (acc4 V c n)
      ∗ Pipeline.scopedRestBut (Ix := Unit) (Name := ℕ) (U := UR sig nD τ) (Lvl := ℕ) (Val := Elt F) spec4 c [cc4_scratch0] ∗ ∃ r, prngReg c r) := rfl

theorem Phi4_pos (c : Dev nD) (n : ℕ) (hz : n ≠ 0) :
    Phi4 V c n = iprop(owns (c : Thread nD τ) scM4 fullShare (acc4 V c (n - 1))
      ∗ Pipeline.scopedRestBut (Ix := Unit) (Name := ℕ) (U := UR sig nD τ) (Lvl := ℕ) (Val := Elt F) spec4 c [cc4_scratch0] ∗ ∃ r, prngReg c r) := by
  cases n with
  | zero => exact absurd rfl hz
  | succ n => rfl

/-- The class invariant with the scratch as a memref owned at some contents, the other buffers unopened. -/
theorem PhiA4_eq (c : Dev nD) :
    (Pipeline.ΦA spec4 c : sProp 𝕄)
      = iprop(iprop(iprop((∃ d, owns (c : Thread nD τ) scM4 fullShare d))
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; try rfl

/-- The region's proof data on core `c`: the arrays as the region finds them; after the body at point `t` the input
    buffer at its block and the output buffer at the scaled accumulator (which the body stores at the last point only:
    at the others the window is idle and this is not consulted); the invariant carries the scratch. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => k4_pay3 (acc4 V c t.val)
  Φ t := Phi4 V c t.val
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = k4_pay3 (acc4 V c t.val) := by dsimp only [dat4]

theorem Phi4_castSucc (c : Dev nD) (t : Fin cfg4.N) : (dat4 V c).Φ t.castSucc = Phi4 V c t.val := by
  dsimp only [dat4]; simp only [Fin.coe_castSucc]

/-- The node block is in its staging buffer at every point. -/
theorem before4_0 (c : Dev nD) (t : Fin cfg4.N) (d) : (dat4 V c).before 0 t d = iblk4 V c 0 t :=
  ((dat4 V c).before_in_eq_fetched 0 rfl (fun _ => rfl) (fun _ _ _ => rfl)
    (fun t => by rw [after4_0]; unfold Dat.blockOf iblk4; rw [A_eq4]; try rfl) t d).trans
    (by unfold Dat.fetched Dat.blockOf iblk4; rw [A_eq4]; try rfl)

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t)

set_option maxHeartbeats 4000000 in
/-- The body at any point, by the point's place in the grid: at the first the invariant hands the scratch at anything,
    later at the accumulator so far; the output buffer is handed back as found except at the last point, where it is
    stored; the invariant takes the scratch back at this point's accumulator. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).owesAt () t.succ = (dat4 V c).owesAt () t.castSucc from rfl]
  rw [show (dat4 V c).Φ t.succ = Phi4 V c (t.val + 1) from rfl, Phi4_succ, Phi4_castSucc]
  rw [show (dat4 V c).leavesExact 0 t = owns (c : Thread nD τ) (st4_0 t) fullShare ((dat4 V c).after 0 t) from by
    unfold Dat.leavesExact; rw [liveAt4_0 t], after4_0]
  have hN : t.val < 10 := lt_of_lt_of_eq t.isLt (show cfg4.N = 10 from N_4)
  by_cases h0 : t.val = 0
  · have h9 : t.val ≠ 9 := by omega
    rw [Dat.leavesExact_idle (dat4 V c) 1 t (idleAt4_1 t h9) (noFlush4_1 t h9)]
    rw [Phi4_zero V c _ h0, PhiA4_eq]
    rw [show acc4 V c t.val = k4_pay2 (k4_pay1 (F := F)) (iblk4 V c 0 t) from by
      rw [← nodeBlk4_eq V c t, h0]; rfl]
    iintro ⟨⟨⟨HS, HR⟩, Hg⟩, Ho, ⟨%d0, H0⟩, ⟨%d1, H1⟩⟩
    iapply (sound_kernel4_first c Set.univ _ _ _ _ _ _ _ ((hcond4_0 t).mpr h0) (fun h => h9 ((hcond4_1 t).mp h)) (iblk4 V c 0 t) _)
    isplitl [H0]; · iexact H0
    isplitl [HS]; · iexact HS
    iintro ⟨H0, HS⟩
    isplitl [HS HR Hg]
    · isplitl [HS]; · iexact HS
      isplitl [HR]; · iexact HR
      iexact Hg
    isplitl [Ho]; · iexact Ho
    isplitl [H0]; · iexact H0
    iexists _; iexact H1
  · rw [Phi4_pos V c _ h0]
    rw [show acc4 V c t.val = k4_pay2 (acc4 V c (t.val - 1)) (iblk4 V c 0 t) from by
      rw [← nodeBlk4_eq V c t]; exact acc4_pos V c _ h0]
    by_cases h9 : t.val = 9
    · rw [show (dat4 V c).leavesExact 1 t = owns (c : Thread nD τ) (st4_1 t) fullShare ((dat4 V c).after 1 t) from by
        unfold Dat.leavesExact; rw [liveAt4_1 t h9], after4_1]
      rw [show acc4 V c t.val = k4_pay2 (acc4 V c (t.val - 1)) (iblk4 V c 0 t) from by
        rw [← nodeBlk4_eq V c t]; exact acc4_pos V c _ h0]
      iintro ⟨⟨HS, HR, Hg⟩, Ho, ⟨%d0, H0⟩, ⟨%d1, H1⟩⟩
      iapply (sound_kernel4_last c Set.univ _ _ _ _ _ _ _ (fun h => h0 ((hcond4_0 t).mp h)) ((hcond4_1 t).mpr h9) (iblk4 V c 0 t) (acc4 V c (t.val - 1)) _)
      isplitl [H0]; · iexact H0
      isplitl [H1]; · iexists _; iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      iexact H1
    · rw [Dat.leavesExact_idle (dat4 V c) 1 t (idleAt4_1 t h9) (noFlush4_1 t h9)]
      iintro ⟨⟨HS, HR, Hg⟩, Ho, ⟨%d0, H0⟩, ⟨%d1, H1⟩⟩
      iapply (sound_kernel4_mid c Set.univ _ _ _ _ _ _ _ (fun h => h0 ((hcond4_0 t).mp h)) (fun h => h9 ((hcond4_1 t).mp h)) (iblk4 V c 0 t) (acc4 V c (t.val - 1)) _)
      isplitl [H0]; · iexact H0
      isplitl [HS]; · iexact HS
      iintro ⟨H0, HS⟩
      isplitl [HS HR Hg]
      · isplitl [HS]; · iexact HS
        isplitl [HR]; · iexact HR
        iexact Hg
      isplitl [Ho]; · iexact Ho
      isplitl [H0]; · iexact H0
      iexists _; iexact H1

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- Entering the region: the generator register and the scoped buffers no window stages (the scratch among them, at
    anything) make the invariant before the first point. -/
theorem hin4 (c : Dev nD) :
    (iprop((∃ r, prngReg c r) ∗ Pipeline.scopedRest (Ix := Unit) (Name := ℕ) (U := UR sig nD τ) (Lvl := ℕ) spec4 c) : sProp 𝕄) ⊢ (dat4 V c).Φ 0 := by
  rw [show (dat4 V c).Φ 0 = Pipeline.ΦA spec4 c from rfl]; unfold Pipeline.ΦA
  iintro ⟨Hg, HR⟩
  isplitl [HR]; · iexact HR
  iexact Hg

/-- Leaving it: the invariant after the last point gives them back, the scratch's contents forgotten. -/
theorem hout4 (c : Dev nD) :
    (dat4 V c).Φ (Fin.last cfg4.N) ⊢ (iprop((∃ r, prngReg c r) ∗ Pipeline.scopedRest (Ix := Unit) (Name := ℕ) (U := UR sig nD τ) (Lvl := ℕ) spec4 c) : sProp 𝕄) := by
  rw [show (dat4 V c).Φ (Fin.last cfg4.N) = Phi4 V c (Fin.last cfg4.N).val from rfl,
    Phi4_pos V c _ (by rw [Fin.val_last]; have : cfg4.N = 10 := N_4; omega), scopedRest4_split]
  simp only [scM4, owns_whole]
  iintro ⟨HS, HR, Hg⟩
  isplitl [Hg]; · iexact Hg
  isplitl [HS]; · iexists _; iexact HS
  iexact HR

/-! ## The output array after the run -/

/-- The output window's block index is (0, 0) at every point: its one block is the whole array. -/
theorem idx4_1 : ∀ t : Fin cfg4.N, win4_1.index t (0 : Fin 2) = 0 ∧ win4_1.index t (1 : Fin 2) = 0 :=
  (by decide +kernel : ∀ t : Fin grid4.N, win4_1.index t (0 : Fin 2) = 0 ∧ win4_1.index t (1 : Fin 2) = 0)

/-- The output block is written back at the last point only. -/
theorem flush4_1_last (t : Fin cfg4.N) (hf : (cfg4.win 1).flush t = true) : t.val = 9 := by
  have h := (flush4_1 t).mp hf
  have hN : t.val < 10 := lt_of_lt_of_eq t.isLt (show cfg4.N = 10 from N_4)
  omega

/-- What a point that writes the output block back writes is the block, the whole array, of the scaled accumulator
    after the last point. -/
theorem flushed4_1_eq (c : Dev nD) (t : Fin cfg4.N) (hf : (cfg4.win 1).flush t = true) :
    (dat4 V c).flushed 1 t = ((cfg4.win 1).blk t).view.read (Elt F) (k4_pay3 (acc4 V c 9)) := by
  show (cfg4.win 1).cut (grid4.coords t) ((dat4 V c).after 1 t) = _
  rw [after4_1, flush4_1_last t hf]
  obtain ⟨e0, e1⟩ := idx4_1 t
  funext j
  show k4_pay3 (acc4 V c 9) ((cfg4.win 1).xinj (grid4.coords t) j) = k4_pay3 (acc4 V c 9) (((cfg4.win 1).blk t).view.emb j)
  congr 1
  funext a; apply Fin.ext
  match a with
  | ⟨0, _⟩ => show (j 0).val = win4_1.index t (0 : Fin 2) * 8 + 1 * (j 0).val; omega
  | ⟨1, _⟩ => show (j 1).val = win4_1.index t (1 : Fin 2) * 64 + 1 * (j 1).val; omega

/-- An index of the output array is in point `t`'s block iff each coordinate is in the block's range on its axis. -/
theorem mem_blk4_1 (t : Fin cfg4.N) (i : S8x64.Idx) :
    i ∈ ((cfg4.win 1).blk t).view.set ↔ ∀ a : Fin 2, win4_1.index t a * S8x64.size a ≤ (i a).val ∧ (i a).val < win4_1.index t a * S8x64.size a + S8x64.size a := by
  show i ∈ ((View.whole main_v81).slice (win4_1.rect t)).set ↔ _
  rw [View.set_slice_whole, Rect.mem_set_unit]
  exact Iff.rfl

/-- Every index of the output array is in the block the last point writes back. -/
theorem cover4_1 (i : S8x64.Idx) : ∃ t : Fin cfg4.N, (cfg4.win 1).flush t = true ∧ i ∈ ((cfg4.win 1).blk t).view.set := by
  refine ⟨t4_9, (flush4_1 t4_9).mpr rfl, ?_⟩
  rw [mem_blk4_1]
  obtain ⟨e0, e1⟩ := idx4_1 t4_9
  intro a
  match a with
  | ⟨0, _⟩ =>
    show win4_1.index t4_9 (0 : Fin 2) * 8 ≤ (i 0).val ∧ (i 0).val < win4_1.index t4_9 (0 : Fin 2) * 8 + 8
    have hi : (i 0).val < 8 := (i 0).isLt
    omega
  | ⟨1, _⟩ =>
    show win4_1.index t4_9 (1 : Fin 2) * 64 ≤ (i 1).val ∧ (i 1).val < win4_1.index t4_9 (1 : Fin 2) * 64 + 64
    have hi : (i 1).val < 64 := (i 1).isLt
    omega

/-- What the region leaves in its output array: the accumulator after the last point, scaled by the reciprocal of the
    node count. (The output window is one block, the whole array, written back once, after the last point.) -/
theorem arrAt4_out (c : Dev nD) :
    ((dat4 V c).arrAt 1 cfg4.N : S8x64.Idx → Elt F .f32) = k4_pay3 (acc4 V c 9) :=
  (dat4 V c).arrAt_eq_of_cover 1 (k4_pay3 (acc4 V c 9)) (fun t hf => flushed4_1_eq V c t hf) cover4_1

end Cert.KernelIdeal.Gen

end
-- ==== Proof.KIBounds.lean ====
/- The contents of every buffer at each boundary between the program's eleven items (six stretches of host operations
   and five kernel regions between them), as a fold from the launch memory: a stretch applies its operations; a region
   leaves its arrays at what its write-backs leave and every other buffer as entered. Then: each region's proof data at
   its entry contents, and the fact that no item writes an argument. -/
import proofs.«403166_j89026082111548_2_alg».proof.Proof.Gen.KernelIdeal.Launch
import proofs.«403166_j89026082111548_2_alg».proof.Proof.Gen.KernelIdeal.Skeleton
import proofs.«403166_j89026082111548_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«403166_j89026082111548_2_alg».proof.Proof.KIProj0
import proofs.«403166_j89026082111548_2_alg».proof.Proof.KIComb1
import proofs.«403166_j89026082111548_2_alg».proof.Proof.KIProj2
import proofs.«403166_j89026082111548_2_alg».proof.Proof.KIComb3
import proofs.«403166_j89026082111548_2_alg».proof.Proof.KIPool4
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)

/-- After the host stretch before region 0 (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- An input window's array leaves region 0 as it entered. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))

/-- After the host stretch before region 1 (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- An input window's array leaves region 1 as it entered. -/
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))

/-- After the host stretch before region 2 (region 2's entry). -/
abbrev W5 : Dev nD → Valuation τ sig (Elt F) := fun c => StableHlo.after hostOps2 (W4 m ρ c)
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- An input window's array leaves region 2 as it entered. -/
theorem W6_in (c : Dev nD) (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hin _).trans (A_eq2 (V5 m ρ) c w))

/-- After the host stretch before region 3 (region 3's entry). -/
abbrev W7 : Dev nD → Valuation τ sig (Elt F) := fun c => StableHlo.after hostOps3 (W6 m ρ c)
/-- The same read at the TensorCore's references (what region 3's proof data take). -/
abbrev V7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references (region 3's exit contents). -/
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- An input window's array leaves region 3 as it entered. -/
theorem W8_in (c : Dev nD) (w : Fin cfg3.W) (hin : (cfg3.win w).isOut = false) :
    W8 m ρ c (Proc.devRef .tc (Pipeline.arrRef spec3 w)) = W7 m ρ c (Proc.devRef .tc (Pipeline.arrRef spec3 w)) :=
  (W8_arr m ρ c w).trans (((dat3 (V7 m ρ) c).arrAt_in w hin _).trans (A_eq3 (V7 m ρ) c w))

/-- After the host stretch before region 4 (region 4's entry). -/
abbrev W9 : Dev nD → Valuation τ sig (Elt F) := fun c => StableHlo.after hostOps4 (W8 m ρ c)
/-- The same read at the TensorCore's references (what region 4's proof data take). -/
abbrev V9 : (c : Dev nD) → (b : Ref sig .tc) → Buf (Elt F) ((c : Thread nD τ).loc b) := fun c b => W9 m ρ c b
/-- At region 4's exit: its arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same read at the TensorCore's references (region 4's exit contents). -/
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- An input window's array leaves region 4 as it entered. -/
theorem W10_in (c : Dev nD) (w : Fin cfg4.W) (hin : (cfg4.win w).isOut = false) :
    W10 m ρ c (Proc.devRef .tc (Pipeline.arrRef spec4 w)) = W9 m ρ c (Proc.devRef .tc (Pipeline.arrRef spec4 w)) :=
  (W10_arr m ρ c w).trans (((dat4 (V9 m ρ) c).arrAt_in w hin _).trans (A_eq4 (V9 m ρ) c w))

/-- After the last host stretch (the program's end). -/
abbrev W11 : Dev nD → Valuation τ sig (Elt F) := fun c => StableHlo.after hostOps5 (W10 m ρ c)

/-- The prefetched tables' admissible contents: no region has a table. -/
abbrev adm : (p : Fin 5) → (pcfgs (F := F) p).Adm := fun p => (cfgs p).toPCfg_adm
/-- Every region's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the generator register at some state. -/
abbrev Tₙ (c : Dev nD) : sProp 𝕄 := iprop(StableHlo.held (c : Thread nD τ) (Pipeline.ucRefs τ sig) (W11 m ρ c) ∗ ∃ r, prngReg c r)

end Cert.KernelIdeal.Gen

end
-- ==== Proof.KIArgs.lean ====
/- No item of the program writes an argument. Per host stretch: the list of the references its operations write, and
   that a reference outside the list holds after the stretch what it held before. Then, boundary by boundary, each
   argument's buffer still holds the launch contents: a host stretch does not list it among what it writes; a kernel
   region either does not have it among its windows' arrays, or has it as the array of an input window, which the
   region leaves as entered. -/
import proofs.«403166_j89026082111548_2_alg».proof.Proof.KIBounds
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## What each host stretch writes -/

/-- The references the first host stretch's operations write. -/
abbrev wrote0 : List (Ref sig .tc) := [main_v0, main_v1, main_v2, main_v3, main_cst, main_v4, main_c, main_v5, main_v6, main_c_0, main_v7, main_v8, main_v9, main_v10, main_cst_1, main_v11, main_v12, main_v13, main_c_2, main_v14, main_v15, main_c_3, main_v16, main_v17, main_v18, main_v19, main_v20, main_c_4, main_v21, main_v22, main_c_5, main_v23, main_v24, main_v25, main_v26, main_v27, main_v28, main_v29, main_v30, main_v31]
theorem hostOps0_wrote : (hostOps0 : List (HloOp τ sig (Elt F))).Forall fun op => op.writes ⊆ (wrote0.map (Proc.devRef (τ := τ) .tc)).toFinset := by
  simp only [List.Forall]
  repeat' apply And.intro
  -- each builder writes exactly its result, the image of a listed reference
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
/-- A reference the first host stretch does not write holds after it what it held before. -/
theorem keptBy_hostOps0 (W : Valuation τ sig (Elt F)) (r : Ref sig .tc) (h : r ∉ wrote0) :
    StableHlo.after hostOps0 W (Proc.devRef .tc r) = W (Proc.devRef .tc r) :=
  StableHlo.after_of_writes_sub hostOps0 W hostOps0_wrote h

/-- The references the second host stretch's operations write. -/
abbrev wrote1 : List (Ref sig .tc) := [main_v33, main_c_6, main_v34, main_v35, main_c_7, main_v36, main_v37, main_v38, main_v39, main_v40, main_v41, main_v42, main_v43, main_cst_8, main_v44, main_c_9, main_v45, main_v46, main_c_10, main_v47, main_v48, main_v49, main_v50, main_v51, main_v52, main_v53]
theorem hostOps1_wrote : (hostOps1 : List (HloOp τ sig (Elt F))).Forall fun op => op.writes ⊆ (wrote1.map (Proc.devRef (τ := τ) .tc)).toFinset := by
  simp only [List.Forall]
  repeat' apply And.intro
  -- each builder writes exactly its result, the image of a listed reference
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
/-- A reference the second host stretch does not write holds after it what it held before. -/
theorem keptBy_hostOps1 (W : Valuation τ sig (Elt F)) (r : Ref sig .tc) (h : r ∉ wrote1) :
    StableHlo.after hostOps1 W (Proc.devRef .tc r) = W (Proc.devRef .tc r) :=
  StableHlo.after_of_writes_sub hostOps1 W hostOps1_wrote h

/-- The references the third host stretch's operations write. -/
abbrev wrote2 : List (Ref sig .tc) := [main_v55, main_v56]
theorem hostOps2_wrote : (hostOps2 : List (HloOp τ sig (Elt F))).Forall fun op => op.writes ⊆ (wrote2.map (Proc.devRef (τ := τ) .tc)).toFinset := by
  simp only [List.Forall]
  repeat' apply And.intro
  -- each builder writes exactly its result, the image of a listed reference
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
/-- A reference the third host stretch does not write holds after it what it held before. -/
theorem keptBy_hostOps2 (W : Valuation τ sig (Elt F)) (r : Ref sig .tc) (h : r ∉ wrote2) :
    StableHlo.after hostOps2 W (Proc.devRef .tc r) = W (Proc.devRef .tc r) :=
  StableHlo.after_of_writes_sub hostOps2 W hostOps2_wrote h

/-- The references the fourth host stretch's operations write. -/
abbrev wrote3 : List (Ref sig .tc) := [main_v58, main_c_11, main_v59, main_v60, main_c_12, main_v61, main_v62, main_v63, main_v64, main_v65, main_v66, main_v67, main_v68, main_cst_13, main_v69, main_c_14, main_v70, main_v71, main_c_15, main_v72, main_v73, main_v74, main_v75, main_v76, main_v77, main_v78]
theorem hostOps3_wrote : (hostOps3 : List (HloOp τ sig (Elt F))).Forall fun op => op.writes ⊆ (wrote3.map (Proc.devRef (τ := τ) .tc)).toFinset := by
  simp only [List.Forall]
  repeat' apply And.intro
  -- each builder writes exactly its result, the image of a listed reference
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
/-- A reference the fourth host stretch does not write holds after it what it held before. -/
theorem keptBy_hostOps3 (W : Valuation τ sig (Elt F)) (r : Ref sig .tc) (h : r ∉ wrote3) :
    StableHlo.after hostOps3 W (Proc.devRef .tc r) = W (Proc.devRef .tc r) :=
  StableHlo.after_of_writes_sub hostOps3 W hostOps3_wrote h

/-- The references the fifth host stretch's operations write. -/
abbrev wrote4 : List (Ref sig .tc) := [main_v80]
theorem hostOps4_wrote : (hostOps4 : List (HloOp τ sig (Elt F))).Forall fun op => op.writes ⊆ (wrote4.map (Proc.devRef (τ := τ) .tc)).toFinset := by
  simp only [List.Forall]
  repeat' apply And.intro
  -- each builder writes exactly its result, the image of a listed reference
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
/-- A reference the fifth host stretch does not write holds after it what it held before. -/
theorem keptBy_hostOps4 (W : Valuation τ sig (Elt F)) (r : Ref sig .tc) (h : r ∉ wrote4) :
    StableHlo.after hostOps4 W (Proc.devRef .tc r) = W (Proc.devRef .tc r) :=
  StableHlo.after_of_writes_sub hostOps4 W hostOps4_wrote h

/-- The references the sixth host stretch's operations write. -/
abbrev wrote5 : List (Ref sig .tc) := [main_v82, main_v83, main_v84, main_v85, main_v86]
theorem hostOps5_wrote : (hostOps5 : List (HloOp τ sig (Elt F))).Forall fun op => op.writes ⊆ (wrote5.map (Proc.devRef (τ := τ) .tc)).toFinset := by
  simp only [List.Forall]
  repeat' apply And.intro
  -- each builder writes exactly its result, the image of a listed reference
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
/-- A reference the sixth host stretch does not write holds after it what it held before. -/
theorem keptBy_hostOps5 (W : Valuation τ sig (Elt F)) (r : Ref sig .tc) (h : r ∉ wrote5) :
    StableHlo.after hostOps5 W (Proc.devRef .tc r) = W (Proc.devRef .tc r) :=
  StableHlo.after_of_writes_sub hostOps5 W hostOps5_wrote h

variable (m : (ℓ : Loc nD τ sig) → Buf (Elt F) ℓ) (ρ : Dev nD → PrngReg)

/-! ## Each argument at each boundary -/

/-! After the first host stretch. -/
theorem W1_arg0 (c : Dev nD) : W1 m ρ c (Proc.devRef .tc main_arg0) = m ((c.tc : Thread nD τ).loc main_arg0) :=
  (keptBy_hostOps0 (W0 m ρ c) main_arg0 (by decide)).trans rfl
theorem W1_arg1 (c : Dev nD) : W1 m ρ c (Proc.devRef .tc main_arg1) = m ((c.tc : Thread nD τ).loc main_arg1) :=
  (keptBy_hostOps0 (W0 m ρ c) main_arg1 (by decide)).trans rfl
theorem W1_arg2 (c : Dev nD) : W1 m ρ c (Proc.devRef .tc main_arg2) = m ((c.tc : Thread nD τ).loc main_arg2) :=
  (keptBy_hostOps0 (W0 m ρ c) main_arg2 (by decide)).trans rfl
theorem W1_arg3 (c : Dev nD) : W1 m ρ c (Proc.devRef .tc main_arg3) = m ((c.tc : Thread nD τ).loc main_arg3) :=
  (keptBy_hostOps0 (W0 m ρ c) main_arg3 (by decide)).trans rfl
theorem W1_arg4 (c : Dev nD) : W1 m ρ c (Proc.devRef .tc main_arg4) = m ((c.tc : Thread nD τ).loc main_arg4) :=
  (keptBy_hostOps0 (W0 m ρ c) main_arg4 (by decide)).trans rfl
theorem W1_arg5 (c : Dev nD) : W1 m ρ c (Proc.devRef .tc main_arg5) = m ((c.tc : Thread nD τ).loc main_arg5) :=
  (keptBy_hostOps0 (W0 m ρ c) main_arg5 (by decide)).trans rfl
theorem W1_arg6 (c : Dev nD) : W1 m ρ c (Proc.devRef .tc main_arg6) = m ((c.tc : Thread nD τ).loc main_arg6) :=
  (keptBy_hostOps0 (W0 m ρ c) main_arg6 (by decide)).trans rfl
theorem W1_arg7 (c : Dev nD) : W1 m ρ c (Proc.devRef .tc main_arg7) = m ((c.tc : Thread nD τ).loc main_arg7) :=
  (keptBy_hostOps0 (W0 m ρ c) main_arg7 (by decide)).trans rfl
theorem W1_arg8 (c : Dev nD) : W1 m ρ c (Proc.devRef .tc main_arg8) = m ((c.tc : Thread nD τ).loc main_arg8) :=
  (keptBy_hostOps0 (W0 m ρ c) main_arg8 (by decide)).trans rfl

/-! At region 0's exit. -/
theorem W2_arg0 (c : Dev nD) : W2 m ρ c (Proc.devRef .tc main_arg0) = m ((c.tc : Thread nD τ).loc main_arg0) :=
  (W2_of_ne m ρ c main_arg0 (by decide)).trans (W1_arg0 m ρ c)
theorem W2_arg1 (c : Dev nD) : W2 m ρ c (Proc.devRef .tc main_arg1) = m ((c.tc : Thread nD τ).loc main_arg1) :=
  (W2_of_ne m ρ c main_arg1 (by decide)).trans (W1_arg1 m ρ c)
theorem W2_arg2 (c : Dev nD) : W2 m ρ c (Proc.devRef .tc main_arg2) = m ((c.tc : Thread nD τ).loc main_arg2) :=
  (W2_of_ne m ρ c main_arg2 (by decide)).trans (W1_arg2 m ρ c)
theorem W2_arg3 (c : Dev nD) : W2 m ρ c (Proc.devRef .tc main_arg3) = m ((c.tc : Thread nD τ).loc main_arg3) :=
  (W2_in m ρ c 1 rfl).trans (W1_arg3 m ρ c)
theorem W2_arg4 (c : Dev nD) : W2 m ρ c (Proc.devRef .tc main_arg4) = m ((c.tc : Thread nD τ).loc main_arg4) :=
  (W2_of_ne m ρ c main_arg4 (by decide)).trans (W1_arg4 m ρ c)
theorem W2_arg5 (c : Dev nD) : W2 m ρ c (Proc.devRef .tc main_arg5) = m ((c.tc : Thread nD τ).loc main_arg5) :=
  (W2_of_ne m ρ c main_arg5 (by decide)).trans (W1_arg5 m ρ c)
theorem W2_arg6 (c : Dev nD) : W2 m ρ c (Proc.devRef .tc main_arg6) = m ((c.tc : Thread nD τ).loc main_arg6) :=
  (W2_of_ne m ρ c main_arg6 (by decide)).trans (W1_arg6 m ρ c)
theorem W2_arg7 (c : Dev nD) : W2 m ρ c (Proc.devRef .tc main_arg7) = m ((c.tc : Thread nD τ).loc main_arg7) :=
  (W2_of_ne m ρ c main_arg7 (by decide)).trans (W1_arg7 m ρ c)
theorem W2_arg8 (c : Dev nD) : W2 m ρ c (Proc.devRef .tc main_arg8) = m ((c.tc : Thread nD τ).loc main_arg8) :=
  (W2_of_ne m ρ c main_arg8 (by decide)).trans (W1_arg8 m ρ c)

/-! After the second host stretch. -/
theorem W3_arg0 (c : Dev nD) : W3 m ρ c (Proc.devRef .tc main_arg0) = m ((c.tc : Thread nD τ).loc main_arg0) :=
  (keptBy_hostOps1 (W2 m ρ c) main_arg0 (by decide)).trans (W2_arg0 m ρ c)
theorem W3_arg1 (c : Dev nD) : W3 m ρ c (Proc.devRef .tc main_arg1) = m ((c.tc : Thread nD τ).loc main_arg1) :=
  (keptBy_hostOps1 (W2 m ρ c) main_arg1 (by decide)).trans (W2_arg1 m ρ c)
theorem W3_arg2 (c : Dev nD) : W3 m ρ c (Proc.devRef .tc main_arg2) = m ((c.tc : Thread nD τ).loc main_arg2) :=
  (keptBy_hostOps1 (W2 m ρ c) main_arg2 (by decide)).trans (W2_arg2 m ρ c)
theorem W3_arg3 (c : Dev nD) : W3 m ρ c (Proc.devRef .tc main_arg3) = m ((c.tc : Thread nD τ).loc main_arg3) :=
  (keptBy_hostOps1 (W2 m ρ c) main_arg3 (by decide)).trans (W2_arg3 m ρ c)
theorem W3_arg4 (c : Dev nD) : W3 m ρ c (Proc.devRef .tc main_arg4) = m ((c.tc : Thread nD τ).loc main_arg4) :=
  (keptBy_hostOps1 (W2 m ρ c) main_arg4 (by decide)).trans (W2_arg4 m ρ c)
theorem W3_arg5 (c : Dev nD) : W3 m ρ c (Proc.devRef .tc main_arg5) = m ((c.tc : Thread nD τ).loc main_arg5) :=
  (keptBy_hostOps1 (W2 m ρ c) main_arg5 (by decide)).trans (W2_arg5 m ρ c)
theorem W3_arg6 (c : Dev nD) : W3 m ρ c (Proc.devRef .tc main_arg6) = m ((c.tc : Thread nD τ).loc main_arg6) :=
  (keptBy_hostOps1 (W2 m ρ c) main_arg6 (by decide)).trans (W2_arg6 m ρ c)
theorem W3_arg7 (c : Dev nD) : W3 m ρ c (Proc.devRef .tc main_arg7) = m ((c.tc : Thread nD τ).loc main_arg7) :=
  (keptBy_hostOps1 (W2 m ρ c) main_arg7 (by decide)).trans (W2_arg7 m ρ c)
theorem W3_arg8 (c : Dev nD) : W3 m ρ c (Proc.devRef .tc main_arg8) = m ((c.tc : Thread nD τ).loc main_arg8) :=
  (keptBy_hostOps1 (W2 m ρ c) main_arg8 (by decide)).trans (W2_arg8 m ρ c)

/-! At region 1's exit. -/
theorem W4_arg0 (c : Dev nD) : W4 m ρ c (Proc.devRef .tc main_arg0) = m ((c.tc : Thread nD τ).loc main_arg0) :=
  (W4_of_ne m ρ c main_arg0 (by decide)).trans (W3_arg0 m ρ c)
theorem W4_arg1 (c : Dev nD) : W4 m ρ c (Proc.devRef .tc main_arg1) = m ((c.tc : Thread nD τ).loc main_arg1) :=
  (W4_of_ne m ρ c main_arg1 (by decide)).trans (W3_arg1 m ρ c)
theorem W4_arg2 (c : Dev nD) : W4 m ρ c (Proc.devRef .tc main_arg2) = m ((c.tc : Thread nD τ).loc main_arg2) :=
  (W4_of_ne m ρ c main_arg2 (by decide)).trans (W3_arg2 m ρ c)
theorem W4_arg3 (c : Dev nD) : W4 m ρ c (Proc.devRef .tc main_arg3) = m ((c.tc : Thread nD τ).loc main_arg3) :=
  (W4_of_ne m ρ c main_arg3 (by decide)).trans (W3_arg3 m ρ c)
theorem W4_arg4 (c : Dev nD) : W4 m ρ c (Proc.devRef .tc main_arg4) = m ((c.tc : Thread nD τ).loc main_arg4) :=
  (W4_of_ne m ρ c main_arg4 (by decide)).trans (W3_arg4 m ρ c)
theorem W4_arg5 (c : Dev nD) : W4 m ρ c (Proc.devRef .tc main_arg5) = m ((c.tc : Thread nD τ).loc main_arg5) :=
  (W4_of_ne m ρ c main_arg5 (by decide)).trans (W3_arg5 m ρ c)
theorem W4_arg6 (c : Dev nD) : W4 m ρ c (Proc.devRef .tc main_arg6) = m ((c.tc : Thread nD τ).loc main_arg6) :=
  (W4_of_ne m ρ c main_arg6 (by decide)).trans (W3_arg6 m ρ c)
theorem W4_arg7 (c : Dev nD) : W4 m ρ c (Proc.devRef .tc main_arg7) = m ((c.tc : Thread nD τ).loc main_arg7) :=
  (W4_of_ne m ρ c main_arg7 (by decide)).trans (W3_arg7 m ρ c)
theorem W4_arg8 (c : Dev nD) : W4 m ρ c (Proc.devRef .tc main_arg8) = m ((c.tc : Thread nD τ).loc main_arg8) :=
  (W4_of_ne m ρ c main_arg8 (by decide)).trans (W3_arg8 m ρ c)

/-! After the third host stretch. -/
theorem W5_arg0 (c : Dev nD) : W5 m ρ c (Proc.devRef .tc main_arg0) = m ((c.tc : Thread nD τ).loc main_arg0) :=
  (keptBy_hostOps2 (W4 m ρ c) main_arg0 (by decide)).trans (W4_arg0 m ρ c)
theorem W5_arg1 (c : Dev nD) : W5 m ρ c (Proc.devRef .tc main_arg1) = m ((c.tc : Thread nD τ).loc main_arg1) :=
  (keptBy_hostOps2 (W4 m ρ c) main_arg1 (by decide)).trans (W4_arg1 m ρ c)
theorem W5_arg2 (c : Dev nD) : W5 m ρ c (Proc.devRef .tc main_arg2) = m ((c.tc : Thread nD τ).loc main_arg2) :=
  (keptBy_hostOps2 (W4 m ρ c) main_arg2 (by decide)).trans (W4_arg2 m ρ c)
theorem W5_arg3 (c : Dev nD) : W5 m ρ c (Proc.devRef .tc main_arg3) = m ((c.tc : Thread nD τ).loc main_arg3) :=
  (keptBy_hostOps2 (W4 m ρ c) main_arg3 (by decide)).trans (W4_arg3 m ρ c)
theorem W5_arg4 (c : Dev nD) : W5 m ρ c (Proc.devRef .tc main_arg4) = m ((c.tc : Thread nD τ).loc main_arg4) :=
  (keptBy_hostOps2 (W4 m ρ c) main_arg4 (by decide)).trans (W4_arg4 m ρ c)
theorem W5_arg5 (c : Dev nD) : W5 m ρ c (Proc.devRef .tc main_arg5) = m ((c.tc : Thread nD τ).loc main_arg5) :=
  (keptBy_hostOps2 (W4 m ρ c) main_arg5 (by decide)).trans (W4_arg5 m ρ c)
theorem W5_arg6 (c : Dev nD) : W5 m ρ c (Proc.devRef .tc main_arg6) = m ((c.tc : Thread nD τ).loc main_arg6) :=
  (keptBy_hostOps2 (W4 m ρ c) main_arg6 (by decide)).trans (W4_arg6 m ρ c)
theorem W5_arg7 (c : Dev nD) : W5 m ρ c (Proc.devRef .tc main_arg7) = m ((c.tc : Thread nD τ).loc main_arg7) :=
  (keptBy_hostOps2 (W4 m ρ c) main_arg7 (by decide)).trans (W4_arg7 m ρ c)
theorem W5_arg8 (c : Dev nD) : W5 m ρ c (Proc.devRef .tc main_arg8) = m ((c.tc : Thread nD τ).loc main_arg8) :=
  (keptBy_hostOps2 (W4 m ρ c) main_arg8 (by decide)).trans (W4_arg8 m ρ c)

/-! At region 2's exit. -/
theorem W6_arg0 (c : Dev nD) : W6 m ρ c (Proc.devRef .tc main_arg0) = m ((c.tc : Thread nD τ).loc main_arg0) :=
  (W6_of_ne m ρ c main_arg0 (by decide)).trans (W5_arg0 m ρ c)
theorem W6_arg1 (c : Dev nD) : W6 m ρ c (Proc.devRef .tc main_arg1) = m ((c.tc : Thread nD τ).loc main_arg1) :=
  (W6_of_ne m ρ c main_arg1 (by decide)).trans (W5_arg1 m ρ c)
theorem W6_arg2 (c : Dev nD) : W6 m ρ c (Proc.devRef .tc main_arg2) = m ((c.tc : Thread nD τ).loc main_arg2) :=
  (W6_of_ne m ρ c main_arg2 (by decide)).trans (W5_arg2 m ρ c)
theorem W6_arg3 (c : Dev nD) : W6 m ρ c (Proc.devRef .tc main_arg3) = m ((c.tc : Thread nD τ).loc main_arg3) :=
  (W6_of_ne m ρ c main_arg3 (by decide)).trans (W5_arg3 m ρ c)
theorem W6_arg4 (c : Dev nD) : W6 m ρ c (Proc.devRef .tc main_arg4) = m ((c.tc : Thread nD τ).loc main_arg4) :=
  (W6_of_ne m ρ c main_arg4 (by decide)).trans (W5_arg4 m ρ c)
theorem W6_arg5 (c : Dev nD) : W6 m ρ c (Proc.devRef .tc main_arg5) = m ((c.tc : Thread nD τ).loc main_arg5) :=
  (W6_in m ρ c 1 rfl).trans (W5_arg5 m ρ c)
theorem W6_arg6 (c : Dev nD) : W6 m ρ c (Proc.devRef .tc main_arg6) = m ((c.tc : Thread nD τ).loc main_arg6) :=
  (W6_of_ne m ρ c main_arg6 (by decide)).trans (W5_arg6 m ρ c)
theorem W6_arg7 (c : Dev nD) : W6 m ρ c (Proc.devRef .tc main_arg7) = m ((c.tc : Thread nD τ).loc main_arg7) :=
  (W6_of_ne m ρ c main_arg7 (by decide)).trans (W5_arg7 m ρ c)
theorem W6_arg8 (c : Dev nD) : W6 m ρ c (Proc.devRef .tc main_arg8) = m ((c.tc : Thread nD τ).loc main_arg8) :=
  (W6_of_ne m ρ c main_arg8 (by decide)).trans (W5_arg8 m ρ c)

/-! After the fourth host stretch. -/
theorem W7_arg0 (c : Dev nD) : W7 m ρ c (Proc.devRef .tc main_arg0) = m ((c.tc : Thread nD τ).loc main_arg0) :=
  (keptBy_hostOps3 (W6 m ρ c) main_arg0 (by decide)).trans (W6_arg0 m ρ c)
theorem W7_arg1 (c : Dev nD) : W7 m ρ c (Proc.devRef .tc main_arg1) = m ((c.tc : Thread nD τ).loc main_arg1) :=
  (keptBy_hostOps3 (W6 m ρ c) main_arg1 (by decide)).trans (W6_arg1 m ρ c)
theorem W7_arg2 (c : Dev nD) : W7 m ρ c (Proc.devRef .tc main_arg2) = m ((c.tc : Thread nD τ).loc main_arg2) :=
  (keptBy_hostOps3 (W6 m ρ c) main_arg2 (by decide)).trans (W6_arg2 m ρ c)
theorem W7_arg3 (c : Dev nD) : W7 m ρ c (Proc.devRef .tc main_arg3) = m ((c.tc : Thread nD τ).loc main_arg3) :=
  (keptBy_hostOps3 (W6 m ρ c) main_arg3 (by decide)).trans (W6_arg3 m ρ c)
theorem W7_arg4 (c : Dev nD) : W7 m ρ c (Proc.devRef .tc main_arg4) = m ((c.tc : Thread nD τ).loc main_arg4) :=
  (keptBy_hostOps3 (W6 m ρ c) main_arg4 (by decide)).trans (W6_arg4 m ρ c)
theorem W7_arg5 (c : Dev nD) : W7 m ρ c (Proc.devRef .tc main_arg5) = m ((c.tc : Thread nD τ).loc main_arg5) :=
  (keptBy_hostOps3 (W6 m ρ c) main_arg5 (by decide)).trans (W6_arg5 m ρ c)
theorem W7_arg6 (c : Dev nD) : W7 m ρ c (Proc.devRef .tc main_arg6) = m ((c.tc : Thread nD τ).loc main_arg6) :=
  (keptBy_hostOps3 (W6 m ρ c) main_arg6 (by decide)).trans (W6_arg6 m ρ c)
theorem W7_arg7 (c : Dev nD) : W7 m ρ c (Proc.devRef .tc main_arg7) = m ((c.tc : Thread nD τ).loc main_arg7) :=
  (keptBy_hostOps3 (W6 m ρ c) main_arg7 (by decide)).trans (W6_arg7 m ρ c)
theorem W7_arg8 (c : Dev nD) : W7 m ρ c (Proc.devRef .tc main_arg8) = m ((c.tc : Thread nD τ).loc main_arg8) :=
  (keptBy_hostOps3 (W6 m ρ c) main_arg8 (by decide)).trans (W6_arg8 m ρ c)

/-! At region 3's exit. -/
theorem W8_arg0 (c : Dev nD) : W8 m ρ c (Proc.devRef .tc main_arg0) = m ((c.tc : Thread nD τ).loc main_arg0) :=
  (W8_of_ne m ρ c main_arg0 (by decide)).trans (W7_arg0 m ρ c)
theorem W8_arg1 (c : Dev nD) : W8 m ρ c (Proc.devRef .tc main_arg1) = m ((c.tc : Thread nD τ).loc main_arg1) :=
  (W8_of_ne m ρ c main_arg1 (by decide)).trans (W7_arg1 m ρ c)
theorem W8_arg2 (c : Dev nD) : W8 m ρ c (Proc.devRef .tc main_arg2) = m ((c.tc : Thread nD τ).loc main_arg2) :=
  (W8_of_ne m ρ c main_arg2 (by decide)).trans (W7_arg2 m ρ c)
theorem W8_arg3 (c : Dev nD) : W8 m ρ c (Proc.devRef .tc main_arg3) = m ((c.tc : Thread nD τ).loc main_arg3) :=
  (W8_of_ne m ρ c main_arg3 (by decide)).trans (W7_arg3 m ρ c)
theorem W8_arg4 (c : Dev nD) : W8 m ρ c (Proc.devRef .tc main_arg4) = m ((c.tc : Thread nD τ).loc main_arg4) :=
  (W8_of_ne m ρ c main_arg4 (by decide)).trans (W7_arg4 m ρ c)
theorem W8_arg5 (c : Dev nD) : W8 m ρ c (Proc.devRef .tc main_arg5) = m ((c.tc : Thread nD τ).loc main_arg5) :=
  (W8_of_ne m ρ c main_arg5 (by decide)).trans (W7_arg5 m ρ c)
theorem W8_arg6 (c : Dev nD) : W8 m ρ c (Proc.devRef .tc main_arg6) = m ((c.tc : Thread nD τ).loc main_arg6) :=
  (W8_of_ne m ρ c main_arg6 (by decide)).trans (W7_arg6 m ρ c)
theorem W8_arg7 (c : Dev nD) : W8 m ρ c (Proc.devRef .tc main_arg7) = m ((c.tc : Thread nD τ).loc main_arg7) :=
  (W8_of_ne m ρ c main_arg7 (by decide)).trans (W7_arg7 m ρ c)
theorem W8_arg8 (c : Dev nD) : W8 m ρ c (Proc.devRef .tc main_arg8) = m ((c.tc : Thread nD τ).loc main_arg8) :=
  (W8_of_ne m ρ c main_arg8 (by decide)).trans (W7_arg8 m ρ c)

/-! After the fifth host stretch. -/
theorem W9_arg0 (c : Dev nD) : W9 m ρ c (Proc.devRef .tc main_arg0) = m ((c.tc : Thread nD τ).loc main_arg0) :=
  (keptBy_hostOps4 (W8 m ρ c) main_arg0 (by decide)).trans (W8_arg0 m ρ c)
theorem W9_arg1 (c : Dev nD) : W9 m ρ c (Proc.devRef .tc main_arg1) = m ((c.tc : Thread nD τ).loc main_arg1) :=
  (keptBy_hostOps4 (W8 m ρ c) main_arg1 (by decide)).trans (W8_arg1 m ρ c)
theorem W9_arg2 (c : Dev nD) : W9 m ρ c (Proc.devRef .tc main_arg2) = m ((c.tc : Thread nD τ).loc main_arg2) :=
  (keptBy_hostOps4 (W8 m ρ c) main_arg2 (by decide)).trans (W8_arg2 m ρ c)
theorem W9_arg3 (c : Dev nD) : W9 m ρ c (Proc.devRef .tc main_arg3) = m ((c.tc : Thread nD τ).loc main_arg3) :=
  (keptBy_hostOps4 (W8 m ρ c) main_arg3 (by decide)).trans (W8_arg3 m ρ c)
theorem W9_arg4 (c : Dev nD) : W9 m ρ c (Proc.devRef .tc main_arg4) = m ((c.tc : Thread nD τ).loc main_arg4) :=
  (keptBy_hostOps4 (W8 m ρ c) main_arg4 (by decide)).trans (W8_arg4 m ρ c)
theorem W9_arg5 (c : Dev nD) : W9 m ρ c (Proc.devRef .tc main_arg5) = m ((c.tc : Thread nD τ).loc main_arg5) :=
  (keptBy_hostOps4 (W8 m ρ c) main_arg5 (by decide)).trans (W8_arg5 m ρ c)
theorem W9_arg6 (c : Dev nD) : W9 m ρ c (Proc.devRef .tc main_arg6) = m ((c.tc : Thread nD τ).loc main_arg6) :=
  (keptBy_hostOps4 (W8 m ρ c) main_arg6 (by decide)).trans (W8_arg6 m ρ c)
theorem W9_arg7 (c : Dev nD) : W9 m ρ c (Proc.devRef .tc main_arg7) = m ((c.tc : Thread nD τ).loc main_arg7) :=
  (keptBy_hostOps4 (W8 m ρ c) main_arg7 (by decide)).trans (W8_arg7 m ρ c)
theorem W9_arg8 (c : Dev nD) : W9 m ρ c (Proc.devRef .tc main_arg8) = m ((c.tc : Thread nD τ).loc main_arg8) :=
  (keptBy_hostOps4 (W8 m ρ c) main_arg8 (by decide)).trans (W8_arg8 m ρ c)

/-! At region 4's exit. -/
theorem W10_arg0 (c : Dev nD) : W10 m ρ c (Proc.devRef .tc main_arg0) = m ((c.tc : Thread nD τ).loc main_arg0) :=
  (W10_of_ne m ρ c main_arg0 (by decide)).trans (W9_arg0 m ρ c)
theorem W10_arg1 (c : Dev nD) : W10 m ρ c (Proc.devRef .tc main_arg1) = m ((c.tc : Thread nD τ).loc main_arg1) :=
  (W10_of_ne m ρ c main_arg1 (by decide)).trans (W9_arg1 m ρ c)
theorem W10_arg2 (c : Dev nD) : W10 m ρ c (Proc.devRef .tc main_arg2) = m ((c.tc : Thread nD τ).loc main_arg2) :=
  (W10_of_ne m ρ c main_arg2 (by decide)).trans (W9_arg2 m ρ c)
theorem W10_arg3 (c : Dev nD) : W10 m ρ c (Proc.devRef .tc main_arg3) = m ((c.tc : Thread nD τ).loc main_arg3) :=
  (W10_of_ne m ρ c main_arg3 (by decide)).trans (W9_arg3 m ρ c)
theorem W10_arg4 (c : Dev nD) : W10 m ρ c (Proc.devRef .tc main_arg4) = m ((c.tc : Thread nD τ).loc main_arg4) :=
  (W10_of_ne m ρ c main_arg4 (by decide)).trans (W9_arg4 m ρ c)
theorem W10_arg5 (c : Dev nD) : W10 m ρ c (Proc.devRef .tc main_arg5) = m ((c.tc : Thread nD τ).loc main_arg5) :=
  (W10_of_ne m ρ c main_arg5 (by decide)).trans (W9_arg5 m ρ c)
theorem W10_arg6 (c : Dev nD) : W10 m ρ c (Proc.devRef .tc main_arg6) = m ((c.tc : Thread nD τ).loc main_arg6) :=
  (W10_of_ne m ρ c main_arg6 (by decide)).trans (W9_arg6 m ρ c)
theorem W10_arg7 (c : Dev nD) : W10 m ρ c (Proc.devRef .tc main_arg7) = m ((c.tc : Thread nD τ).loc main_arg7) :=
  (W10_of_ne m ρ c main_arg7 (by decide)).trans (W9_arg7 m ρ c)
theorem W10_arg8 (c : Dev nD) : W10 m ρ c (Proc.devRef .tc main_arg8) = m ((c.tc : Thread nD τ).loc main_arg8) :=
  (W10_of_ne m ρ c main_arg8 (by decide)).trans (W9_arg8 m ρ c)

/-! After the sixth host stretch. -/
theorem W11_arg0 (c : Dev nD) : W11 m ρ c (Proc.devRef .tc main_arg0) = m ((c.tc : Thread nD τ).loc main_arg0) :=
  (keptBy_hostOps5 (W10 m ρ c) main_arg0 (by decide)).trans (W10_arg0 m ρ c)
theorem W11_arg1 (c : Dev nD) : W11 m ρ c (Proc.devRef .tc main_arg1) = m ((c.tc : Thread nD τ).loc main_arg1) :=
  (keptBy_hostOps5 (W10 m ρ c) main_arg1 (by decide)).trans (W10_arg1 m ρ c)
theorem W11_arg2 (c : Dev nD) : W11 m ρ c (Proc.devRef .tc main_arg2) = m ((c.tc : Thread nD τ).loc main_arg2) :=
  (keptBy_hostOps5 (W10 m ρ c) main_arg2 (by decide)).trans (W10_arg2 m ρ c)
theorem W11_arg3 (c : Dev nD) : W11 m ρ c (Proc.devRef .tc main_arg3) = m ((c.tc : Thread nD τ).loc main_arg3) :=
  (keptBy_hostOps5 (W10 m ρ c) main_arg3 (by decide)).trans (W10_arg3 m ρ c)
theorem W11_arg4 (c : Dev nD) : W11 m ρ c (Proc.devRef .tc main_arg4) = m ((c.tc : Thread nD τ).loc main_arg4) :=
  (keptBy_hostOps5 (W10 m ρ c) main_arg4 (by decide)).trans (W10_arg4 m ρ c)
theorem W11_arg5 (c : Dev nD) : W11 m ρ c (Proc.devRef .tc main_arg5) = m ((c.tc : Thread nD τ).loc main_arg5) :=
  (keptBy_hostOps5 (W10 m ρ c) main_arg5 (by decide)).trans (W10_arg5 m ρ c)
theorem W11_arg6 (c : Dev nD) : W11 m ρ c (Proc.devRef .tc main_arg6) = m ((c.tc : Thread nD τ).loc main_arg6) :=
  (keptBy_hostOps5 (W10 m ρ c) main_arg6 (by decide)).trans (W10_arg6 m ρ c)
theorem W11_arg7 (c : Dev nD) : W11 m ρ c (Proc.devRef .tc main_arg7) = m ((c.tc : Thread nD τ).loc main_arg7) :=
  (keptBy_hostOps5 (W10 m ρ c) main_arg7 (by decide)).trans (W10_arg7 m ρ c)
theorem W11_arg8 (c : Dev nD) : W11 m ρ c (Proc.devRef .tc main_arg8) = m ((c.tc : Thread nD τ).loc main_arg8) :=
  (keptBy_hostOps5 (W10 m ρ c) main_arg8 (by decide)).trans (W10_arg8 m ρ c)

end Cert.KernelIdeal.Gen

end
-- ==== Proof.KISeg.lean ====
/- The five kernel regions as segments over the thread state: each is entered from every unscoped buffer at its entry
   boundary's contents and left at its exit boundary's contents, the generator register at some state and the core
   owing nothing riding beside. A region's arrays are split out of the unscoped buffers on entry and put back at what
   the write-backs leave on exit. -/
import proofs.«403166_j89026082111548_2_alg».proof.Proof.KIBounds
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- a library lemma stated over the pinned configuration unifies with it only when unification may unfold plain
-- definitions in a metavariable's type
set_option backward.isDefEq.respectTransparency.types false in
/-- Region 0 over the thread state: entered from every unscoped buffer at `W1`, left at `W2`. Its arrays split
    out of the unscoped buffers and put back at the exit contents; the generator register into the invariant and out;
    nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with it only when unification may unfold plain
-- definitions in a metavariable's type
set_option backward.isDefEq.respectTransparency.types false in
/-- Region 1 over the thread state: entered from every unscoped buffer at `W3`, left at `W4`. Its arrays split
    out of the unscoped buffers and put back at the exit contents; the generator register into the invariant and out;
    nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with it only when unification may unfold plain
-- definitions in a metavariable's type
set_option backward.isDefEq.respectTransparency.types false in
/-- Region 2 over the thread state: entered from every unscoped buffer at `W5`, left at `W6`. Its arrays split
    out of the unscoped buffers and put back at the exit contents; the generator register into the invariant and out;
    nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with it only when unification may unfold plain
-- definitions in a metavariable's type
set_option backward.isDefEq.respectTransparency.types false in
/-- Region 3 over the thread state: entered from every unscoped buffer at `W7`, left at `W8`. Its arrays split
    out of the unscoped buffers and put back at the exit contents; the generator register into the invariant and out;
    nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with it only when unification may unfold plain
-- definitions in a metavariable's type
set_option backward.isDefEq.respectTransparency.types false in
/-- Region 4 over the thread state: entered from every unscoped buffer at `W9`, left at `W10`. Its arrays split
    out of the unscoped buffers and put back at the exit contents; the generator register and the scoped buffers no
    window stages (the scratch accumulator among them) into the invariant before the first point and out of the one
    after the last; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = (dat4 (V9 m ρ) c).Φ 0 from rfl]
    iintro ⟨Hp, -, Hr⟩
    iapply hin4 (V9 m ρ) c
    isplitl [Hp]; · iexact Hp
    iexact Hr
  hout c := by
    rw [Pipeline.ownSems0_none, show (pdats m ρ 4 c).Φ (Fin.last _) = (dat4 (V9 m ρ) c).Φ (Fin.last cfg4.N) from rfl]
    iintro H
    ihave H2 := hout4 (V9 m ρ) c $$ H
    icases H2 with ⟨Hp, Hr⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KIRun.lean ====
/- The program's run on the TensorCores, item by item: its six stretches of host operations and five kernel regions as
   a list of segments whose thread states chain (each item is entered from what the one before left: every unscoped
   buffer at the boundary's contents, the generator register at some state, nothing owed), and the launch over that
   list: every weakly fair execution terminates and every final memory holds each unscoped buffer at the last
   boundary's contents. -/
import proofs.«403166_j89026082111548_2_alg».proof.Proof.KISeg
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## No host operation allocates -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor
theorem hostOps5_fresh : (hostOps5 : List (HloOp τ sig (Elt F))).Forall fun op => op.fresh = ∅ := by
  simp only [List.Forall]; repeat' constructor

variable (m : (ℓ : Loc nD τ sig) → Buf (Elt F) ℓ) (ρ : Dev nD → PrngReg)

/-! ## The program as segments, and the launch -/

/-- The program's eleven items in order: a host segment per stretch from its boundary's contents, a region per
    kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)) ]

/-- The last stretch's exit is the last thread state beside the core owing nothing: the separating conjunction
    re-associated. -/
theorem last_chain (c : Dev nD) :
    (iprop(StableHlo.held (c : Thread nD τ) (Pipeline.ucRefs τ sig) (W11 m ρ c) ∗ R c) : sProp 𝕄)
      ⊢ iprop(Tₙ m ρ c ∗ ∃ W, owes (c : Thread nD τ) (0 : CellTallies nD τ sig Unit) W) := by
  iintro ⟨Hh, Hp, HO⟩
  isplitl [Hh Hp]
  · isplitl [Hh] <;> iassumption
  iexact HO

/-- The program IS the run of the segments: it is the chain of its items, and the segments' run is the chain of
    their fragments, the same items. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: at the compiled mesh, from any memory with zero counters, every weakly fair execution of the program on
    the TensorCores terminates, nothing faulting, and every final memory holds every unscoped buffer at the last
    boundary's contents `W11`: the launch over the segments, whose thread states chain by construction (the last
    by associating the separating conjunction), the last thread state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl,
      fun _ => .rfl, fun _ => .rfl, fun _ => .rfl, fun _ => .rfl, fun _ => .rfl,
      fun c => last_chain m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c b hb => h c b hb)

end Cert.KernelIdeal.Gen

end
-- ==== Proof.RefSide.lean ====
/- The reference program's run and its operations read one at a time, gathered for the modules that compare
   them with the kernel's stages. -/
import proofs.«403166_j89026082111548_2_alg».proof.Proof.Gen.ReferenceIdeal.Run
import proofs.«403166_j89026082111548_2_alg».proof.Proof.Gen.ReferenceIdeal.Read
-- ==== Proof.KIChainA.lean ====
/- The kernel program's first stretch of host operations, read against the reference's: the edge lists, the degree
   normalisation and the per-edge weights are computed by the same operations in both programs, so their values are the
   reference's stages of the same name; the feature array is only re-laid as 160000 rows. And what later items find of all
   this: no later item writes these buffers. -/
import proofs.«403166_j89026082111548_2_alg».proof.Proof.KIBounds
import proofs.«403166_j89026082111548_2_alg».proof.Proof.KIArgs
import proofs.«403166_j89026082111548_2_alg».proof.Proof.RefSide
import Idealize.ShloMosaic.Lib.ValueIdx
import Idealize.ShloMosaic.Lib.Pipeline.Value
import Idealize.ShloMosaic.Lib.StableHlo.Run
import Idealize.ShloMosaic.PureOps.Ideal.Laws

set_option maxRecDepth 16384

noncomputable section

namespace Cert.KernelIdeal.Val

open Idealize.ShloMosaic Idealize.ShloMosaic.TcCoe Idealize.SL.Sem
open Cert.KernelIdeal Cert.KernelIdeal.Gen
open Idealize.ShloMosaic.Pipeline (Dat)

variable (m : (ℓ : Loc nD τ sig) → Buf (Elt Ideal) ℓ) (ρ : Dev nD → PrngReg)

/-- The program's nine arguments on core `c`, as launched. -/
abbrev a0 (c : Dev nD) := m ((c.tc : Thread nD τ).loc main_arg0)
abbrev a1 (c : Dev nD) := m ((c.tc : Thread nD τ).loc main_arg1)
abbrev a2 (c : Dev nD) := m ((c.tc : Thread nD τ).loc main_arg2)
abbrev a3 (c : Dev nD) := m ((c.tc : Thread nD τ).loc main_arg3)
abbrev a4 (c : Dev nD) := m ((c.tc : Thread nD τ).loc main_arg4)
abbrev a5 (c : Dev nD) := m ((c.tc : Thread nD τ).loc main_arg5)
abbrev a6 (c : Dev nD) := m ((c.tc : Thread nD τ).loc main_arg6)
abbrev a7 (c : Dev nD) := m ((c.tc : Thread nD τ).loc main_arg7)
abbrev a8 (c : Dev nD) := m ((c.tc : Thread nD τ).loc main_arg8)

/-! ## The first stretch: source and target lists, per-edge weight, self-loop weight, the features as rows -/

/-- The source list. -/
theorem V1_v1 (c : Dev nD) : V1 m ρ c main_v1 = Cert.ReferenceIdeal.Read.val_main_v1 (F := Ideal) (a2 m c) := by
  show StableHlo.after hostOps0 (W0 m ρ c) (Proc.devRef .tc main_v1) = _
  after_results_simp
  rfl

/-- The target list. -/
theorem V1_v3 (c : Dev nD) : V1 m ρ c main_v3 = Cert.ReferenceIdeal.Read.val_main_v3 (F := Ideal) (a2 m c) := by
  show StableHlo.after hostOps0 (W0 m ρ c) (Proc.devRef .tc main_v3) = _
  after_results_simp
  rfl
/-- The per-edge weight. -/
theorem V1_v28 (c : Dev nD) : V1 m ρ c main_v28 = Cert.ReferenceIdeal.Read.val_main_v28 (F := Ideal) (a2 m c) := by
  show StableHlo.after hostOps0 (W0 m ρ c) (Proc.devRef .tc main_v28) = _
  after_results_simp
  rfl
/-- The self-loop weight as a vector. -/
theorem V1_v29 (c : Dev nD) : V1 m ρ c main_v29 = Cert.ReferenceIdeal.Read.val_main_v29 (F := Ideal) (a2 m c) := by
  show StableHlo.after hostOps0 (W0 m ρ c) (Proc.devRef .tc main_v29) = _
  after_results_simp
  rfl
/-- The self-loop weight as a column: the vector re-laid. -/
theorem V1_v30_eq (c : Dev nD) :
    V1 m ρ c main_v30 = shapeCast S20000x1 (Cert.ReferenceIdeal.Read.val_main_v29 (F := Ideal) (a2 m c)) shapeCasts_S20000_S20000x1 := by
  show StableHlo.after hostOps0 (W0 m ρ c) (Proc.devRef .tc main_v30) = _
  after_results_simp
  rfl
/-- The self-loop weight as a column: the reference's vector of the same values. -/
theorem V1_v30 (c : Dev nD) (i : S20000x1.Idx) :
    (V1 m ρ c main_v30 : S20000x1.Idx → EReal) i = Cert.ReferenceIdeal.Read.val_main_v29 (F := Ideal) (a2 m c) (fun a => match a with | ⟨0, _⟩ => ⟨(i 0).val, (i 0).isLt⟩) := by
  rw [V1_v30_eq]
  exact shapeCast_apply _ shapeCasts_S20000_S20000x1 i _
    (by rewrite [Shape.rowMajor_val_one, Shape.rowMajor_val_two]
        have h1 : (i 1).val < 1 := (i 1).isLt
        show (i 0).val = (i 0).val * 1 + (i 1).val
        omega)
/-- The features as 160000 rows: the argument re-laid. -/
theorem V1_v31_eq (c : Dev nD) :
    V1 m ρ c main_v31 = shapeCast S160000x128 (a0 m c) shapeCasts_S8x20000x128_S160000x128 := by
  show StableHlo.after hostOps0 (W0 m ρ c) (Proc.devRef .tc main_v31) = _
  after_results_simp
  rfl
/-- The features as 160000 rows: row `r` is batch element `r / 20000`, node `r % 20000`. -/
theorem V1_v31 (c : Dev nD) (i : S160000x128.Idx) :
    (V1 m ρ c main_v31 : S160000x128.Idx → EReal) i = (a0 m c : S8x20000x128.Idx → EReal) (fun a => match a with
      | ⟨0, _⟩ => ⟨(i 0).val / 20000, by have h0 : (i 0).val < 160000 := (i 0).isLt; show (i 0).val / 20000 < 8; omega⟩
      | ⟨1, _⟩ => ⟨(i 0).val % 20000, by show (i 0).val % 20000 < 20000; omega⟩
      | ⟨2, _⟩ => ⟨(i 1).val, (i 1).isLt⟩) := by
  rw [V1_v31_eq]
  exact shapeCast_apply _ shapeCasts_S8x20000x128_S160000x128 i _
    (by rewrite [Shape.rowMajor_val_three, Shape.rowMajor_val_two]
        show ((i 0).val / 20000 * 20000 + (i 0).val % 20000) * 128 + (i 1).val = (i 0).val * 128 + (i 1).val
        rw [Nat.div_add_mod' (i 0).val 20000])

/-! ## Later items keep them

No region's write-back lands in these buffers (region 1 and region 3 read the self-loop column as an input window),
and no later host operation writes them. -/

/-! At region 0's exit. -/
theorem V2_v1 (c : Dev nD) : V2 m ρ c main_v1 = Cert.ReferenceIdeal.Read.val_main_v1 (F := Ideal) (a2 m c) :=
  (W2_of_ne m ρ c main_v1 (by decide)).trans (V1_v1 m ρ c)
theorem V2_v3 (c : Dev nD) : V2 m ρ c main_v3 = Cert.ReferenceIdeal.Read.val_main_v3 (F := Ideal) (a2 m c) :=
  (W2_of_ne m ρ c main_v3 (by decide)).trans (V1_v3 m ρ c)
theorem V2_v28 (c : Dev nD) : V2 m ρ c main_v28 = Cert.ReferenceIdeal.Read.val_main_v28 (F := Ideal) (a2 m c) :=
  (W2_of_ne m ρ c main_v28 (by decide)).trans (V1_v28 m ρ c)
theorem V2_v30_eq (c : Dev nD) : V2 m ρ c main_v30 = V1 m ρ c main_v30 :=
  W2_of_ne m ρ c main_v30 (by decide)

/-! At region 1's entry. -/
theorem V3_v1 (c : Dev nD) : V3 m ρ c main_v1 = Cert.ReferenceIdeal.Read.val_main_v1 (F := Ideal) (a2 m c) :=
  (keptBy_hostOps1 (W2 m ρ c) main_v1 (by decide)).trans (V2_v1 m ρ c)
theorem V3_v3 (c : Dev nD) : V3 m ρ c main_v3 = Cert.ReferenceIdeal.Read.val_main_v3 (F := Ideal) (a2 m c) :=
  (keptBy_hostOps1 (W2 m ρ c) main_v3 (by decide)).trans (V2_v3 m ρ c)
theorem V3_v28 (c : Dev nD) : V3 m ρ c main_v28 = Cert.ReferenceIdeal.Read.val_main_v28 (F := Ideal) (a2 m c) :=
  (keptBy_hostOps1 (W2 m ρ c) main_v28 (by decide)).trans (V2_v28 m ρ c)
theorem V3_v30_eq (c : Dev nD) : V3 m ρ c main_v30 = V1 m ρ c main_v30 :=
  (keptBy_hostOps1 (W2 m ρ c) main_v30 (by decide)).trans (V2_v30_eq m ρ c)
theorem V3_v30 (c : Dev nD) (i : S20000x1.Idx) :
    (V3 m ρ c main_v30 : S20000x1.Idx → EReal) i = Cert.ReferenceIdeal.Read.val_main_v29 (F := Ideal) (a2 m c) (fun a => match a with | ⟨0, _⟩ => ⟨(i 0).val, (i 0).isLt⟩) := by
  rw [V3_v30_eq]; exact V1_v30 m ρ c i

/-! At region 1's exit. -/
theorem V4_v1 (c : Dev nD) : V4 m ρ c main_v1 = Cert.ReferenceIdeal.Read.val_main_v1 (F := Ideal) (a2 m c) :=
  (W4_of_ne m ρ c main_v1 (by decide)).trans (V3_v1 m ρ c)
theorem V4_v3 (c : Dev nD) : V4 m ρ c main_v3 = Cert.ReferenceIdeal.Read.val_main_v3 (F := Ideal) (a2 m c) :=
  (W4_of_ne m ρ c main_v3 (by decide)).trans (V3_v3 m ρ c)
theorem V4_v28 (c : Dev nD) : V4 m ρ c main_v28 = Cert.ReferenceIdeal.Read.val_main_v28 (F := Ideal) (a2 m c) :=
  (W4_of_ne m ρ c main_v28 (by decide)).trans (V3_v28 m ρ c)
theorem V4_v30_eq (c : Dev nD) : V4 m ρ c main_v30 = V1 m ρ c main_v30 :=
  (W4_in m ρ c 2 rfl).trans (V3_v30_eq m ρ c)

/-! At region 2's entry. -/
theorem V5_v1 (c : Dev nD) : V5 m ρ c main_v1 = Cert.ReferenceIdeal.Read.val_main_v1 (F := Ideal) (a2 m c) :=
  (keptBy_hostOps2 (W4 m ρ c) main_v1 (by decide)).trans (V4_v1 m ρ c)
theorem V5_v3 (c : Dev nD) : V5 m ρ c main_v3 = Cert.ReferenceIdeal.Read.val_main_v3 (F := Ideal) (a2 m c) :=
  (keptBy_hostOps2 (W4 m ρ c) main_v3 (by decide)).trans (V4_v3 m ρ c)
theorem V5_v28 (c : Dev nD) : V5 m ρ c main_v28 = Cert.ReferenceIdeal.Read.val_main_v28 (F := Ideal) (a2 m c) :=
  (keptBy_hostOps2 (W4 m ρ c) main_v28 (by decide)).trans (V4_v28 m ρ c)
theorem V5_v30_eq (c : Dev nD) : V5 m ρ c main_v30 = V1 m ρ c main_v30 :=
  (keptBy_hostOps2 (W4 m ρ c) main_v30 (by decide)).trans (V4_v30_eq m ρ c)

/-! At region 2's exit. -/
theorem V6_v1 (c : Dev nD) : V6 m ρ c main_v1 = Cert.ReferenceIdeal.Read.val_main_v1 (F := Ideal) (a2 m c) :=
  (W6_of_ne m ρ c main_v1 (by decide)).trans (V5_v1 m ρ c)
theorem V6_v3 (c : Dev nD) : V6 m ρ c main_v3 = Cert.ReferenceIdeal.Read.val_main_v3 (F := Ideal) (a2 m c) :=
  (W6_of_ne m ρ c main_v3 (by decide)).trans (V5_v3 m ρ c)
theorem V6_v28 (c : Dev nD) : V6 m ρ c main_v28 = Cert.ReferenceIdeal.Read.val_main_v28 (F := Ideal) (a2 m c) :=
  (W6_of_ne m ρ c main_v28 (by decide)).trans (V5_v28 m ρ c)
theorem V6_v30_eq (c : Dev nD) : V6 m ρ c main_v30 = V1 m ρ c main_v30 :=
  (W6_of_ne m ρ c main_v30 (by decide)).trans (V5_v30_eq m ρ c)

/-! At region 3's entry. -/
theorem V7_v1 (c : Dev nD) : V7 m ρ c main_v1 = Cert.ReferenceIdeal.Read.val_main_v1 (F := Ideal) (a2 m c) :=
  (keptBy_hostOps3 (W6 m ρ c) main_v1 (by decide)).trans (V6_v1 m ρ c)
theorem V7_v3 (c : Dev nD) : V7 m ρ c main_v3 = Cert.ReferenceIdeal.Read.val_main_v3 (F := Ideal) (a2 m c) :=
  (keptBy_hostOps3 (W6 m ρ c) main_v3 (by decide)).trans (V6_v3 m ρ c)
theorem V7_v28 (c : Dev nD) : V7 m ρ c main_v28 = Cert.ReferenceIdeal.Read.val_main_v28 (F := Ideal) (a2 m c) :=
  (keptBy_hostOps3 (W6 m ρ c) main_v28 (by decide)).trans (V6_v28 m ρ c)
theorem V7_v30_eq (c : Dev nD) : V7 m ρ c main_v30 = V1 m ρ c main_v30 :=
  (keptBy_hostOps3 (W6 m ρ c) main_v30 (by decide)).trans (V6_v30_eq m ρ c)
theorem V7_v30 (c : Dev nD) (i : S20000x1.Idx) :
    (V7 m ρ c main_v30 : S20000x1.Idx → EReal) i = Cert.ReferenceIdeal.Read.val_main_v29 (F := Ideal) (a2 m c) (fun a => match a with | ⟨0, _⟩ => ⟨(i 0).val, (i 0).isLt⟩) := by
  rw [V7_v30_eq]; exact V1_v30 m ρ c i

end Cert.KernelIdeal.Val

end
-- ==== Proof.KIVal0.lean ====
/- What region 0 (the projection `h · W`, block by block of 20000 rows) leaves in its whole output array, over the
   extended reals: entry (r, o) is the sum over k of h(r, k) * W(k, o), whichever block r lies in. -/
import proofs.«403166_j89026082111548_2_alg».proof.Proof.KIProj0
import Idealize.ShloMosaic.Lib.ValueIdx
import Idealize.ShloMosaic.Lib.Pipeline.Value
import Idealize.ShloMosaic.PureOps.Ideal.Laws

set_option maxRecDepth 16384

noncomputable section

namespace Cert.KernelIdeal.Val

open Idealize.ShloMosaic Idealize.ShloMosaic.TcCoe Idealize.SL.Sem
open Cert.KernelIdeal Cert.KernelIdeal.Gen
open Idealize.ShloMosaic.Pipeline (Dat)

variable (V : (c : Dev nD) → (b : Ref sig .tc) → Buf (Elt Ideal) ((c : Thread nD τ).loc b))

/-- Row `i 0`, column `k` of the feature matrix. -/
abbrev lrow0 (i : S160000x64.Idx) (k : Fin 128) : S160000x128.Idx := fun a => match a with
  | ⟨0, _⟩ => ⟨(i 0).val, (i 0).isLt⟩
  | ⟨1, _⟩ => ⟨k.val, k.isLt⟩
/-- Row `k`, column `i 1` of the weight matrix. -/
abbrev rcol0 (i : S160000x64.Idx) (k : Fin 128) : S128x64.Idx := fun a => match a with
  | ⟨0, _⟩ => ⟨k.val, k.isLt⟩
  | ⟨1, _⟩ => ⟨(i 1).val, (i 1).isLt⟩

/-! ## The body's product at an index of the block -/

/-- Both offsets of a whole-block rectangle are zero. -/
theorem zero_off0 : (![0, 0] : Fin 2 → Nat) = fun _ => 0 := funext fun a => by fin_cases a <;> rfl

/-- The left operand's row is the output's row, -/
theorem lhs_proj0_0 (j : S20000x64.Idx) (q : dot_S20000x128_S128x64_S20000x64_1_0_0_1_n_n.contr.Idx) :
    (dot_S20000x128_S128x64_S20000x64_1_0_0_1_n_n.lhsIdx j q 0).val = (j 0).val := by
  unfold DotDims.lhsIdx
  rw [dif_neg (show ¬(0 : Fin S20000x128.rank) ∈ dot_S20000x128_S128x64_S20000x64_1_0_0_1_n_n.lhsBatch by decide), dif_pos (show (0 : Fin S20000x128.rank) ∈ dot_S20000x128_S128x64_S20000x64_1_0_0_1_n_n.lhsNonContracting by decide)]
  rfl
/-- its column the contracted index; -/
theorem lhs_proj0_1 (j : S20000x64.Idx) (q : dot_S20000x128_S128x64_S20000x64_1_0_0_1_n_n.contr.Idx) :
    (dot_S20000x128_S128x64_S20000x64_1_0_0_1_n_n.lhsIdx j q 1).val = (q ⟨0, by decide⟩).val :=
  dot_S20000x128_S128x64_S20000x64_1_0_0_1_n_n.lhsIdx_val_of_single rfl j q
/-- the right operand's row is the contracted index, -/
theorem rhs_proj0_0 (j : S20000x64.Idx) (q : dot_S20000x128_S128x64_S20000x64_1_0_0_1_n_n.contr.Idx) :
    (dot_S20000x128_S128x64_S20000x64_1_0_0_1_n_n.rhsIdx j q 0).val = (q ⟨0, by decide⟩).val :=
  dot_S20000x128_S128x64_S20000x64_1_0_0_1_n_n.rhsIdx_val_of_single rfl j q
/-- its column the output's column. -/
theorem rhs_proj0_1 (j : S20000x64.Idx) (q : dot_S20000x128_S128x64_S20000x64_1_0_0_1_n_n.contr.Idx) :
    (dot_S20000x128_S128x64_S20000x64_1_0_0_1_n_n.rhsIdx j q 1).val = (j 1).val := by
  unfold DotDims.rhsIdx
  rw [dif_neg (show ¬(1 : Fin S128x64.rank) ∈ dot_S20000x128_S128x64_S20000x64_1_0_0_1_n_n.rhsBatch by decide), dif_pos (show (1 : Fin S128x64.rank) ∈ dot_S20000x128_S128x64_S20000x64_1_0_0_1_n_n.rhsNonContracting by decide)]
  rfl

/-- Row `j 0`, column `k` of the feature block. -/
abbrev lblk0 (j : S20000x64.Idx) (k : Fin 128) : S20000x128.Idx := fun a => match a with
  | ⟨0, _⟩ => ⟨(j 0).val, (j 0).isLt⟩
  | ⟨1, _⟩ => ⟨k.val, k.isLt⟩
/-- Row `k`, column `j 1` of the weight matrix as staged. -/
abbrev rblk0 (j : S20000x64.Idx) (k : Fin 128) : S128x64.Idx := fun a => match a with
  | ⟨0, _⟩ => ⟨k.val, k.isLt⟩
  | ⟨1, _⟩ => ⟨(j 1).val, (j 1).isLt⟩

/-- The body's matrix product into a zero accumulator, entry by entry: the sum over the 128 shared indices. -/
theorem pay0_apply (x0 : Vec Ideal S20000x128 .f32) (x1 : Vec Ideal S128x64 .f32) (j : S20000x64.Idx) :
    (k0_pay1 (F := Ideal) x0 x1 : S20000x64.Idx → EReal) j
      = ∑ k : Fin 128, (x0 : S20000x128.Idx → EReal) (lblk0 j k) * (x1 : S128x64.Idx → EReal) (rblk0 j k) := by
  unfold k0_pay1
  rw [shapeCast_self]
  refine (Ideal.matmul_constant_zero_apply dot_S20000x128_S128x64_S20000x64_1_0_0_1_n_n none x0 x1 j).trans ?_
  rw [← Equiv.sum_comp (ValueIdx.contrEquiv1 dot_S20000x128_S128x64_S20000x64_1_0_0_1_n_n 128 rfl rfl).symm]
  refine Finset.sum_congr rfl fun k _ => ?_
  have hk := ValueIdx.contrEquiv1_symm_val dot_S20000x128_S128x64_S20000x64_1_0_0_1_n_n 128 rfl rfl k
  have el : dot_S20000x128_S128x64_S20000x64_1_0_0_1_n_n.lhsIdx j ((ValueIdx.contrEquiv1 dot_S20000x128_S128x64_S20000x64_1_0_0_1_n_n 128 rfl rfl).symm k) = lblk0 j k := funext fun a => Fin.ext (by
    match a with
    | ⟨0, _⟩ => exact lhs_proj0_0 _ _
    | ⟨1, _⟩ => exact (lhs_proj0_1 _ _).trans hk)
  have er : dot_S20000x128_S128x64_S20000x64_1_0_0_1_n_n.rhsIdx j ((ValueIdx.contrEquiv1 dot_S20000x128_S128x64_S20000x64_1_0_0_1_n_n 128 rfl rfl).symm k) = rblk0 j k := funext fun a => Fin.ext (by
    match a with
    | ⟨0, _⟩ => exact (rhs_proj0_0 _ _).trans hk
    | ⟨1, _⟩ => exact rhs_proj0_1 _ _)
  rw [el, er]

/-! ## From the blocks to the array -/

/-- The product of the whole feature array by the weight matrix, entry by entry. -/
abbrev proj0 (a0 : S160000x128.Idx → EReal) (a1 : S128x64.Idx → EReal) : S160000x64.Idx → EReal :=
  fun i => ∑ k : Fin 128, a0 (lrow0 i k) * a1 (rcol0 i k)

/-- The index maps, decided over the grid: point `t` takes row block `t` of the features and of the output, and the one
    block of the weights. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product. -/
theorem flushed0_eq (c : Dev nD) (t : Fin cfg0.N) :
    (dat0 (F := Ideal) V c).flushed 2 t = ((cfg0.win 2).blk t).view.read (Elt Ideal) (proj0 (V c main_v31) (V c main_arg3)) := by
  show (cfg0.win 2).cut (grid0.coords t) ((dat0 (F := Ideal) V c).after 2 t) = _
  rw [after0_2]
  unfold out0_2
  rw [View.canon_unit_zero zero_off0]
  simp only [View.ld_unit_zero (S := S20000x128) zero_off0, View.ld_unit_zero (S := S128x64) zero_off0]
  obtain ⟨e0, e1, e2, e3, e4, e5⟩ := idx_facts0 t
  funext j
  show (k0_pay1 (F := Ideal) (iblk0 V c 0 t) (iblk0 V c 1 t) : S20000x64.Idx → EReal) j
    = proj0 (V c main_v31) (V c main_arg3) (((cfg0.win 2).blk t).view.emb j)
  refine (pay0_apply _ _ j).trans (Finset.sum_congr rfl fun k _ => ?_)
  have h0 : ((cfg0.win 0).blk t).view.emb (lblk0 j k) = lrow0 (((cfg0.win 2).blk t).view.emb j) k := by
    funext a; apply Fin.ext
    match a with
    | ⟨0, _⟩ => show win0_0.index t (0 : Fin 2) * 20000 + 1 * (j 0).val = win0_2.index t (0 : Fin 2) * 20000 + 1 * (j 0).val; omega
    | ⟨1, _⟩ => show win0_0.index t (1 : Fin 2) * 128 + 1 * k.val = k.val; omega
  have h1 : ((cfg0.win 1).blk t).view.emb (rblk0 j k) = rcol0 (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega
  have hx : iblk0 V c 0 t (lblk0 j k) = V c main_v31 (lrow0 (((cfg0.win 2).blk t).view.emb j) k) :=
    congrArg (V c main_v31) h0
  have hy : iblk0 V c 1 t (rblk0 j k) = V c main_arg3 (rcol0 (((cfg0.win 2).blk t).view.emb j) k) :=
    congrArg (V c main_arg3) h1
  rw [hx, hy]

/-- An index of the output array is in point `t`'s block iff each coordinate is in the block's range on its axis. -/
theorem mem_blk0 (t : Fin cfg0.N) (i : S160000x64.Idx) :
    i ∈ ((cfg0.win 2).blk t).view.set ↔ ∀ a : Fin 2, win0_2.index t a * S20000x64.size a ≤ (i a).val ∧ (i a).val < win0_2.index t a * S20000x64.size a + S20000x64.size a := by
  show i ∈ ((View.whole main_v32).slice (win0_2.rect t)).set ↔ _
  rw [View.set_slice_whole, Rect.mem_set_unit]
  exact Iff.rfl

/-- Row `r` is in the block of point `r / 20000`. -/
theorem cover0 (i : S160000x64.Idx) : ∃ t : Fin cfg0.N, (cfg0.win 2).flush t = true ∧ i ∈ ((cfg0.win 2).blk t).view.set := by
  have hi0 : (i 0).val < 160000 := (i 0).isLt
  have hi1 : (i 1).val < 64 := (i 1).isLt
  have hN : cfg0.N = 8 := N_0
  obtain ⟨t, ht⟩ : ∃ t : Fin cfg0.N, t.val = (i 0).val / 20000 := ⟨⟨(i 0).val / 20000, by omega⟩, rfl⟩
  obtain ⟨-, -, -, -, e4, e5⟩ := idx_facts0 t
  refine ⟨t, flush0_2 t, ?_⟩
  rw [mem_blk0]
  intro a
  match a with
  | ⟨0, _⟩ => show win0_2.index t (0 : Fin 2) * 20000 ≤ (i 0).val ∧ (i 0).val < win0_2.index t (0 : Fin 2) * 20000 + 20000; omega
  | ⟨1, _⟩ => show win0_2.index t (1 : Fin 2) * 64 ≤ (i 1).val ∧ (i 1).val < win0_2.index t (1 : Fin 2) * 64 + 64; omega

/-- The output array after the region, entry by entry. -/
theorem out0_apply (c : Dev nD) (i : S160000x64.Idx) :
    ((dat0 (F := Ideal) V c).arrAt 2 cfg0.N : S160000x64.Idx → EReal) i
      = proj0 (V c main_v31) (V c main_arg3) i :=
  congrFun ((dat0 (F := Ideal) V c).arrAt_eq_of_cover 2 (proj0 (V c main_v31) (V c main_arg3)) (fun t _ => flushed0_eq V c t) cover0) i

end Cert.KernelIdeal.Val

end
-- ==== Proof.KIVal1.lean ====
/- What region 1 (the combine step, block by block of 20000 rows) leaves in its whole output array, over the
   extended reals: entry (r, o) is max (agg(r, o) + hw(r, o) * selfnorm(r mod 20000) + bias(o)) 0. -/
import proofs.«403166_j89026082111548_2_alg».proof.Proof.KIComb1
import Idealize.ShloMosaic.Lib.ValueIdx
import Idealize.ShloMosaic.Lib.Pipeline.Value
import Idealize.ShloMosaic.PureOps.Ideal.Laws

set_option maxRecDepth 16384

noncomputable section

namespace Cert.KernelIdeal.Val

open Idealize.ShloMosaic Idealize.ShloMosaic.TcCoe Idealize.SL.Sem
open Cert.KernelIdeal Cert.KernelIdeal.Gen
open Idealize.ShloMosaic.Pipeline (Dat)

variable (V : (c : Dev nD) → (b : Ref sig .tc) → Buf (Elt Ideal) ((c : Thread nD τ).loc b))

/-- The self-loop weight's entry for row `i 0`: the node index is the row modulo the 20000 nodes of a batch element. -/
abbrev snode1 (i : S160000x64.Idx) : S20000x1.Idx := fun a => match a with
  | ⟨0, _⟩ => ⟨(i 0).val % 20000, Nat.mod_lt _ (by decide)⟩
  | ⟨1, _⟩ => ⟨0, Nat.zero_lt_one⟩
/-- The bias' entry for column `i 1`. -/
abbrev bcol1 (i : S160000x64.Idx) : S1x64.Idx := fun a => match a with
  | ⟨0, _⟩ => ⟨0, Nat.zero_lt_one⟩
  | ⟨1, _⟩ => ⟨(i 1).val, (i 1).isLt⟩

/-- The zero offsets of a whole block, however spelt. -/
theorem zoff1 : (![0, 0] : Fin 2 → Nat) = fun _ => 0 := funext fun a => by fin_cases a <;> rfl

/-- Inside a block: the self-loop column's entry for in-block row `j 0`, -/
abbrev prow1 (j : S20000x64.Idx) : S20000x1.Idx := fun a => match a with
  | ⟨0, _⟩ => ⟨(j 0).val, (j 0).isLt⟩
  | ⟨1, _⟩ => ⟨0, Nat.zero_lt_one⟩
/-- and the bias row's entry for column `j 1`. -/
abbrev pcol1 (j : S20000x64.Idx) : S1x64.Idx := fun a => match a with
  | ⟨0, _⟩ => ⟨0, Nat.zero_lt_one⟩
  | ⟨1, _⟩ => ⟨(j 1).val, (j 1).isLt⟩

/-- The body's payload at an index of the block: the column is broadcast along the features, the row along the nodes. -/
theorem pay1_apply (x0 x1 : Vec Ideal S20000x64 .f32) (x2 : Vec Ideal S20000x1 .f32) (x3 : Vec Ideal S1x64 .f32) (j : S20000x64.Idx) :
    k1_pay1 (F := Ideal) x0 x1 x2 x3 j
      = FloatOps.maximumf (F := Ideal) (φ := .f32)
          (FloatOps.addf (F := Ideal) (φ := .f32)
            (FloatOps.addf (F := Ideal) (φ := .f32) (x0 j) (FloatOps.mulf (F := Ideal) (φ := .f32) (x1 j) (x2 (prow1 j))))
            (x3 (pcol1 j)))
          (FloatOps.ofBits (F := Ideal) .f32 0x00000000#32) := by
  have e2 : broadcastTo S20000x64 (shapeCast S20000x1 x2 shapeCasts_S20000x1_S20000x1) broadcasts_S20000x1_S20000x64 j = x2 (prow1 j) := by
    rw [shapeCast_self]
    exact broadcastTo_apply x2 _ j (prow1 j) (fun a => by match a with | ⟨0, _⟩ => rfl | ⟨1, _⟩ => rfl)
  have e3 : broadcastTo S20000x64 (shapeCast S1x64 x3 shapeCasts_S1x64_S1x64) broadcasts_S1x64_S20000x64 j = x3 (pcol1 j) := by
    rw [shapeCast_self]
    exact broadcastTo_apply x3 _ j (pcol1 j) (fun a => by match a with | ⟨0, _⟩ => rfl | ⟨1, _⟩ => rfl)
  unfold k1_pay1
  show FloatOps.maximumf (F := Ideal) (φ := .f32)
      (FloatOps.addf (F := Ideal) (φ := .f32)
        (FloatOps.addf (F := Ideal) (φ := .f32) (shapeCast S20000x64 x0 shapeCasts_S20000x64_S20000x64 j)
          (FloatOps.mulf (F := Ideal) (φ := .f32) (shapeCast S20000x64 x1 shapeCasts_S20000x64_S20000x64 j)
            (broadcastTo S20000x64 (shapeCast S20000x1 x2 shapeCasts_S20000x1_S20000x1) broadcasts_S20000x1_S20000x64 j)))
        (broadcastTo S20000x64 (shapeCast S1x64 x3 shapeCasts_S1x64_S1x64) broadcasts_S1x64_S20000x64 j))
      (FloatOps.ofBits (F := Ideal) .f32 0x00000000#32) = _
  rw [e2, e3, shapeCast_self, shapeCast_self]

/-- What the region computes at entry `i` of its output array, of the arrays it is entered with. -/
abbrev G1 (c : Dev nD) : S160000x64.Idx → EReal := fun i =>
  FloatOps.maximumf (F := Ideal) (φ := .f32)
    (FloatOps.addf (F := Ideal) (φ := .f32)
      (FloatOps.addf (F := Ideal) (φ := .f32) ((V c main_v52 : S160000x64.Idx → EReal) i)
        (FloatOps.mulf (F := Ideal) (φ := .f32) ((V c main_v32 : S160000x64.Idx → EReal) i) ((V c main_v30 : S20000x1.Idx → EReal) (snode1 i))))
      ((V c main_v53 : S1x64.Idx → EReal) (bcol1 i)))
    (FloatOps.ofBits (F := Ideal) .f32 0x00000000#32)

/-- The printed index maps, decided over the grid: the three row-blocked windows sit at block `(t, 0)`, the column and
    the row at block `(0, 0)`. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is block `t` of `G1`: in-block row `j 0` is row `20000 t + j 0` of the array, whose
    node index is `j 0` again. -/
theorem flushed1_eq (c : Dev nD) (t : Fin cfg1.N) :
    (dat1 (F := Ideal) V c).flushed 4 t = ((cfg1.win 4).blk t).view.read (Elt Ideal) (G1 V c) := by
  show (cfg1.win 4).cut (grid1.coords t) ((dat1 (F := Ideal) V c).after 4 t) = _
  rw [after1_4]
  unfold out1_4
  rw [View.canon_unit_zero zoff1]
  simp only [View.ld_unit_zero (S := S20000x64) zoff1, View.ld_unit_zero (S := S20000x1) zoff1, View.ld_unit_zero (S := S1x64) zoff1]
  obtain ⟨e00, e01, e10, e11, e20, e21, e30, e31, e40, e41⟩ := idx_facts1 t
  funext j
  have hj0 : (j 0).val < 20000 := (j 0).isLt
  have hj1 : (j 1).val < 64 := (j 1).isLt
  refine (pay1_apply (iblk1 (F := Ideal) V c 0 t) (iblk1 (F := Ideal) V c 1 t) (iblk1 (F := Ideal) V c 2 t) (iblk1 (F := Ideal) V c 3 t) j).trans ?_
  have h0 : ((cfg1.win 0).blk t).view.emb j = ((cfg1.win 4).blk t).view.emb j := by
    funext a; apply Fin.ext
    match a with
    | ⟨0, _⟩ => show win1_0.index t (0 : Fin 2) * 20000 + 1 * (j 0).val = win1_4.index t (0 : Fin 2) * 20000 + 1 * (j 0).val; omega
    | ⟨1, _⟩ => show win1_0.index t (1 : Fin 2) * 64 + 1 * (j 1).val = win1_4.index t (1 : Fin 2) * 64 + 1 * (j 1).val; omega
  have h1 : ((cfg1.win 1).blk t).view.emb j = ((cfg1.win 4).blk t).view.emb j := by
    funext a; apply Fin.ext
    match a with
    | ⟨0, _⟩ => show win1_1.index t (0 : Fin 2) * 20000 + 1 * (j 0).val = win1_4.index t (0 : Fin 2) * 20000 + 1 * (j 0).val; omega
    | ⟨1, _⟩ => show win1_1.index t (1 : Fin 2) * 64 + 1 * (j 1).val = win1_4.index t (1 : Fin 2) * 64 + 1 * (j 1).val; omega
  have h2 : ((cfg1.win 2).blk t).view.emb (prow1 j) = snode1 (((cfg1.win 4).blk t).view.emb j) := by
    funext a; apply Fin.ext
    match a with
    | ⟨0, _⟩ => show win1_2.index t (0 : Fin 2) * 20000 + 1 * (j 0).val = (win1_4.index t (0 : Fin 2) * 20000 + 1 * (j 0).val) % 20000; rw [e20, e40]; omega
    | ⟨1, _⟩ => show win1_2.index t (1 : Fin 2) * 1 + 1 * 0 = 0; omega
  have h3 : ((cfg1.win 3).blk t).view.emb (pcol1 j) = bcol1 (((cfg1.win 4).blk t).view.emb j) := by
    funext a; apply Fin.ext
    match a with
    | ⟨0, _⟩ => show win1_3.index t (0 : Fin 2) * 1 + 1 * 0 = 0; omega
    | ⟨1, _⟩ => show win1_3.index t (1 : Fin 2) * 64 + 1 * (j 1).val = win1_4.index t (1 : Fin 2) * 64 + 1 * (j 1).val; omega
  show FloatOps.maximumf (F := Ideal) (φ := .f32)
      (FloatOps.addf (F := Ideal) (φ := .f32)
        (FloatOps.addf (F := Ideal) (φ := .f32) ((V c main_v52 : S160000x64.Idx → EReal) (((cfg1.win 0).blk t).view.emb j))
          (FloatOps.mulf (F := Ideal) (φ := .f32) ((V c main_v32 : S160000x64.Idx → EReal) (((cfg1.win 1).blk t).view.emb j))
            ((V c main_v30 : S20000x1.Idx → EReal) (((cfg1.win 2).blk t).view.emb (prow1 j)))))
        ((V c main_v53 : S1x64.Idx → EReal) (((cfg1.win 3).blk t).view.emb (pcol1 j))))
      (FloatOps.ofBits (F := Ideal) .f32 0x00000000#32) = G1 V c (((cfg1.win 4).blk t).view.emb j)
  rw [h0, h1, h2, h3]

/-- Every block of the array's eight is some point's. -/
theorem idx_onto1 : ∀ q : Fin 8, ∃ t : Fin cfg1.N, win1_4.index t = ![q.val, 0] :=
  (by decide +kernel : ∀ q : Fin 8, ∃ t : Fin grid1.N, win1_4.index t = ![q.val, 0])

/-- An index of the array is in point `t`'s block iff each coordinate is in the block's range on its axis. -/
theorem mem_blk1 (t : Fin cfg1.N) (i : S160000x64.Idx) :
    i ∈ ((cfg1.win 4).blk t).view.set ↔ ∀ a : Fin 2, win1_4.index t a * S20000x64.size a ≤ (i a).val ∧ (i a).val < win1_4.index t a * S20000x64.size a + S20000x64.size a := by
  show i ∈ ((View.whole main_v54).slice (win1_4.rect t)).set ↔ _
  rw [View.set_slice_whole, Rect.mem_set_unit]
  exact Iff.rfl

/-- The eight blocks cover the array: row `r` lies in block `r / 20000`. -/
theorem cover1 (i : S160000x64.Idx) : ∃ t : Fin cfg1.N, (cfg1.win 4).flush t = true ∧ i ∈ ((cfg1.win 4).blk t).view.set := by
  have hi0 : (i 0).val < 160000 := (i 0).isLt
  have hi1 : (i 1).val < 64 := (i 1).isLt
  obtain ⟨t, ht⟩ := idx_onto1 ⟨(i 0).val / 20000, by omega⟩
  have q0 : win1_4.index t (0 : Fin 2) = (i 0).val / 20000 := congrFun ht 0
  have q1 : win1_4.index t (1 : Fin 2) = 0 := congrFun ht 1
  refine ⟨t, flush1_4 t, ?_⟩
  rw [mem_blk1]
  intro a
  match a with
  | ⟨0, _⟩ => show win1_4.index t (0 : Fin 2) * 20000 ≤ (i 0).val ∧ (i 0).val < win1_4.index t (0 : Fin 2) * 20000 + 20000; omega
  | ⟨1, _⟩ => show win1_4.index t (1 : Fin 2) * 64 ≤ (i 1).val ∧ (i 1).val < win1_4.index t (1 : Fin 2) * 64 + 64; omega

/-- The output array after the region is `G1`. -/
theorem final1 (c : Dev nD) : (dat1 (F := Ideal) V c).arrAt 4 cfg1.N = G1 V c :=
  (dat1 (F := Ideal) V c).arrAt_eq_of_cover 4 (G1 V c) (fun t _ => flushed1_eq V c t) cover1

/-- The output array after the region, entry by entry. -/
theorem out1_apply (c : Dev nD) (i : S160000x64.Idx) :
    ((dat1 (F := Ideal) V c).arrAt 4 cfg1.N : S160000x64.Idx → EReal) i
      = FloatOps.maximumf (F := Ideal) (φ := .f32)
          (FloatOps.addf (F := Ideal) (φ := .f32)
            (FloatOps.addf (F := Ideal) (φ := .f32) ((V c main_v52 : S160000x64.Idx → EReal) i)
              (FloatOps.mulf (F := Ideal) (φ := .f32) ((V c main_v32 : S160000x64.Idx → EReal) i) ((V c main_v30 : S20000x1.Idx → EReal) (snode1 i))))
            ((V c main_v53 : S1x64.Idx → EReal) (bcol1 i)))
          (FloatOps.ofBits (F := Ideal) .f32 0x00000000#32) :=
  congrFun (final1 V c) i

end Cert.KernelIdeal.Val

end
-- ==== Proof.KIChainB.lean ====
/- Layer 1 of the kernel program read against the reference. Region 0 leaves the projection h · W as 160000 rows; the
   host stretch after it re-lays that as (8, 20000, 64), gathers along the edges' sources, weighs, and scatter-adds at
   the edges' targets: the same operations the reference applies to its einsum, on equal operands. Region 1 leaves
   max (agg + hw * selfnorm + b) 0 row by row, which re-laid as (8, 20000, 64) is the reference's first layer output. -/
import proofs.«403166_j89026082111548_2_alg».proof.Proof.KIBounds
import proofs.«403166_j89026082111548_2_alg».proof.Proof.KIChainA
import proofs.«403166_j89026082111548_2_alg».proof.Proof.KIArgs
import proofs.«403166_j89026082111548_2_alg».proof.Proof.KIVal0
import proofs.«403166_j89026082111548_2_alg».proof.Proof.KIVal1
import Idealize.ShloMosaic.Lib.ValueIdx
import Idealize.ShloMosaic.Lib.Pipeline.Value
import Idealize.ShloMosaic.Lib.StableHlo.Run
import Idealize.ShloMosaic.PureOps.Ideal.Laws

set_option maxRecDepth 16384

noncomputable section

namespace Cert.KernelIdeal.Val

open Idealize.ShloMosaic Idealize.ShloMosaic.TcCoe Idealize.SL.Sem
open Cert.KernelIdeal Cert.KernelIdeal.Gen
open Idealize.ShloMosaic.Pipeline (Dat)

variable (m : (ℓ : Loc nD τ sig) → Buf (Elt Ideal) ℓ) (ρ : Dev nD → PrngReg)

/-- Row `r` of the 160000 is batch element `r / 20000`, node `r % 20000`. -/
abbrev unflat (j : S160000x64.Idx) : S8x20000x64.Idx := fun a => match a with
  | ⟨0, _⟩ => ⟨(j 0).val / 20000, by have h : (j 0).val < 160000 := (j 0).isLt; show (j 0).val / 20000 < 8; omega⟩
  | ⟨1, _⟩ => ⟨(j 0).val % 20000, Nat.mod_lt _ (by decide)⟩
  | ⟨2, _⟩ => ⟨(j 1).val, (j 1).isLt⟩
/-- Batch element `b`, node `n` is row `b * 20000 + n`. -/
abbrev flat (i : S8x20000x64.Idx) : S160000x64.Idx := fun a => match a with
  | ⟨0, _⟩ => ⟨(i 0).val * 20000 + (i 1).val, by
      have h0 : (i 0).val < 8 := (i 0).isLt; have h1 : (i 1).val < 20000 := (i 1).isLt
      show (i 0).val * 20000 + (i 1).val < 160000; omega⟩
  | ⟨1, _⟩ => ⟨(i 2).val, (i 2).isLt⟩
theorem unflat_flat (i : S8x20000x64.Idx) : unflat (flat i) = i := by
  have h1 : (i 1).val < 20000 := (i 1).isLt
  funext a; apply Fin.ext
  match a with
  | ⟨0, _⟩ => show ((i 0).val * 20000 + (i 1).val) / 20000 = (i 0).val; omega
  | ⟨1, _⟩ => show ((i 0).val * 20000 + (i 1).val) % 20000 = (i 1).val; omega
  | ⟨2, _⟩ => rfl

/-- Region 0's output, row by row: the reference's einsum at the row's batch element and node. -/
theorem V2_v32_apply (c : Dev nD) (j : S160000x64.Idx) :
    (V2 m ρ c main_v32 : S160000x64.Idx → EReal) j = Cert.ReferenceIdeal.Read.val_main_v31 (F := Ideal) (a0 m c) (a3 m c) (unflat j) := by
  have h : V2 m ρ c main_v32 = (dat0 (V1 m ρ) c).arrAt 2 cfg0.N := W2_arr m ρ c 2
  refine (congrFun h j).trans ((out0_apply (V1 m ρ) c j).trans ?_)
  show @Eq EReal (proj0 (V1 m ρ c main_v31) (V1 m ρ c main_arg3) j) _
  rw [Cert.ReferenceIdeal.Read.val_main_v31_apply]
  refine Finset.sum_congr rfl fun k _ => ?_
  rw [V1_v31 m ρ c (lrow0 j k), show V1 m ρ c main_arg3 = a3 m c from W1_arg3 m ρ c]
  refine congrArg₂ (· * ·) (congrArg _ (funext fun a => ?_)) (congrArg _ (funext fun a => ?_))
  · match a with
    | ⟨0, _⟩ => rfl
    | ⟨1, _⟩ => rfl
    | ⟨2, _⟩ => rfl
  · match a with
    | ⟨0, _⟩ => rfl
    | ⟨1, _⟩ => rfl

/-- What the host stretch after region 0 leaves at the re-laid projection: region 0's rows, re-laid. -/
theorem V3_v33_eq (c : Dev nD) :
    V3 m ρ c main_v33 = shapeCast S8x20000x64 (V2 m ρ c main_v32) shapeCasts_S160000x64_S8x20000x64 := by
  show StableHlo.after hostOps1 (W2 m ρ c) (Proc.devRef .tc main_v33) = _
  after_results_simp
  rfl

/-- A re-laid array of 160000 rows read at batch element, node, column. -/
theorem relaid_apply (x : S160000x64.Idx → EReal) (i : S8x20000x64.Idx) :
    shapeCast S8x20000x64 x shapeCasts_S160000x64_S8x20000x64 i = x (flat i) :=
  shapeCast_apply x shapeCasts_S160000x64_S8x20000x64 i (flat i)
    (by rewrite [Shape.rowMajor_val_two, Shape.rowMajor_val_three]; rfl)

/-- Layer 1's projection as (8, 20000, 64): region 0's rows re-laid, the reference's einsum. -/
theorem V3_v33 (c : Dev nD) : V3 m ρ c main_v33 = Cert.ReferenceIdeal.Read.val_main_v31 (F := Ideal) (a0 m c) (a3 m c) := by
  rw [V3_v33_eq]
  funext i
  rw [relaid_apply, V2_v32_apply, unflat_flat]

/-- Layer 1's scatter-added messages: the same host operations on both sides, applied to equal operands. -/
theorem V3_v51 (c : Dev nD) : V3 m ρ c main_v51 = Cert.ReferenceIdeal.Read.val_main_v49 (F := Ideal) (a0 m c) (a2 m c) (a3 m c) := by
  have e1 : W2 m ρ c (Proc.devRef .tc main_v1) = Cert.ReferenceIdeal.Read.val_main_v1 (F := Ideal) (a2 m c) := V2_v1 m ρ c
  have e3 : W2 m ρ c (Proc.devRef .tc main_v3) = Cert.ReferenceIdeal.Read.val_main_v3 (F := Ideal) (a2 m c) := V2_v3 m ρ c
  have e28 : W2 m ρ c (Proc.devRef .tc main_v28) = Cert.ReferenceIdeal.Read.val_main_v28 (F := Ideal) (a2 m c) := V2_v28 m ρ c
  have e33 : (fun i => shapeCast main_v33.ty.shape (W2 m ρ c (Proc.devRef .tc main_v32)) shapeCasts_S160000x64_S8x20000x64 i)
      = Cert.ReferenceIdeal.Read.val_main_v31 (F := Ideal) (a0 m c) (a3 m c) := (V3_v33_eq m ρ c).symm.trans (V3_v33 m ρ c)
  show StableHlo.after hostOps1 (W2 m ρ c) (Proc.devRef .tc main_v51) = _
  after_results_simp
  rw [e1, e3, e28, e33]
  rfl

/-- A re-laid (8, 20000, 64) array read as 160000 rows. -/
theorem rows_apply (x : S8x20000x64.Idx → EReal) (j : S160000x64.Idx) :
    shapeCast S160000x64 x shapeCasts_S8x20000x64_S160000x64 j = x (unflat j) :=
  shapeCast_apply x shapeCasts_S8x20000x64_S160000x64 j (unflat j)
    (by rewrite [Shape.rowMajor_val_three, Shape.rowMajor_val_two]
        show ((j 0).val / 20000 * 20000 + (j 0).val % 20000) * 64 + (j 1).val = (j 0).val * 64 + (j 1).val
        omega)

/-- The bias as a one-row matrix read at its column. -/
theorem biasrow_apply (x : S64.Idx → EReal) (j : S1x64.Idx) :
    shapeCast S1x64 x shapeCasts_S64_S1x64 j = x (fun a => match a with | ⟨0, _⟩ => ⟨(j 1).val, (j 1).isLt⟩) :=
  shapeCast_apply x shapeCasts_S64_S1x64 j _
    (by rewrite [Shape.rowMajor_val_one, Shape.rowMajor_val_two]
        show (j 1).val = (j 0).val * 64 + (j 1).val
        have h0 : (j 0).val < 1 := (j 0).isLt
        omega)

/-- The messages as 160000 rows. -/
theorem V3_v52_eq (c : Dev nD) :
    V3 m ρ c main_v52 = shapeCast S160000x64 (V3 m ρ c main_v51) shapeCasts_S8x20000x64_S160000x64 := by
  show StableHlo.after hostOps1 (W2 m ρ c) (Proc.devRef .tc main_v52)
    = shapeCast S160000x64 (StableHlo.after hostOps1 (W2 m ρ c) (Proc.devRef .tc main_v51)) shapeCasts_S8x20000x64_S160000x64
  after_results_simp <;> rfl

/-- The stretch after region 0 does not write region 0's output. -/
theorem V3_v32_eq (c : Dev nD) : V3 m ρ c main_v32 = V2 m ρ c main_v32 :=
  keptBy_hostOps1 (W2 m ρ c) main_v32 (by decide)

/-- The bias as a one-row matrix. -/
theorem V3_v53_eq (c : Dev nD) : V3 m ρ c main_v53 = shapeCast S1x64 (a4 m c) shapeCasts_S64_S1x64 := by
  have e4 : W2 m ρ c (Proc.devRef .tc main_arg4) = a4 m c := W2_arg4 m ρ c
  show StableHlo.after hostOps1 (W2 m ρ c) (Proc.devRef .tc main_v53) = _
  after_results_simp
  rw [e4]
  rfl

/-- What the host stretch after region 1 leaves at the re-laid output: region 1's rows, re-laid. -/
theorem V5_v55_eq (c : Dev nD) :
    V5 m ρ c main_v55 = shapeCast S8x20000x64 (V4 m ρ c main_v54) shapeCasts_S160000x64_S8x20000x64 := by
  show StableHlo.after hostOps2 (W4 m ρ c) (Proc.devRef .tc main_v55) = _
  after_results_simp
  rfl

/-- Layer 1's output as (8, 20000, 64): region 1's rows re-laid, the reference's agg + hw * selfnorm + b, then max with 0. -/
theorem V5_v55 (c : Dev nD) : V5 m ρ c main_v55 = Cert.ReferenceIdeal.Read.val_main_v56 (F := Ideal) (a0 m c) (a2 m c) (a3 m c) (a4 m c) := by
  rw [V5_v55_eq]
  funext i
  rw [relaid_apply]
  have h : V4 m ρ c main_v54 = (dat1 (V3 m ρ) c).arrAt 4 cfg1.N := W4_arr m ρ c 4
  refine (congrFun h (flat i)).trans ((out1_apply (V3 m ρ) c (flat i)).trans ?_)
  have h1 : (i 1).val < 20000 := (i 1).isLt
  -- each operand of the region at row `flat i` is the reference's stage at `i`
  have h52 : (V3 m ρ c main_v52 : S160000x64.Idx → EReal) (flat i) = Cert.ReferenceIdeal.Read.val_main_v49 (F := Ideal) (a0 m c) (a2 m c) (a3 m c) i := by
    rw [V3_v52_eq, rows_apply, unflat_flat, V3_v51]
  have h32 : (V3 m ρ c main_v32 : S160000x64.Idx → EReal) (flat i) = Cert.ReferenceIdeal.Read.val_main_v31 (F := Ideal) (a0 m c) (a3 m c) i := by
    rw [V3_v32_eq, V2_v32_apply, unflat_flat]
  have h30 : (V3 m ρ c main_v30 : S20000x1.Idx → EReal) (snode1 (flat i)) = Cert.ReferenceIdeal.Read.val_main_v50 (F := Ideal) (a2 m c) i := by
    rw [V3_v30, Cert.ReferenceIdeal.Read.val_main_v50_apply, Cert.ReferenceIdeal.Read.val_main_v30_apply]
    refine congrArg _ (funext fun a => Fin.ext ?_)
    match a with
    | ⟨0, _⟩ => show ((i 0).val * 20000 + (i 1).val) % 20000 = (i 1).val; omega
  have h53 : (V3 m ρ c main_v53 : S1x64.Idx → EReal) (bcol1 (flat i)) = Cert.ReferenceIdeal.Read.val_main_v54 (F := Ideal) (a4 m c) i := by
    rw [V3_v53_eq, biasrow_apply, Cert.ReferenceIdeal.Read.val_main_v54_apply, Cert.ReferenceIdeal.Read.val_main_v53_apply]
    rfl
  rw [h52, h32, h30, h53]
  rw [Cert.ReferenceIdeal.Read.val_main_v56_apply, Cert.ReferenceIdeal.Read.val_main_call0_v0_apply, Cert.ReferenceIdeal.Read.val_main_call0_cst_apply,
    Cert.ReferenceIdeal.Read.val_main_v55_apply, Cert.ReferenceIdeal.Read.val_main_v52_apply, Cert.ReferenceIdeal.Read.val_main_v51_apply]

end Cert.KernelIdeal.Val

end
-- ==== Proof.KIVal2.lean ====
/- What region 2 (the projection `h · W`, block by block of 20000 rows) leaves in its whole output array, over the
   extended reals: entry (r, o) is the sum over k of h(r, k) * W(k, o), whichever block r lies in. -/
import proofs.«403166_j89026082111548_2_alg».proof.Proof.KIProj2
import Idealize.ShloMosaic.Lib.ValueIdx
import Idealize.ShloMosaic.Lib.Pipeline.Value
import Idealize.ShloMosaic.PureOps.Ideal.Laws

set_option maxRecDepth 16384

noncomputable section

namespace Cert.KernelIdeal.Val

open Idealize.ShloMosaic Idealize.ShloMosaic.TcCoe Idealize.SL.Sem
open Cert.KernelIdeal Cert.KernelIdeal.Gen
open Idealize.ShloMosaic.Pipeline (Dat)

variable (V : (c : Dev nD) → (b : Ref sig .tc) → Buf (Elt Ideal) ((c : Thread nD τ).loc b))

/-- Row `i 0`, column `k` of the feature matrix. -/
abbrev lrow2 (i : S160000x64.Idx) (k : Fin 64) : S160000x64.Idx := fun a => match a with
  | ⟨0, _⟩ => ⟨(i 0).val, (i 0).isLt⟩
  | ⟨1, _⟩ => ⟨k.val, k.isLt⟩
/-- Row `k`, column `i 1` of the weight matrix. -/
abbrev rcol2 (i : S160000x64.Idx) (k : Fin 64) : S64x64.Idx := fun a => match a with
  | ⟨0, _⟩ => ⟨k.val, k.isLt⟩
  | ⟨1, _⟩ => ⟨(i 1).val, (i 1).isLt⟩

/-! ## The body's product at an index of the block -/

/-- Both offsets of a whole-block rectangle are zero. -/
theorem zero_off2 : (![0, 0] : Fin 2 → Nat) = fun _ => 0 := funext fun a => by fin_cases a <;> rfl

/-- The left operand's row is the output's row, -/
theorem lhs_proj2_0 (j : S20000x64.Idx) (q : dot_S20000x64_S64x64_S20000x64_1_0_0_1_n_n.contr.Idx) :
    (dot_S20000x64_S64x64_S20000x64_1_0_0_1_n_n.lhsIdx j q 0).val = (j 0).val := by
  unfold DotDims.lhsIdx
  rw [dif_neg (show ¬(0 : Fin S20000x64.rank) ∈ dot_S20000x64_S64x64_S20000x64_1_0_0_1_n_n.lhsBatch by decide), dif_pos (show (0 : Fin S20000x64.rank) ∈ dot_S20000x64_S64x64_S20000x64_1_0_0_1_n_n.lhsNonContracting by decide)]
  rfl
/-- its column the contracted index; -/
theorem lhs_proj2_1 (j : S20000x64.Idx) (q : dot_S20000x64_S64x64_S20000x64_1_0_0_1_n_n.contr.Idx) :
    (dot_S20000x64_S64x64_S20000x64_1_0_0_1_n_n.lhsIdx j q 1).val = (q ⟨0, by decide⟩).val :=
  dot_S20000x64_S64x64_S20000x64_1_0_0_1_n_n.lhsIdx_val_of_single rfl j q
/-- the right operand's row is the contracted index, -/
theorem rhs_proj2_0 (j : S20000x64.Idx) (q : dot_S20000x64_S64x64_S20000x64_1_0_0_1_n_n.contr.Idx) :
    (dot_S20000x64_S64x64_S20000x64_1_0_0_1_n_n.rhsIdx j q 0).val = (q ⟨0, by decide⟩).val :=
  dot_S20000x64_S64x64_S20000x64_1_0_0_1_n_n.rhsIdx_val_of_single rfl j q
/-- its column the output's column. -/
theorem rhs_proj2_1 (j : S20000x64.Idx) (q : dot_S20000x64_S64x64_S20000x64_1_0_0_1_n_n.contr.Idx) :
    (dot_S20000x64_S64x64_S20000x64_1_0_0_1_n_n.rhsIdx j q 1).val = (j 1).val := by
  unfold DotDims.rhsIdx
  rw [dif_neg (show ¬(1 : Fin S64x64.rank) ∈ dot_S20000x64_S64x64_S20000x64_1_0_0_1_n_n.rhsBatch by decide), dif_pos (show (1 : Fin S64x64.rank) ∈ dot_S20000x64_S64x64_S20000x64_1_0_0_1_n_n.rhsNonContracting by decide)]
  rfl

/-- Row `j 0`, column `k` of the feature block. -/
abbrev lblk2 (j : S20000x64.Idx) (k : Fin 64) : S20000x64.Idx := fun a => match a with
  | ⟨0, _⟩ => ⟨(j 0).val, (j 0).isLt⟩
  | ⟨1, _⟩ => ⟨k.val, k.isLt⟩
/-- Row `k`, column `j 1` of the weight matrix as staged. -/
abbrev rblk2 (j : S20000x64.Idx) (k : Fin 64) : S64x64.Idx := fun a => match a with
  | ⟨0, _⟩ => ⟨k.val, k.isLt⟩
  | ⟨1, _⟩ => ⟨(j 1).val, (j 1).isLt⟩

/-- The body's matrix product into a zero accumulator, entry by entry: the sum over the 64 shared indices. -/
theorem pay2_apply (x0 : Vec Ideal S20000x64 .f32) (x1 : Vec Ideal S64x64 .f32) (j : S20000x64.Idx) :
    (k2_pay1 (F := Ideal) x0 x1 : S20000x64.Idx → EReal) j
      = ∑ k : Fin 64, (x0 : S20000x64.Idx → EReal) (lblk2 j k) * (x1 : S64x64.Idx → EReal) (rblk2 j k) := by
  unfold k2_pay1
  rw [shapeCast_self]
  refine (Ideal.matmul_constant_zero_apply dot_S20000x64_S64x64_S20000x64_1_0_0_1_n_n none x0 x1 j).trans ?_
  rw [← Equiv.sum_comp (ValueIdx.contrEquiv1 dot_S20000x64_S64x64_S20000x64_1_0_0_1_n_n 64 rfl rfl).symm]
  refine Finset.sum_congr rfl fun k _ => ?_
  have hk := ValueIdx.contrEquiv1_symm_val dot_S20000x64_S64x64_S20000x64_1_0_0_1_n_n 64 rfl rfl k
  have el : dot_S20000x64_S64x64_S20000x64_1_0_0_1_n_n.lhsIdx j ((ValueIdx.contrEquiv1 dot_S20000x64_S64x64_S20000x64_1_0_0_1_n_n 64 rfl rfl).symm k) = lblk2 j k := funext fun a => Fin.ext (by
    match a with
    | ⟨0, _⟩ => exact lhs_proj2_0 _ _
    | ⟨1, _⟩ => exact (lhs_proj2_1 _ _).trans hk)
  have er : dot_S20000x64_S64x64_S20000x64_1_0_0_1_n_n.rhsIdx j ((ValueIdx.contrEquiv1 dot_S20000x64_S64x64_S20000x64_1_0_0_1_n_n 64 rfl rfl).symm k) = rblk2 j k := funext fun a => Fin.ext (by
    match a with
    | ⟨0, _⟩ => exact (rhs_proj2_0 _ _).trans hk
    | ⟨1, _⟩ => exact rhs_proj2_1 _ _)
  rw [el, er]

/-! ## From the blocks to the array -/

/-- The product of the whole feature array by the weight matrix, entry by entry. -/
abbrev proj2 (a0 : S160000x64.Idx → EReal) (a1 : S64x64.Idx → EReal) : S160000x64.Idx → EReal :=
  fun i => ∑ k : Fin 64, a0 (lrow2 i k) * a1 (rcol2 i k)

/-- The index maps, decided over the grid: point `t` takes row block `t` of the features and of the output, and the one
    block of the weights. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the whole product. -/
theorem flushed2_eq (c : Dev nD) (t : Fin cfg2.N) :
    (dat2 (F := Ideal) V c).flushed 2 t = ((cfg2.win 2).blk t).view.read (Elt Ideal) (proj2 (V c main_v56) (V c main_arg5)) := by
  show (cfg2.win 2).cut (grid2.coords t) ((dat2 (F := Ideal) V c).after 2 t) = _
  rw [after2_2]
  unfold out2_2
  rw [View.canon_unit_zero zero_off2]
  simp only [View.ld_unit_zero (S := S20000x64) zero_off2, View.ld_unit_zero (S := S64x64) zero_off2]
  obtain ⟨e0, e1, e2, e3, e4, e5⟩ := idx_facts2 t
  funext j
  show (k2_pay1 (F := Ideal) (iblk2 V c 0 t) (iblk2 V c 1 t) : S20000x64.Idx → EReal) j
    = proj2 (V c main_v56) (V c main_arg5) (((cfg2.win 2).blk t).view.emb j)
  refine (pay2_apply _ _ j).trans (Finset.sum_congr rfl fun k _ => ?_)
  have h0 : ((cfg2.win 0).blk t).view.emb (lblk2 j k) = lrow2 (((cfg2.win 2).blk t).view.emb j) k := by
    funext a; apply Fin.ext
    match a with
    | ⟨0, _⟩ => show win2_0.index t (0 : Fin 2) * 20000 + 1 * (j 0).val = win2_2.index t (0 : Fin 2) * 20000 + 1 * (j 0).val; omega
    | ⟨1, _⟩ => show win2_0.index t (1 : Fin 2) * 64 + 1 * k.val = k.val; omega
  have h1 : ((cfg2.win 1).blk t).view.emb (rblk2 j k) = rcol2 (((cfg2.win 2).blk t).view.emb j) k := by
    funext a; apply Fin.ext
    match a with
    | ⟨0, _⟩ => show win2_1.index t (0 : Fin 2) * 64 + 1 * k.val = k.val; omega
    | ⟨1, _⟩ => show win2_1.index t (1 : Fin 2) * 64 + 1 * (j 1).val = win2_2.index t (1 : Fin 2) * 64 + 1 * (j 1).val; omega
  have hx : iblk2 V c 0 t (lblk2 j k) = V c main_v56 (lrow2 (((cfg2.win 2).blk t).view.emb j) k) :=
    congrArg (V c main_v56) h0
  have hy : iblk2 V c 1 t (rblk2 j k) = V c main_arg5 (rcol2 (((cfg2.win 2).blk t).view.emb j) k) :=
    congrArg (V c main_arg5) h1
  rw [hx, hy]

/-- An index of the output array is in point `t`'s block iff each coordinate is in the block's range on its axis. -/
theorem mem_blk2 (t : Fin cfg2.N) (i : S160000x64.Idx) :
    i ∈ ((cfg2.win 2).blk t).view.set ↔ ∀ a : Fin 2, win2_2.index t a * S20000x64.size a ≤ (i a).val ∧ (i a).val < win2_2.index t a * S20000x64.size a + S20000x64.size a := by
  show i ∈ ((View.whole main_v57).slice (win2_2.rect t)).set ↔ _
  rw [View.set_slice_whole, Rect.mem_set_unit]
  exact Iff.rfl

/-- Row `r` is in the block of point `r / 20000`. -/
theorem cover2 (i : S160000x64.Idx) : ∃ t : Fin cfg2.N, (cfg2.win 2).flush t = true ∧ i ∈ ((cfg2.win 2).blk t).view.set := by
  have hi0 : (i 0).val < 160000 := (i 0).isLt
  have hi1 : (i 1).val < 64 := (i 1).isLt
  have hN : cfg2.N = 8 := N_2
  obtain ⟨t, ht⟩ : ∃ t : Fin cfg2.N, t.val = (i 0).val / 20000 := ⟨⟨(i 0).val / 20000, by omega⟩, rfl⟩
  obtain ⟨-, -, -, -, e4, e5⟩ := idx_facts2 t
  refine ⟨t, flush2_2 t, ?_⟩
  rw [mem_blk2]
  intro a
  match a with
  | ⟨0, _⟩ => show win2_2.index t (0 : Fin 2) * 20000 ≤ (i 0).val ∧ (i 0).val < win2_2.index t (0 : Fin 2) * 20000 + 20000; omega
  | ⟨1, _⟩ => show win2_2.index t (1 : Fin 2) * 64 ≤ (i 1).val ∧ (i 1).val < win2_2.index t (1 : Fin 2) * 64 + 64; omega

/-- The output array after the region, entry by entry. -/
theorem out2_apply (c : Dev nD) (i : S160000x64.Idx) :
    ((dat2 (F := Ideal) V c).arrAt 2 cfg2.N : S160000x64.Idx → EReal) i
      = proj2 (V c main_v56) (V c main_arg5) i :=
  congrFun ((dat2 (F := Ideal) V c).arrAt_eq_of_cover 2 (proj2 (V c main_v56) (V c main_arg5)) (fun t _ => flushed2_eq V c t) cover2) i

end Cert.KernelIdeal.Val

end
-- ==== Proof.KIChainC0.lean ====
/- Layer 2's projection in the kernel program read against the reference. The host stretch before region 2 re-lays
   layer 1's output, an (8, 20000, 64) array, as 160000 rows; region 2 leaves its product with the second weight
   matrix row by row; the host stretch after it re-lays that as (8, 20000, 64). Entry (b, n, o) is therefore the sum
   over k of h1(b, n, k) * W2(k, o): the reference's second einsum. -/
import proofs.«403166_j89026082111548_2_alg».proof.Proof.KIBounds
import proofs.«403166_j89026082111548_2_alg».proof.Proof.KIChainA
import proofs.«403166_j89026082111548_2_alg».proof.Proof.KIArgs
import proofs.«403166_j89026082111548_2_alg».proof.Proof.KIChainB
import proofs.«403166_j89026082111548_2_alg».proof.Proof.KIVal2
import Idealize.ShloMosaic.Lib.ValueIdx
import Idealize.ShloMosaic.Lib.Pipeline.Value
import Idealize.ShloMosaic.Lib.StableHlo.Run
import Idealize.ShloMosaic.PureOps.Ideal.Laws

set_option maxRecDepth 16384

noncomputable section

namespace Cert.KernelIdeal.Val

open Idealize.ShloMosaic Idealize.ShloMosaic.TcCoe Idealize.SL.Sem
open Cert.KernelIdeal Cert.KernelIdeal.Gen
open Idealize.ShloMosaic.Pipeline (Dat)

variable (m : (ℓ : Loc nD τ sig) → Buf (Elt Ideal) ℓ) (ρ : Dev nD → PrngReg)

/-! ## Rows and (batch element, node) pairs -/

/-- Row `r` of the 160000 is batch element `r / 20000`, node `r % 20000`. -/
abbrev nodeOfRow (j : S160000x64.Idx) : S8x20000x64.Idx := fun a => match a with
  | ⟨0, _⟩ => ⟨(j 0).val / 20000, by have h : (j 0).val < 160000 := (j 0).isLt; show (j 0).val / 20000 < 8; omega⟩
  | ⟨1, _⟩ => ⟨(j 0).val % 20000, Nat.mod_lt _ (by decide)⟩
  | ⟨2, _⟩ => ⟨(j 1).val, (j 1).isLt⟩
/-- Batch element `b`, node `n` is row `b * 20000 + n`. -/
abbrev rowOfNode (i : S8x20000x64.Idx) : S160000x64.Idx := fun a => match a with
  | ⟨0, _⟩ => ⟨(i 0).val * 20000 + (i 1).val, by
      have h0 : (i 0).val < 8 := (i 0).isLt; have h1 : (i 1).val < 20000 := (i 1).isLt
      show (i 0).val * 20000 + (i 1).val < 160000; omega⟩
  | ⟨1, _⟩ => ⟨(i 2).val, (i 2).isLt⟩
/-- The row of a pair is the pair's. -/
theorem nodeOfRow_rowOfNode (i : S8x20000x64.Idx) : nodeOfRow (rowOfNode i) = i := by
  have h1 : (i 1).val < 20000 := (i 1).isLt
  funext a; apply Fin.ext
  match a with
  | ⟨0, _⟩ => show ((i 0).val * 20000 + (i 1).val) / 20000 = (i 0).val; omega
  | ⟨1, _⟩ => show ((i 0).val * 20000 + (i 1).val) % 20000 = (i 1).val; omega
  | ⟨2, _⟩ => rfl

/-- An (8, 20000, 64) array re-laid as 160000 rows, read at a row. -/
theorem rowsAt_apply (x : S8x20000x64.Idx → EReal) (j : S160000x64.Idx) :
    shapeCast S160000x64 x shapeCasts_S8x20000x64_S160000x64 j = x (nodeOfRow j) :=
  shapeCast_apply x shapeCasts_S8x20000x64_S160000x64 j (nodeOfRow j)
    (by rewrite [Shape.rowMajor_val_three, Shape.rowMajor_val_two]
        show ((j 0).val / 20000 * 20000 + (j 0).val % 20000) * 64 + (j 1).val = (j 0).val * 64 + (j 1).val
        rw [Nat.div_add_mod' (j 0).val 20000])
/-- An array of 160000 rows re-laid as (8, 20000, 64), read at batch element, node, column. -/
theorem nodes_apply (x : S160000x64.Idx → EReal) (i : S8x20000x64.Idx) :
    shapeCast S8x20000x64 x shapeCasts_S160000x64_S8x20000x64 i = x (rowOfNode i) :=
  shapeCast_apply x shapeCasts_S160000x64_S8x20000x64 i (rowOfNode i)
    (by rewrite [Shape.rowMajor_val_two, Shape.rowMajor_val_three]; rfl)

/-! ## Layer 2's projection -/

/-- What region 2 reads as its features: layer 1's output, re-laid as rows. -/
theorem V5_v56_eq (c : Dev nD) :
    V5 m ρ c main_v56 = shapeCast S160000x64 (V5 m ρ c main_v55) shapeCasts_S8x20000x64_S160000x64 := by
  show StableHlo.after hostOps2 (W4 m ρ c) (Proc.devRef .tc main_v56)
    = shapeCast S160000x64 (StableHlo.after hostOps2 (W4 m ρ c) (Proc.devRef .tc main_v55)) shapeCasts_S8x20000x64_S160000x64
  after_results_simp
  rfl
/-- Row by row it is the reference's first layer output at the row's batch element and node. -/
theorem V5_v56_apply (c : Dev nD) (j : S160000x64.Idx) :
    (V5 m ρ c main_v56 : S160000x64.Idx → EReal) j
      = Cert.ReferenceIdeal.Read.val_main_v56 (F := Ideal) (a0 m c) (a2 m c) (a3 m c) (a4 m c) (nodeOfRow j) := by
  rw [V5_v56_eq, rowsAt_apply, V5_v55]

/-- Region 2's output, row by row: the reference's second einsum at the row's batch element and node. -/
theorem V6_v57_apply (c : Dev nD) (j : S160000x64.Idx) :
    (V6 m ρ c main_v57 : S160000x64.Idx → EReal) j
      = Cert.ReferenceIdeal.Read.val_main_v57 (F := Ideal) (a0 m c) (a2 m c) (a3 m c) (a4 m c) (a5 m c) (nodeOfRow j) := by
  have h : V6 m ρ c main_v57 = (dat2 (V5 m ρ) c).arrAt 2 cfg2.N := W6_arr m ρ c 2
  refine (congrFun h j).trans ((out2_apply (V5 m ρ) c j).trans ?_)
  refine Eq.trans ?_ (Cert.ReferenceIdeal.Read.val_main_v57_apply (a0 m c) (a2 m c) (a3 m c) (a4 m c) (a5 m c) (nodeOfRow j)).symm
  show @Eq EReal _ _
  refine Finset.sum_congr rfl fun k _ => ?_
  rw [V5_v56_apply m ρ c (lrow2 j k), show V5 m ρ c main_arg5 = a5 m c from W5_arg5 m ρ c]
  rfl

/-- What the host stretch after region 2 leaves at the re-laid projection: region 2's rows, re-laid. -/
theorem V7_v58_eq (c : Dev nD) :
    V7 m ρ c main_v58 = shapeCast S8x20000x64 (V6 m ρ c main_v57) shapeCasts_S160000x64_S8x20000x64 := by
  show StableHlo.after hostOps3 (W6 m ρ c) (Proc.devRef .tc main_v58) = _
  after_results_simp
  rfl

/-- Layer 2's projection as (8, 20000, 64): region 2's rows re-laid, the reference's second einsum. -/
theorem V7_v58 (c : Dev nD) : V7 m ρ c main_v58 = Cert.ReferenceIdeal.Read.val_main_v57 (F := Ideal) (a0 m c) (a2 m c) (a3 m c) (a4 m c) (a5 m c) := by
  rw [V7_v58_eq]
  funext i
  rw [nodes_apply, V6_v57_apply, nodeOfRow_rowOfNode]

end Cert.KernelIdeal.Val

end
-- ==== Proof.KIVal3.lean ====
/- What region 3 (the combine step, block by block of 20000 rows) leaves in its whole output array, over the
   extended reals: entry (r, o) is max (agg(r, o) + hw(r, o) * selfnorm(r mod 20000) + bias(o)) 0. -/
import proofs.«403166_j89026082111548_2_alg».proof.Proof.KIComb3
import Idealize.ShloMosaic.Lib.ValueIdx
import Idealize.ShloMosaic.Lib.Pipeline.Value
import Idealize.ShloMosaic.PureOps.Ideal.Laws

set_option maxRecDepth 16384

noncomputable section

namespace Cert.KernelIdeal.Val

open Idealize.ShloMosaic Idealize.ShloMosaic.TcCoe Idealize.SL.Sem
open Cert.KernelIdeal Cert.KernelIdeal.Gen
open Idealize.ShloMosaic.Pipeline (Dat)

variable (V : (c : Dev nD) → (b : Ref sig .tc) → Buf (Elt Ideal) ((c : Thread nD τ).loc b))

/-- The self-loop weight's entry for row `i 0`: the node index is the row modulo the 20000 nodes of a batch element. -/
abbrev snode3 (i : S160000x64.Idx) : S20000x1.Idx := fun a => match a with
  | ⟨0, _⟩ => ⟨(i 0).val % 20000, Nat.mod_lt _ (by decide)⟩
  | ⟨1, _⟩ => ⟨0, Nat.zero_lt_one⟩
/-- The bias' entry for column `i 1`. -/
abbrev bcol3 (i : S160000x64.Idx) : S1x64.Idx := fun a => match a with
  | ⟨0, _⟩ => ⟨0, Nat.zero_lt_one⟩
  | ⟨1, _⟩ => ⟨(i 1).val, (i 1).isLt⟩

/-- The zero offsets of a whole block, however spelt. -/
theorem zoff3 : (![0, 0] : Fin 2 → Nat) = fun _ => 0 := funext fun a => by fin_cases a <;> rfl

/-- Inside a block: the self-loop column's entry for in-block row `j 0`, -/
abbrev prow3 (j : S20000x64.Idx) : S20000x1.Idx := fun a => match a with
  | ⟨0, _⟩ => ⟨(j 0).val, (j 0).isLt⟩
  | ⟨1, _⟩ => ⟨0, Nat.zero_lt_one⟩
/-- and the bias row's entry for column `j 1`. -/
abbrev pcol3 (j : S20000x64.Idx) : S1x64.Idx := fun a => match a with
  | ⟨0, _⟩ => ⟨0, Nat.zero_lt_one⟩
  | ⟨1, _⟩ => ⟨(j 1).val, (j 1).isLt⟩

/-- The body's payload at an index of the block: the column is broadcast along the features, the row along the nodes. -/
theorem pay3_apply (x0 x1 : Vec Ideal S20000x64 .f32) (x2 : Vec Ideal S20000x1 .f32) (x3 : Vec Ideal S1x64 .f32) (j : S20000x64.Idx) :
    k3_pay1 (F := Ideal) x0 x1 x2 x3 j
      = FloatOps.maximumf (F := Ideal) (φ := .f32)
          (FloatOps.addf (F := Ideal) (φ := .f32)
            (FloatOps.addf (F := Ideal) (φ := .f32) (x0 j) (FloatOps.mulf (F := Ideal) (φ := .f32) (x1 j) (x2 (prow3 j))))
            (x3 (pcol3 j)))
          (FloatOps.ofBits (F := Ideal) .f32 0x00000000#32) := by
  have e2 : broadcastTo S20000x64 (shapeCast S20000x1 x2 shapeCasts_S20000x1_S20000x1) broadcasts_S20000x1_S20000x64 j = x2 (prow3 j) := by
    rw [shapeCast_self]
    exact broadcastTo_apply x2 _ j (prow3 j) (fun a => by match a with | ⟨0, _⟩ => rfl | ⟨1, _⟩ => rfl)
  have e3 : broadcastTo S20000x64 (shapeCast S1x64 x3 shapeCasts_S1x64_S1x64) broadcasts_S1x64_S20000x64 j = x3 (pcol3 j) := by
    rw [shapeCast_self]
    exact broadcastTo_apply x3 _ j (pcol3 j) (fun a => by match a with | ⟨0, _⟩ => rfl | ⟨1, _⟩ => rfl)
  unfold k3_pay1
  show FloatOps.maximumf (F := Ideal) (φ := .f32)
      (FloatOps.addf (F := Ideal) (φ := .f32)
        (FloatOps.addf (F := Ideal) (φ := .f32) (shapeCast S20000x64 x0 shapeCasts_S20000x64_S20000x64 j)
          (FloatOps.mulf (F := Ideal) (φ := .f32) (shapeCast S20000x64 x1 shapeCasts_S20000x64_S20000x64 j)
            (broadcastTo S20000x64 (shapeCast S20000x1 x2 shapeCasts_S20000x1_S20000x1) broadcasts_S20000x1_S20000x64 j)))
        (broadcastTo S20000x64 (shapeCast S1x64 x3 shapeCasts_S1x64_S1x64) broadcasts_S1x64_S20000x64 j))
      (FloatOps.ofBits (F := Ideal) .f32 0x00000000#32) = _
  rw [e2, e3, shapeCast_self, shapeCast_self]

/-- What the region computes at entry `i` of its output array, of the arrays it is entered with. -/
abbrev G3 (c : Dev nD) : S160000x64.Idx → EReal := fun i =>
  FloatOps.maximumf (F := Ideal) (φ := .f32)
    (FloatOps.addf (F := Ideal) (φ := .f32)
      (FloatOps.addf (F := Ideal) (φ := .f32) ((V c main_v77 : S160000x64.Idx → EReal) i)
        (FloatOps.mulf (F := Ideal) (φ := .f32) ((V c main_v57 : S160000x64.Idx → EReal) i) ((V c main_v30 : S20000x1.Idx → EReal) (snode3 i))))
      ((V c main_v78 : S1x64.Idx → EReal) (bcol3 i)))
    (FloatOps.ofBits (F := Ideal) .f32 0x00000000#32)

/-- The printed index maps, decided over the grid: the three row-blocked windows sit at block `(t, 0)`, the column and
    the row at block `(0, 0)`. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What point `t` writes back is block `t` of `G3`: in-block row `j 0` is row `20000 t + j 0` of the array, whose
    node index is `j 0` again. -/
theorem flushed3_eq (c : Dev nD) (t : Fin cfg3.N) :
    (dat3 (F := Ideal) V c).flushed 4 t = ((cfg3.win 4).blk t).view.read (Elt Ideal) (G3 V c) := by
  show (cfg3.win 4).cut (grid3.coords t) ((dat3 (F := Ideal) V c).after 4 t) = _
  rw [after3_4]
  unfold out3_4
  rw [View.canon_unit_zero zoff3]
  simp only [View.ld_unit_zero (S := S20000x64) zoff3, View.ld_unit_zero (S := S20000x1) zoff3, View.ld_unit_zero (S := S1x64) zoff3]
  obtain ⟨e00, e01, e10, e11, e20, e21, e30, e31, e40, e41⟩ := idx_facts3 t
  funext j
  have hj0 : (j 0).val < 20000 := (j 0).isLt
  have hj1 : (j 1).val < 64 := (j 1).isLt
  refine (pay3_apply (iblk3 (F := Ideal) V c 0 t) (iblk3 (F := Ideal) V c 1 t) (iblk3 (F := Ideal) V c 2 t) (iblk3 (F := Ideal) V c 3 t) j).trans ?_
  have h0 : ((cfg3.win 0).blk t).view.emb j = ((cfg3.win 4).blk t).view.emb j := by
    funext a; apply Fin.ext
    match a with
    | ⟨0, _⟩ => show win3_0.index t (0 : Fin 2) * 20000 + 1 * (j 0).val = win3_4.index t (0 : Fin 2) * 20000 + 1 * (j 0).val; omega
    | ⟨1, _⟩ => show win3_0.index t (1 : Fin 2) * 64 + 1 * (j 1).val = win3_4.index t (1 : Fin 2) * 64 + 1 * (j 1).val; omega
  have h1 : ((cfg3.win 1).blk t).view.emb j = ((cfg3.win 4).blk t).view.emb j := by
    funext a; apply Fin.ext
    match a with
    | ⟨0, _⟩ => show win3_1.index t (0 : Fin 2) * 20000 + 1 * (j 0).val = win3_4.index t (0 : Fin 2) * 20000 + 1 * (j 0).val; omega
    | ⟨1, _⟩ => show win3_1.index t (1 : Fin 2) * 64 + 1 * (j 1).val = win3_4.index t (1 : Fin 2) * 64 + 1 * (j 1).val; omega
  have h2 : ((cfg3.win 2).blk t).view.emb (prow3 j) = snode3 (((cfg3.win 4).blk t).view.emb j) := by
    funext a; apply Fin.ext
    match a with
    | ⟨0, _⟩ => show win3_2.index t (0 : Fin 2) * 20000 + 1 * (j 0).val = (win3_4.index t (0 : Fin 2) * 20000 + 1 * (j 0).val) % 20000; rw [e20, e40]; omega
    | ⟨1, _⟩ => show win3_2.index t (1 : Fin 2) * 1 + 1 * 0 = 0; omega
  have h3 : ((cfg3.win 3).blk t).view.emb (pcol3 j) = bcol3 (((cfg3.win 4).blk t).view.emb j) := by
    funext a; apply Fin.ext
    match a with
    | ⟨0, _⟩ => show win3_3.index t (0 : Fin 2) * 1 + 1 * 0 = 0; omega
    | ⟨1, _⟩ => show win3_3.index t (1 : Fin 2) * 64 + 1 * (j 1).val = win3_4.index t (1 : Fin 2) * 64 + 1 * (j 1).val; omega
  show FloatOps.maximumf (F := Ideal) (φ := .f32)
      (FloatOps.addf (F := Ideal) (φ := .f32)
        (FloatOps.addf (F := Ideal) (φ := .f32) ((V c main_v77 : S160000x64.Idx → EReal) (((cfg3.win 0).blk t).view.emb j))
          (FloatOps.mulf (F := Ideal) (φ := .f32) ((V c main_v57 : S160000x64.Idx → EReal) (((cfg3.win 1).blk t).view.emb j))
            ((V c main_v30 : S20000x1.Idx → EReal) (((cfg3.win 2).blk t).view.emb (prow3 j)))))
        ((V c main_v78 : S1x64.Idx → EReal) (((cfg3.win 3).blk t).view.emb (pcol3 j))))
      (FloatOps.ofBits (F := Ideal) .f32 0x00000000#32) = G3 V c (((cfg3.win 4).blk t).view.emb j)
  rw [h0, h1, h2, h3]

/-- Every block of the array's eight is some point's. -/
theorem idx_onto3 : ∀ q : Fin 8, ∃ t : Fin cfg3.N, win3_4.index t = ![q.val, 0] :=
  (by decide +kernel : ∀ q : Fin 8, ∃ t : Fin grid3.N, win3_4.index t = ![q.val, 0])

/-- An index of the array is in point `t`'s block iff each coordinate is in the block's range on its axis. -/
theorem mem_blk3 (t : Fin cfg3.N) (i : S160000x64.Idx) :
    i ∈ ((cfg3.win 4).blk t).view.set ↔ ∀ a : Fin 2, win3_4.index t a * S20000x64.size a ≤ (i a).val ∧ (i a).val < win3_4.index t a * S20000x64.size a + S20000x64.size a := by
  show i ∈ ((View.whole main_v79).slice (win3_4.rect t)).set ↔ _
  rw [View.set_slice_whole, Rect.mem_set_unit]
  exact Iff.rfl

/-- The eight blocks cover the array: row `r` lies in block `r / 20000`. -/
theorem cover3 (i : S160000x64.Idx) : ∃ t : Fin cfg3.N, (cfg3.win 4).flush t = true ∧ i ∈ ((cfg3.win 4).blk t).view.set := by
  have hi0 : (i 0).val < 160000 := (i 0).isLt
  have hi1 : (i 1).val < 64 := (i 1).isLt
  obtain ⟨t, ht⟩ := idx_onto3 ⟨(i 0).val / 20000, by omega⟩
  have q0 : win3_4.index t (0 : Fin 2) = (i 0).val / 20000 := congrFun ht 0
  have q1 : win3_4.index t (1 : Fin 2) = 0 := congrFun ht 1
  refine ⟨t, flush3_4 t, ?_⟩
  rw [mem_blk3]
  intro a
  match a with
  | ⟨0, _⟩ => show win3_4.index t (0 : Fin 2) * 20000 ≤ (i 0).val ∧ (i 0).val < win3_4.index t (0 : Fin 2) * 20000 + 20000; omega
  | ⟨1, _⟩ => show win3_4.index t (1 : Fin 2) * 64 ≤ (i 1).val ∧ (i 1).val < win3_4.index t (1 : Fin 2) * 64 + 64; omega

/-- The output array after the region is `G3`. -/
theorem final3 (c : Dev nD) : (dat3 (F := Ideal) V c).arrAt 4 cfg3.N = G3 V c :=
  (dat3 (F := Ideal) V c).arrAt_eq_of_cover 4 (G3 V c) (fun t _ => flushed3_eq V c t) cover3

/-- The output array after the region, entry by entry. -/
theorem out3_apply (c : Dev nD) (i : S160000x64.Idx) :
    ((dat3 (F := Ideal) V c).arrAt 4 cfg3.N : S160000x64.Idx → EReal) i
      = FloatOps.maximumf (F := Ideal) (φ := .f32)
          (FloatOps.addf (F := Ideal) (φ := .f32)
            (FloatOps.addf (F := Ideal) (φ := .f32) ((V c main_v77 : S160000x64.Idx → EReal) i)
              (FloatOps.mulf (F := Ideal) (φ := .f32) ((V c main_v57 : S160000x64.Idx → EReal) i) ((V c main_v30 : S20000x1.Idx → EReal) (snode3 i))))
            ((V c main_v78 : S1x64.Idx → EReal) (bcol3 i)))
          (FloatOps.ofBits (F := Ideal) .f32 0x00000000#32) :=
  congrFun (final3 V c) i

end Cert.KernelIdeal.Val

end
-- ==== Proof.KIChainC.lean ====
/- Layer 2 of the kernel program read against the reference. The host stretch after region 2 re-lays the projection's
   rows as (8, 20000, 64), gathers along the edges' sources, weighs, and scatter-adds at the edges' targets: the same
   operations the reference applies to its second einsum, on equal operands. Region 3 leaves
   max (agg + hw * selfnorm + b) 0 row by row, which re-laid as (8, 20000, 64) is the reference's second layer output. -/
import proofs.«403166_j89026082111548_2_alg».proof.Proof.KIBounds
import proofs.«403166_j89026082111548_2_alg».proof.Proof.KIArgs
import proofs.«403166_j89026082111548_2_alg».proof.Proof.KIChainA
import proofs.«403166_j89026082111548_2_alg».proof.Proof.KIChainB
import proofs.«403166_j89026082111548_2_alg».proof.Proof.KIChainC0
import proofs.«403166_j89026082111548_2_alg».proof.Proof.KIVal3
import Idealize.ShloMosaic.Lib.ValueIdx
import Idealize.ShloMosaic.Lib.Pipeline.Value
import Idealize.ShloMosaic.Lib.StableHlo.Run
import Idealize.ShloMosaic.PureOps.Ideal.Laws

set_option maxRecDepth 16384

noncomputable section

namespace Cert.KernelIdeal.Val

open Idealize.ShloMosaic Idealize.ShloMosaic.TcCoe Idealize.SL.Sem
open Cert.KernelIdeal Cert.KernelIdeal.Gen
open Idealize.ShloMosaic.Pipeline (Dat)

variable (m : (ℓ : Loc nD τ sig) → Buf (Elt Ideal) ℓ) (ρ : Dev nD → PrngReg)

/-! ## A layer's messages -/

/-- One layer's messages, of the node rows `h`, the edges' source and target lists and the per-edge weight: gather the
    rows at the sources (a negative index counted from the end), weigh each edge's row, and add it into the row of the
    edge's target, from zero. -/
def msg (h : FVec Ideal S8x20000x64 .f32) (src tgt : IVec S320000 32) (w : FVec Ideal S320000 .f32) : FVec Ideal S8x20000x64 .f32 :=
  Host.scatterAdd (F := Ideal) scatter_S8x20000x64_S320000x1_S8x320000x64_02_1_1_1
    (broadcastInDim S8x20000x64 ![] bcast_S_S8x20000x64 (constant (F := Ideal) S_ .f32 0x00000000#32))
    (broadcastInDim S320000x1 ![0] bcast_S320000_S320000x1_0
      (select (cmpi .slt tgt (broadcastInDim S320000 ![] bcast_S_S320000 (constantI S_ 32 0#32)))
        (addi tgt (broadcastInDim S320000 ![] bcast_S_S320000 (constantI S_ 32 20000#32))) tgt))
    (mulf
      (Host.gather gather_S8x20000x64_S320000x1_S8x320000x64_02_1_n_n_1_1_8164 h
        (broadcastInDim S320000x1 ![0] bcast_S320000_S320000x1_0
          (select (cmpi .slt src (broadcastInDim S320000 ![] bcast_S_S320000 (constantI S_ 32 0#32)))
            (addi src (broadcastInDim S320000 ![] bcast_S_S320000 (constantI S_ 32 20000#32))) src)))
      (broadcastInDim S8x320000x64 ![0, 1, 2] bcast_S1x320000x1_S8x320000x64_0_1_2
        (broadcastInDim S1x320000x1 ![1] bcast_S320000_S1x320000x1_1 w)))

/-- The stretch before region 3 leaves in `main_v76` the messages of the rows it leaves in `main_v58`, along the edge
    lists and weights it is entered with. -/
theorem msg3_of (W : Valuation τ sig (Elt Ideal)) :
    StableHlo.after hostOps3 W (Proc.devRef .tc main_v76)
      = msg (StableHlo.after hostOps3 W (Proc.devRef .tc main_v58)) (W (Proc.devRef .tc main_v1)) (W (Proc.devRef .tc main_v3))
          (W (Proc.devRef .tc main_v28)) := by
  after_results_simp
  rfl

/-- The reference's second-layer messages are the same function of its own stages. -/
theorem ref_msg3 (c : Dev nD) :
    Cert.ReferenceIdeal.Read.val_main_v75 (F := Ideal) (a0 m c) (a2 m c) (a3 m c) (a4 m c) (a5 m c)
      = msg (Cert.ReferenceIdeal.Read.val_main_v57 (F := Ideal) (a0 m c) (a2 m c) (a3 m c) (a4 m c) (a5 m c)) (Cert.ReferenceIdeal.Read.val_main_v1 (F := Ideal) (a2 m c))
          (Cert.ReferenceIdeal.Read.val_main_v3 (F := Ideal) (a2 m c)) (Cert.ReferenceIdeal.Read.val_main_v28 (F := Ideal) (a2 m c)) := rfl

/-- Layer 2's scatter-added messages: the same host operations on both sides, applied to equal operands. -/
theorem V7_v76 (c : Dev nD) : V7 m ρ c main_v76 = Cert.ReferenceIdeal.Read.val_main_v75 (F := Ideal) (a0 m c) (a2 m c) (a3 m c) (a4 m c) (a5 m c) := by
  refine (msg3_of (W6 m ρ c)).trans ?_
  rw [show StableHlo.after hostOps3 (W6 m ρ c) (Proc.devRef .tc main_v58) = _ from V7_v58 m ρ c,
    show W6 m ρ c (Proc.devRef .tc main_v1) = _ from V6_v1 m ρ c,
    show W6 m ρ c (Proc.devRef .tc main_v3) = _ from V6_v3 m ρ c,
    show W6 m ρ c (Proc.devRef .tc main_v28) = _ from V6_v28 m ρ c]
  exact (ref_msg3 m c).symm

/-- The (8, 20000, 64) array re-laid as rows, read at the row of an index. -/
theorem relaidBack_apply (x : S8x20000x64.Idx → EReal) (i : S8x20000x64.Idx) :
    shapeCast S160000x64 x shapeCasts_S8x20000x64_S160000x64 (flat i) = x i :=
  (rows_apply x (flat i)).trans (congrArg x (unflat_flat i))

/-! ## What the stretches before regions 3 and 4 re-lay -/

theorem h2_of (W : Valuation τ sig (Elt Ideal)) :
    StableHlo.after hostOps3 W (Proc.devRef .tc main_v58)
      = shapeCast S8x20000x64 (W (Proc.devRef .tc main_v57)) shapeCasts_S160000x64_S8x20000x64 := by
  after_results_simp
  rfl
theorem rows3_of (W : Valuation τ sig (Elt Ideal)) :
    StableHlo.after hostOps3 W (Proc.devRef .tc main_v77)
      = shapeCast S160000x64 (StableHlo.after hostOps3 W (Proc.devRef .tc main_v76)) shapeCasts_S8x20000x64_S160000x64 := by
  after_results_simp
  rfl
theorem bias3_of (W : Valuation τ sig (Elt Ideal)) :
    StableHlo.after hostOps3 W (Proc.devRef .tc main_v78)
      = shapeCast S1x64 (W (Proc.devRef .tc main_arg6)) shapeCasts_S64_S1x64 := by
  after_results_simp
  rfl
theorem out4_of (W : Valuation τ sig (Elt Ideal)) :
    StableHlo.after hostOps4 W (Proc.devRef .tc main_v80)
      = shapeCast S8x20000x64 (W (Proc.devRef .tc main_v79)) shapeCasts_S160000x64_S8x20000x64 := by
  after_results_simp
  rfl

/-! ## Region 3's operands at the row of an index -/

/-- The messages. -/
theorem V7_v77_at (c : Dev nD) (i : S8x20000x64.Idx) :
    (V7 m ρ c main_v77 : S160000x64.Idx → EReal) (flat i) = Cert.ReferenceIdeal.Read.val_main_v75 (F := Ideal) (a0 m c) (a2 m c) (a3 m c) (a4 m c) (a5 m c) i :=
  (congrFun (rows3_of (W6 m ρ c)) (flat i)).trans <|
    (relaidBack_apply (StableHlo.after hostOps3 (W6 m ρ c) (Proc.devRef .tc main_v76)) i).trans (congrFun (V7_v76 m ρ c) i)

/-- The projection: region 2's rows, which no operation of the stretch writes. -/
theorem V7_v57_at (c : Dev nD) (i : S8x20000x64.Idx) :
    (V7 m ρ c main_v57 : S160000x64.Idx → EReal) (flat i) = Cert.ReferenceIdeal.Read.val_main_v57 (F := Ideal) (a0 m c) (a2 m c) (a3 m c) (a4 m c) (a5 m c) i :=
  (congrFun (keptBy_hostOps3 (W6 m ρ c) main_v57 (by decide)) (flat i)).trans <|
    (relaid_apply (W6 m ρ c (Proc.devRef .tc main_v57)) i).symm.trans <|
    (congrFun (h2_of (W6 m ρ c)) i).symm.trans (congrFun (V7_v58 m ρ c) i)

/-- The self-loop weight of the row's node. -/
theorem V7_v30_at (c : Dev nD) (i : S8x20000x64.Idx) :
    (V7 m ρ c main_v30 : S20000x1.Idx → EReal) (snode3 (flat i))
      = Cert.ReferenceIdeal.Read.val_main_v29 (F := Ideal) (a2 m c) (Cert.ReferenceIdeal.Read.idx_main_v30 (Cert.ReferenceIdeal.Read.idx_main_v76 i)) :=
  (V7_v30 m ρ c (snode3 (flat i))).trans (congrArg (Cert.ReferenceIdeal.Read.val_main_v29 (F := Ideal) (a2 m c)) (funext fun a => Fin.ext (by
    match a with
    | ⟨0, _⟩ =>
      have h1 : (i 1).val < 20000 := (i 1).isLt
      show ((i 0).val * 20000 + (i 1).val) % 20000 = (i 1).val
      omega)))

/-- The bias of the index's column. -/
theorem V7_v78_at (c : Dev nD) (i : S8x20000x64.Idx) :
    (V7 m ρ c main_v78 : S1x64.Idx → EReal) (bcol3 (flat i))
      = (a6 m c : S64.Idx → EReal) (Cert.ReferenceIdeal.Read.idx_main_v79 (Cert.ReferenceIdeal.Read.idx_main_v80 i)) :=
  (congrFun (bias3_of (W6 m ρ c)) (bcol3 (flat i))).trans <|
    (shapeCast_apply (W6 m ρ c (Proc.devRef .tc main_arg6)) shapeCasts_S64_S1x64 (bcol3 (flat i))
      (Cert.ReferenceIdeal.Read.idx_main_v79 (Cert.ReferenceIdeal.Read.idx_main_v80 i))
      (by show (S64.rowMajor (Cert.ReferenceIdeal.Read.idx_main_v79 (Cert.ReferenceIdeal.Read.idx_main_v80 i))).val = (S1x64.rowMajor (bcol3 (flat i))).val
          rewrite [Shape.rowMajor_val_one, Shape.rowMajor_val_two]
          show (i 2).val = 0 * 64 + (i 2).val
          omega)).trans
    (congrFun (W6_arg6 m ρ c) _)

/-! ## Layer 2's output -/

/-- Layer 2's output as (8, 20000, 64), entry by entry: region 3's rows re-laid. -/
theorem V9_v80_at (c : Dev nD) (i : S8x20000x64.Idx) :
    (V9 m ρ c main_v80 : S8x20000x64.Idx → EReal) i = Cert.ReferenceIdeal.Read.val_main_v82 (F := Ideal) (a0 m c) (a2 m c) (a3 m c) (a4 m c) (a5 m c) (a6 m c) i := by
  refine (congrFun (out4_of (W8 m ρ c)) i).trans ?_
  refine (relaid_apply (W8 m ρ c (Proc.devRef .tc main_v79)) i).trans ?_
  refine (congrFun (W8_arr m ρ c 4) (flat i)).trans ?_
  refine (out3_apply (V7 m ρ) c (flat i)).trans ?_
  rw [V7_v77_at, V7_v57_at, V7_v30_at, V7_v78_at]
  simp only [Cert.ReferenceIdeal.Read.val_main_v82_apply, Cert.ReferenceIdeal.Read.val_main_v81_apply, Cert.ReferenceIdeal.Read.val_main_v78_apply, Cert.ReferenceIdeal.Read.val_main_v77_apply,
    Cert.ReferenceIdeal.Read.val_main_v76_apply, Cert.ReferenceIdeal.Read.val_main_v30_apply, Cert.ReferenceIdeal.Read.val_main_v80_apply, Cert.ReferenceIdeal.Read.val_main_v79_apply,
    Cert.ReferenceIdeal.Read.val_main_call1_v0_apply, Cert.ReferenceIdeal.Read.val_main_call1_cst_apply]

/-- Layer 2's output as (8, 20000, 64): region 3's rows re-laid, the reference's agg + hw * selfnorm + b, then max with 0. -/
theorem V9_v80 (c : Dev nD) : V9 m ρ c main_v80 = Cert.ReferenceIdeal.Read.val_main_v82 (F := Ideal) (a0 m c) (a2 m c) (a3 m c) (a4 m c) (a5 m c) (a6 m c) :=
  funext (V9_v80_at m ρ c)

end Cert.KernelIdeal.Val

end
-- ==== Proof.KIVal4.lean ====
/- What region 4 (the mean over the node axis, accumulated over ten blocks of 2000 nodes) leaves in its output array,
   over the extended reals: entry (b, o) is the sum over all 20000 nodes n of h(b, n, o), times 1/20000. -/
import proofs.«403166_j89026082111548_2_alg».proof.Proof.KIPool4
import Idealize.ShloMosaic.Lib.ValueIdx
import Idealize.ShloMosaic.Lib.Pipeline.Value
import Idealize.ShloMosaic.PureOps.Ideal.Laws

set_option maxRecDepth 16384

noncomputable section

namespace Cert.KernelIdeal.Val

open Idealize.ShloMosaic Idealize.ShloMosaic.TcCoe Idealize.SL.Sem
open Cert.KernelIdeal Cert.KernelIdeal.Gen
open Idealize.ShloMosaic.Pipeline (Dat)

variable (V : (c : Dev nD) → (b : Ref sig .tc) → Buf (Elt Ideal) ((c : Thread nD τ).loc b))

/-- Batch element `i 0`, node `n`, feature `i 1`. -/
abbrev node4 (i : S8x64.Idx) (n : Fin 20000) : S8x20000x64.Idx := fun a => match a with
  | ⟨0, _⟩ => ⟨(i 0).val, (i 0).isLt⟩
  | ⟨1, _⟩ => ⟨n.val, n.isLt⟩
  | ⟨2, _⟩ => ⟨(i 1).val, (i 1).isLt⟩

/-- The named reciprocal of the node count denotes the rational 1/20000 over the extended reals, by the table of
    named constants. -/
theorem inv_20000 : Named.named (F := Ideal) κ "inv_20000" (φ := .f32) 0x3851B717#32 = ((1 / 20000 : ℝ) : EReal) :=
  IdealRules.named_const.ideal_named_scalar _ _ _ _ rfl

/-- The node window's block index per axis, decided over the ten grid points: point `t`'s block is the whole batch
    axis, the nodes from `2000 t` on, and the whole feature axis. -/
theorem idx_facts4 : ∀ t : Fin cfg4.N, win4_0.index t (0 : Fin 3) = 0 ∧ win4_0.index t (1 : Fin 3) = t.val ∧ win4_0.index t (2 : Fin 3) = 0 :=
  (by decide +kernel : ∀ t : Fin grid4.N, _)

/-- The last payload at an index: the accumulator's entry times 1/20000. -/
theorem k4_pay3_apply (v : Vec Ideal S8x64 .f32) (i : S8x64.Idx) :
    (k4_pay3 (F := Ideal) v : S8x64.Idx → EReal) i = (v i : EReal) * ((1 / 20000 : ℝ) : EReal) := by
  simp only [k4_pay3, mulf, broadcast, Ideal.mulf_def, Ideal.scalar_mulf_def, inv_20000]

/-- The reset payload at an index: zero. -/
theorem k4_pay1_apply (i : S8x64.Idx) : (k4_pay1 (F := Ideal) : S8x64.Idx → EReal) i = 0 := by
  unfold k4_pay1
  rw [shapeCast_self]
  exact Ideal.ofBits_zero_f32

/-- The accumulating payload at an index: the accumulator's entry plus the sum of the block over its 2000 rows. -/
theorem k4_pay2_apply (a : Vec Ideal S8x64 .f32) (x : Vec Ideal S8x2000x64 .f32) (i : S8x64.Idx) :
    (k4_pay2 (F := Ideal) a x : S8x64.Idx → EReal) i
      = (a i : EReal) + ∑ r : Fin 2000, (x : S8x2000x64.Idx → EReal) (reduces_S8x2000x64_S8x64.lift i r) := by
  unfold k4_pay2
  rw [shapeCast_self, shapeCast_self, ValueIdx.addf_apply]
  exact congrArg (a i + ·) (Ideal.multiReduction_add_single x 0x00000000#32 reduces_S8x2000x64_S8x64 (.inl rfl) rfl i)

/-- Entry (batch `i 0`, node `k`, feature `i 1`) of the node-feature array at a natural-number node, zero past the end. -/
def nodeVal4 (c : Dev nD) (i : S8x64.Idx) (k : ℕ) : EReal :=
  if h : k < 20000 then (V c main_v80 : S8x20000x64.Idx → EReal) (node4 i ⟨k, h⟩) else 0

/-- Where index `j` of grid point `t`'s node block sits in the array. -/
def embBlk4 (t : Fin cfg4.N) (j : S8x2000x64.Idx) : S8x20000x64.Idx := ((cfg4.win 0).blk t).view.emb j

/-- Row `r` of grid point `t`'s node block is node `r + 2000 t` of the array: a block's coordinate on an axis is the
    block index times the block's extent plus the coordinate inside the block. -/
theorem iblk4_apply (c : Dev nD) (t : Fin cfg4.N) (i : S8x64.Idx) (r : Fin 2000) :
    (iblk4 (F := Ideal) V c 0 t : S8x2000x64.Idx → EReal) (reduces_S8x2000x64_S8x64.lift i r) = nodeVal4 V c i (r.val + 2000 * t.val) := by
  have hr : r.val < 2000 := r.isLt
  have hi0 : (i 0).val < 8 := (i 0).isLt
  have hi1 : (i 1).val < 64 := (i 1).isLt
  have ht : t.val < 10 := lt_of_lt_of_eq t.isLt N_4
  have hk : r.val + 2000 * t.val < 20000 := by omega
  obtain ⟨e0, e1, e2⟩ := idx_facts4 t
  rw [nodeVal4, dif_pos hk]
  show (V c main_v80 : S8x20000x64.Idx → EReal) (embBlk4 t (reduces_S8x2000x64_S8x64.lift i r)) = (V c main_v80 : S8x20000x64.Idx → EReal) (node4 i ⟨r.val + 2000 * t.val, hk⟩)
  congr 1
  funext a; apply Fin.ext
  match a with
  | ⟨0, _⟩ => show win4_0.index t (0 : Fin 3) * 8 + 1 * (i 0).val = (i 0).val; omega
  | ⟨1, _⟩ => show win4_0.index t (1 : Fin 3) * 2000 + 1 * r.val = r.val + 2000 * t.val; omega
  | ⟨2, _⟩ => show win4_0.index t (2 : Fin 3) * 64 + 1 * (i 1).val = (i 1).val; omega

/-- The same for the block named by a natural number within the grid. -/
theorem nodeBlk4_apply (c : Dev nD) (n : ℕ) (hn : n ≤ 9) (i : S8x64.Idx) (r : Fin 2000) :
    (nodeBlk4 (F := Ideal) V c n : S8x2000x64.Idx → EReal) (reduces_S8x2000x64_S8x64.lift i r) = nodeVal4 V c i (r.val + 2000 * n) :=
  (iblk4_apply V c ⟨min n 9, Nat.lt_of_le_of_lt (Nat.min_le_right n 9) (by decide : 9 < cfg4.N)⟩ i r).trans (by
    show nodeVal4 V c i (r.val + 2000 * min n 9) = _
    rw [Nat.min_eq_left hn])

/-- The accumulator after grid point `n`, entry by entry: the sum over the points up to `n` of the sums of their blocks. -/
theorem acc4_apply (c : Dev nD) (i : S8x64.Idx) : ∀ n : ℕ, n ≤ 9 →
    (acc4 (F := Ideal) V c n : S8x64.Idx → EReal) i = ∑ t ∈ Finset.range (n + 1), ∑ r : Fin 2000, nodeVal4 V c i (r.val + 2000 * t)
  | 0, _ => by
    rw [acc4, k4_pay2_apply, k4_pay1_apply, zero_add, Finset.sum_range_one]
    exact Finset.sum_congr rfl fun r _ => nodeBlk4_apply V c 0 (by omega) i r
  | n + 1, h => by
    rw [acc4, k4_pay2_apply, acc4_apply c i n (by omega), Finset.sum_range_succ _ (n + 1)]
    exact congrArg _ (Finset.sum_congr rfl fun r _ => nodeBlk4_apply V c (n + 1) h i r)

/-- Ten sums of 2000 consecutive nodes are the one sum over all 20000: the pair (point, row) is the node
    `row + 2000 · point`, a bijection onto the nodes; only associativity and commutativity of the sum are used. -/
theorem sum_blocks4 (c : Dev nD) (i : S8x64.Idx) :
    ∑ t ∈ Finset.range 10, ∑ r : Fin 2000, nodeVal4 V c i (r.val + 2000 * t)
      = (∑ n : Fin 20000, (V c main_v80 : S8x20000x64.Idx → EReal) (node4 i n) : EReal) :=
  calc ∑ t ∈ Finset.range 10, ∑ r : Fin 2000, nodeVal4 V c i (r.val + 2000 * t)
      = ∑ t : Fin 10, ∑ r : Fin 2000, nodeVal4 V c i (r.val + 2000 * t.val) :=
        Finset.sum_range (fun t => ∑ r : Fin 2000, nodeVal4 V c i (r.val + 2000 * t))
    _ = ∑ p : Fin 10 × Fin 2000, nodeVal4 V c i (p.2.val + 2000 * p.1.val) :=
        (Fintype.sum_prod_type' (fun (t : Fin 10) (r : Fin 2000) => nodeVal4 V c i (r.val + 2000 * t.val))).symm
    _ = ∑ k : Fin (10 * 2000), nodeVal4 V c i k.val :=
        Equiv.sum_comp (finProdFinEquiv (m := 10) (n := 2000)) (fun k : Fin (10 * 2000) => nodeVal4 V c i k.val)
    _ = (∑ n : Fin 20000, (V c main_v80 : S8x20000x64.Idx → EReal) (node4 i n) : EReal) :=
        Finset.sum_congr rfl fun k _ => dif_pos k.isLt

/-- The output array after the region, entry by entry: the sum over the nodes, in the order of the reference's sum
    (zero first), times the named reciprocal. -/
theorem out4_apply (c : Dev nD) (i : S8x64.Idx) :
    ((dat4 (F := Ideal) V c).arrAt 1 cfg4.N : S8x64.Idx → EReal) i
      = ((0 : EReal) + (∑ n : Fin 20000, (V c main_v80 : S8x20000x64.Idx → EReal) (node4 i n) : EReal)) * (((1 / 20000 : ℝ) : ℝ) : EReal) := by
  rw [show ((dat4 (F := Ideal) V c).arrAt 1 cfg4.N : S8x64.Idx → EReal) = k4_pay3 (acc4 V c 9) from arrAt4_out V c]
  rw [k4_pay3_apply, acc4_apply V c i 9 (le_refl 9), sum_blocks4, zero_add]

end Cert.KernelIdeal.Val

end
-- ==== Proof.KIChainD.lean ====
/- The tail of the kernel program read against the reference. Region 4 leaves, at entry (b, o), the sum over the 20000
   nodes of layer 2's output times the reciprocal 1/20000; the reference reduces the same array over its node axis (zero
   first) and divides by the constant 20000. On the extended reals a quotient by a nonzero real is the product with its
   reciprocal, so the two pooled arrays agree entry by entry. The last host stretch (join the extra feature, product with
   the head's weights, add its bias) is the reference's last five operations on equal operands. -/
import proofs.«403166_j89026082111548_2_alg».proof.Proof.KIBounds
import proofs.«403166_j89026082111548_2_alg».proof.Proof.KIArgs
import proofs.«403166_j89026082111548_2_alg».proof.Proof.KIChainA
import proofs.«403166_j89026082111548_2_alg».proof.Proof.KIChainC
import proofs.«403166_j89026082111548_2_alg».proof.Proof.KIVal4
import proofs.«403166_j89026082111548_2_alg».proof.Proof.RefSide
import Idealize.ShloMosaic.Lib.ValueIdx
import Idealize.ShloMosaic.Lib.Pipeline.Value
import Idealize.ShloMosaic.Lib.StableHlo.Run
import Idealize.ShloMosaic.PureOps.Ideal.Laws

set_option maxRecDepth 16384

noncomputable section

namespace Cert.KernelIdeal.Val

open Idealize.ShloMosaic Idealize.ShloMosaic.TcCoe Idealize.SL.Sem
open Cert.KernelIdeal Cert.KernelIdeal.Gen
open Idealize.ShloMosaic.Pipeline (Dat)

variable (m : (ℓ : Loc nD τ sig) → Buf (Elt Ideal) ℓ) (ρ : Dev nD → PrngReg)

/-! ## The two float literals of the reference's mean -/

/-- The pattern of `+0.0`, the reduction's initial value, denotes `0`. -/
theorem tail_ofBits_zero : Ideal.ofBits .f32 0x00000000#32 = 0 := by
  simp [Ideal.ofBits, Ideal.ieee]

/-- The pattern `0x469C4000` (sign 0, exponent 141, fraction 1851392 / 2^23: 2^14 · 1.220703125), the reference's
    divisor, denotes the real `20000`. -/
theorem tail_ofBits_20000 : Ideal.ofBits .f32 0x469C4000#32 = ((20000 : ℝ) : EReal) := by
  simp [Ideal.ofBits, Ideal.ieee, -EReal.coe_mul]; norm_num

/-! ## The pooled mean -/

/-- Batch element `i 0`, node `n`, feature `i 1`: the kernel's index into layer 2's output and the reference's index
    into its reduction's operand are the same index. -/
theorem tail_node_eq (i : S8x64.Idx) (n : Fin 20000) : node4 i n = Cert.ReferenceIdeal.Read.idx_main_v83 i n :=
  funext fun a => Fin.ext (by match a with | ⟨0, _⟩ => rfl | ⟨1, _⟩ => rfl | ⟨2, _⟩ => rfl)

/-- Entry by entry: region 4's array is (0 + Σₙ h(b, n, o)) · (1/20000) with h the reference's layer-2 output; the
    reference's is (0 + Σₙ h(b, n, o)) / 20000, and `x / 20000 = x · (1/20000)` for every extended real `x`. -/
theorem V10_v81_apply (c : Dev nD) (i : S8x64.Idx) :
    (V10 m ρ c main_v81 : S8x64.Idx → EReal) i
      = (Cert.ReferenceIdeal.Read.val_main_v85 (F := Ideal) (a0 m c) (a2 m c) (a3 m c) (a4 m c) (a5 m c) (a6 m c) : S8x64.Idx → EReal) i := by
  show (W10 m ρ c (Proc.devRef .tc (Pipeline.arrRef spec4 1)) : S8x64.Idx → EReal) i = _
  rw [W10_arr m ρ c 1]
  refine (out4_apply (V9 m ρ) c i).trans ?_
  rw [V9_v80 m ρ c, Cert.ReferenceIdeal.Read.val_main_v85_apply, Cert.ReferenceIdeal.Read.val_main_v83_apply, Cert.ReferenceIdeal.Read.val_main_v84_apply,
    Cert.ReferenceIdeal.Read.val_main_cst_16_apply, Cert.ReferenceIdeal.Read.val_main_cst_17_apply]
  rw [Ideal.hostDivf_def, Ideal.ofBits_def, Ideal.ofBits_def, tail_ofBits_zero, tail_ofBits_20000, Ideal.div_coe (by norm_num : (20000 : ℝ) ≠ 0)]
  simp only [tail_node_eq]

/-- The pooled mean: region 4's output array is the reference's quotient of its node-axis sum by 20000. -/
theorem V10_v81 (c : Dev nD) : V10 m ρ c main_v81 = Cert.ReferenceIdeal.Read.val_main_v85 (F := Ideal) (a0 m c) (a2 m c) (a3 m c) (a4 m c) (a5 m c) (a6 m c) :=
  funext (V10_v81_apply m ρ c)

/-! ## The result -/

/-- The program's result: the last stretch joins the pooled mean with the extra feature, multiplies by the head's
    weights and adds its bias. These are the reference's last five operations; the operands are equal (the pooled mean
    by `V10_v81`, the three arguments because no item writes an argument), so the results are. -/
theorem W11_v86 (c : Dev nD) : W11 m ρ c (Proc.devRef .tc main_v86) = Cert.ReferenceIdeal.Read.val_main_v90 (F := Ideal) (a0 m c) (a1 m c) (a2 m c) (a3 m c) (a4 m c) (a5 m c) (a6 m c) (a7 m c) (a8 m c) := by
  show StableHlo.after hostOps5 (W10 m ρ c) (Proc.devRef .tc main_v86) = _
  after_results
  rw [W10_arg1, W10_arg7, W10_arg8, show W10 m ρ c (Proc.devRef .tc main_v81) = _ from V10_v81 m ρ c]
  rfl

end Cert.KernelIdeal.Val

end
-- ==== Proof.lean ====
/- The certificate's claim, assembled.
   Each kernel program is read as eleven items in a row: six stretches of host operations and, between them, five
   kernel regions (two projections h · W, two combine steps max (agg + hw · selfnorm + b) 0, one mean over the nodes).
   One statement per program carries everything: every weakly fair run ends, faulting nowhere, with every buffer the
   host can see at the contents of the last boundary of the fold over those items; and no item writes an argument.
   The three frames are that statement with all but the arguments dropped (the reference's from its run).
   The idealization conjunct is the one ledger entry: the pooling kernel's reciprocal of the node count is the
   rational 1/20000. The equivalence: the idealized kernel program's result buffer at the last boundary is, stage by
   stage, the reference's result term of the same arguments: the shared gather / scatter-add chain is the same
   operations on equal operands, a block-wise matrix product is the einsum, the combine step is the reference's sum
   and maximum entry by entry, and a sum of ten partial sums times 1/20000 is the mean. -/
import proofs.«403166_j89026082111548_2_alg».proof.Defs
import proofs.«403166_j89026082111548_2_alg».proof.Proof.Gen.Kernel
import proofs.«403166_j89026082111548_2_alg».proof.Proof.Gen.KernelIdeal
import proofs.«403166_j89026082111548_2_alg».proof.Proof.Gen.ReferenceIdeal
import proofs.«403166_j89026082111548_2_alg».proof.Proof.Gen.Pre_finite_inputs
import proofs.«403166_j89026082111548_2_alg».proof.Proof.KArgs
import proofs.«403166_j89026082111548_2_alg».proof.Proof.KRun
import proofs.«403166_j89026082111548_2_alg».proof.Proof.KIArgs
import proofs.«403166_j89026082111548_2_alg».proof.Proof.KIRun
import proofs.«403166_j89026082111548_2_alg».proof.Proof.KIChainD
import proofs.«403166_j89026082111548_2_alg».proof.Proof.RefSide
import Idealize.ShloMosaic.Adequacy
import Idealize.ShloMosaic.Init

set_option maxRecDepth 16384

noncomputable section

namespace Cert.Proof

open Idealize.ShloMosaic Idealize.SL.Sem

/-- The word-level program runs to the end and keeps its arguments. -/
theorem frame_k : Cert.frame_Kernel := fun m g _ =>
  (θ_run (Cert.Kernel.defs (F := Bits)) _ _).mono (fun r h c =>
    ⟨(h c _ (Cert.Kernel.Gen.mem_uc Cert.Kernel.main_arg0 (by decide))).trans (Cert.Kernel.Gen.W11_arg0 m g c),
      (h c _ (Cert.Kernel.Gen.mem_uc Cert.Kernel.main_arg1 (by decide))).trans (Cert.Kernel.Gen.W11_arg1 m g c),
      (h c _ (Cert.Kernel.Gen.mem_uc Cert.Kernel.main_arg2 (by decide))).trans (Cert.Kernel.Gen.W11_arg2 m g c),
      (h c _ (Cert.Kernel.Gen.mem_uc Cert.Kernel.main_arg3 (by decide))).trans (Cert.Kernel.Gen.W11_arg3 m g c),
      (h c _ (Cert.Kernel.Gen.mem_uc Cert.Kernel.main_arg4 (by decide))).trans (Cert.Kernel.Gen.W11_arg4 m g c),
      (h c _ (Cert.Kernel.Gen.mem_uc Cert.Kernel.main_arg5 (by decide))).trans (Cert.Kernel.Gen.W11_arg5 m g c),
      (h c _ (Cert.Kernel.Gen.mem_uc Cert.Kernel.main_arg6 (by decide))).trans (Cert.Kernel.Gen.W11_arg6 m g c),
      (h c _ (Cert.Kernel.Gen.mem_uc Cert.Kernel.main_arg7 (by decide))).trans (Cert.Kernel.Gen.W11_arg7 m g c),
      (h c _ (Cert.Kernel.Gen.mem_uc Cert.Kernel.main_arg8 (by decide))).trans (Cert.Kernel.Gen.W11_arg8 m g c)⟩)
    (Cert.Kernel.Gen.run_all (F := Bits) m g)

/-- So does its idealization. -/
theorem frame_ki : Cert.frame_KernelIdeal := fun m g _ =>
  (θ_run (Cert.KernelIdeal.defs (F := Ideal)) _ _).mono (fun r h c =>
    ⟨(h c _ (Cert.KernelIdeal.Gen.mem_uc Cert.KernelIdeal.main_arg0 (by decide))).trans (Cert.KernelIdeal.Gen.W11_arg0 m g c),
      (h c _ (Cert.KernelIdeal.Gen.mem_uc Cert.KernelIdeal.main_arg1 (by decide))).trans (Cert.KernelIdeal.Gen.W11_arg1 m g c),
      (h c _ (Cert.KernelIdeal.Gen.mem_uc Cert.KernelIdeal.main_arg2 (by decide))).trans (Cert.KernelIdeal.Gen.W11_arg2 m g c),
      (h c _ (Cert.KernelIdeal.Gen.mem_uc Cert.KernelIdeal.main_arg3 (by decide))).trans (Cert.KernelIdeal.Gen.W11_arg3 m g c),
      (h c _ (Cert.KernelIdeal.Gen.mem_uc Cert.KernelIdeal.main_arg4 (by decide))).trans (Cert.KernelIdeal.Gen.W11_arg4 m g c),
      (h c _ (Cert.KernelIdeal.Gen.mem_uc Cert.KernelIdeal.main_arg5 (by decide))).trans (Cert.KernelIdeal.Gen.W11_arg5 m g c),
      (h c _ (Cert.KernelIdeal.Gen.mem_uc Cert.KernelIdeal.main_arg6 (by decide))).trans (Cert.KernelIdeal.Gen.W11_arg6 m g c),
      (h c _ (Cert.KernelIdeal.Gen.mem_uc Cert.KernelIdeal.main_arg7 (by decide))).trans (Cert.KernelIdeal.Gen.W11_arg7 m g c),
      (h c _ (Cert.KernelIdeal.Gen.mem_uc Cert.KernelIdeal.main_arg8 (by decide))).trans (Cert.KernelIdeal.Gen.W11_arg8 m g c)⟩)
    (Cert.KernelIdeal.Gen.run_all (F := Ideal) m g)

/-- And the reference: its run, the result dropped. -/
theorem frame_ri : Cert.frame_ReferenceIdeal := fun m g _ =>
  (θ_run Cert.ReferenceIdeal.defs _ _).mono (fun _ h c => (h c).2) (Cert.ReferenceIdeal.Value.run (F := Ideal) m g)

/-- The ledger's one entry: the table gives the pooling kernel's constant the value 1/20000. -/
theorem preserves : Cert.preserves_Kernel_KernelIdeal :=
  IdealRules.named_const.statement Cert.KernelIdeal.κ "inv_20000" .f32 0x3851B717#32 ((1 / 20000 : ℝ) : EReal) rfl

/-- Over the extended reals both programs end with the same result: the idealized kernel program's result buffer at
    the last boundary, which is the reference's result term of arguments that agree. -/
theorem algebraic : Cert.algebraic_KernelIdeal_ReferenceIdeal := by
  intro m g m' g' _ hagree
  refine ⟨fun c => Cert.KernelIdeal.Gen.W11 m g c (Proc.devRef .tc Cert.KernelIdeal.main_v86), ?_, ?_⟩
  · exact (θ_run (Cert.KernelIdeal.defs (F := Ideal)) _ _).mono (fun r h c =>
      ⟨h c _ (Cert.KernelIdeal.Gen.mem_uc Cert.KernelIdeal.main_v86 (by decide)),
      (h c _ (Cert.KernelIdeal.Gen.mem_uc Cert.KernelIdeal.main_arg0 (by decide))).trans (Cert.KernelIdeal.Gen.W11_arg0 m g c),
      (h c _ (Cert.KernelIdeal.Gen.mem_uc Cert.KernelIdeal.main_arg1 (by decide))).trans (Cert.KernelIdeal.Gen.W11_arg1 m g c),
      (h c _ (Cert.KernelIdeal.Gen.mem_uc Cert.KernelIdeal.main_arg2 (by decide))).trans (Cert.KernelIdeal.Gen.W11_arg2 m g c),
      (h c _ (Cert.KernelIdeal.Gen.mem_uc Cert.KernelIdeal.main_arg3 (by decide))).trans (Cert.KernelIdeal.Gen.W11_arg3 m g c),
      (h c _ (Cert.KernelIdeal.Gen.mem_uc Cert.KernelIdeal.main_arg4 (by decide))).trans (Cert.KernelIdeal.Gen.W11_arg4 m g c),
      (h c _ (Cert.KernelIdeal.Gen.mem_uc Cert.KernelIdeal.main_arg5 (by decide))).trans (Cert.KernelIdeal.Gen.W11_arg5 m g c),
      (h c _ (Cert.KernelIdeal.Gen.mem_uc Cert.KernelIdeal.main_arg6 (by decide))).trans (Cert.KernelIdeal.Gen.W11_arg6 m g c),
      (h c _ (Cert.KernelIdeal.Gen.mem_uc Cert.KernelIdeal.main_arg7 (by decide))).trans (Cert.KernelIdeal.Gen.W11_arg7 m g c),
      (h c _ (Cert.KernelIdeal.Gen.mem_uc Cert.KernelIdeal.main_arg8 (by decide))).trans (Cert.KernelIdeal.Gen.W11_arg8 m g c)⟩)
      (Cert.KernelIdeal.Gen.run_all (F := Ideal) m g)
  · refine (θ_run Cert.ReferenceIdeal.defs _ _).mono (fun _ h c => ⟨(h c).1.trans ?_, (h c).2⟩)
      (Cert.ReferenceIdeal.Value.run (F := Ideal) m' g')
    obtain ⟨e0, e1, e2, e3, e4, e5, e6, e7, e8⟩ := hagree c
    show Cert.ReferenceIdeal.Value.res_main_v90 m' c
      = Cert.KernelIdeal.Gen.W11 m g c (Proc.devRef .tc Cert.KernelIdeal.main_v86)
    rw [Cert.KernelIdeal.Val.W11_v86 m g c, Cert.ReferenceIdeal.Read.val_main_v90_eq, e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
